-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024x4096 : Shape := ⟨2, ![1024, 4096]⟩
abbrev S1024x1024 : Shape := ⟨2, ![1024, 1024]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  transposes_S4096x1024_S1024x4096_1_0 : S4096x1024.Transposes [1, 0] S1024x4096
  reducesTo_S1024x1024_S1024_d0 : S1024x1024.ReducesTo [0] S1024
  bcast_S_S1024 : S_.BroadcastsInDim S1024 (![] : Fin 0 → Fin S1024.rank)
  reducesTo_S1024_S_d0 : S1024.ReducesTo [0] S_
  dot_S1024x4096_S4096x1024_S1024x1024_1_0_0_1_n_n_wf : DotDims.WF S1024x4096 S4096x1024 S1024x1024 [1] [0] [0] [1] [] []

variable [Facts]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def fn_part2 {F : FTy → Type} [FloatOps F] (main_arg2 : FVec F S4096x1024 .f32) (main_v33 : IVec S_ 1) : IVec S_ 1 :=
  let main_v34 : FVec F S1024x4096 .f32 := (transpose S1024x4096 [1, 0] · transposes_S4096x1024_S1024x4096_1_0) main_arg2
  let main_v35 : FVec F S1024x1024 .f32 := (fun l r => Host.dotGeneral dot_S1024x4096_S4096x1024_S1024x1024_1_0_0_1_n_n none l r) main_v34 main_arg2
  let main_v36 : FVec F S1024x1024 .f32 := Host.sqrt main_v35
  let main_cst_12 : FVec F S_ .f32 := constant S_ .f32 0x00000000#32
  let main_v37 : FVec F S1024 .f32 := (fun x v => Host.reduceAdd x v reducesTo_S1024x1024_S1024_d0 h_S_) main_v36 main_cst_12
  let main_cst_13 : FVec F S_ .f32 := constant S_ .f32 0x00000000#32
  let main_v38 : FVec F S1024 .f32 := broadcastInDim S1024 ![] bcast_S_S1024 main_cst_13
  let main_v39 : IVec S1024 1 := cmpf .une main_v37 main_v38
  let main_c_14 : IVec S_ 1 := constantI S_ 1 1#1
  let main_v40 : IVec S_ 1 := (fun x v => Host.reduce IntOp.andi x v reducesTo_S1024_S_d0 h_S_) main_v39 main_c_14
  let main_v41 : IVec S_ 1 := andi main_v33 main_v40
  main_v41

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x128 : Shape := ⟨2, ![1024, 128]⟩
abbrev S1024x1024 : Shape := ⟨2, ![1024, 1024]⟩
abbrev S2000x256 : Shape := ⟨2, ![2000, 256]⟩
abbrev S512x512 : Shape := ⟨2, ![512, 512]⟩
abbrev S1024x512 : Shape := ⟨2, ![1024, 512]⟩
abbrev S512 : Shape := ⟨1, ![512]⟩
abbrev S512x256 : Shape := ⟨2, ![512, 256]⟩
abbrev S512x1 : Shape := ⟨2, ![512, 1]⟩
abbrev S2000x1024 : Shape := ⟨2, ![2000, 1024]⟩
abbrev S2000x128 : Shape := ⟨2, ![2000, 128]⟩
abbrev S2000x1 : Shape := ⟨2, ![2000, 1]⟩

abbrev nBuf : Space → Nat
  | .hbm => 12
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S_, .bf16⟩
  | .hbm, ⟨10, _⟩ => ⟨S1024x128, .bf16⟩
  | .hbm, ⟨11, _⟩ => ⟨S10000x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S1024x128, .bf16⟩
  | .local _ .vmem, ⟨10, _⟩ => ⟨S2000x256, .f32⟩
  | .local _ .vmem, ⟨11, _⟩ => ⟨S2000x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1024x256, .bf16⟩
  | .local _ .vmem, ⟨16, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![9], ![false]⟩

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  bcast_S_S1024x128 : S_.BroadcastsInDim S1024x128 (![] : Fin 0 → Fin S1024x128.rank)
  inb_S1024x1024_S1024x512_0_0 : ∀ a, (![0, 0] : Fin 2 → Nat) a + S1024x512.size a ≤ S1024x1024.size a
  h_S1024x512 : 0 < S1024x512.numel
  bitsLt_bf16_f32 : FTy.bits .bf16 < FTy.bits .f32
  inb_S1024x1024_S1024x512_0_512 : ∀ a, (![0, 512] : Fin 2 → Nat) a + S1024x512.size a ≤ S1024x1024.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [0] S512
  reduces_S512x512_S512_2 : S512x512.Reduces [1] S512
  inb_S1024x256_S1024x256_0_0 : ∀ a, (![0, 0] : Fin 2 → Nat) a + S1024x256.size a ≤ S1024x256.size a
  h_S1024x256 : 0 < S1024x256.numel
  slices_S1024x256_o0_0_S512x256 : S1024x256.Slices ![0, 0] S512x256
  shapeCasts_S512_S512x1 : S512.ShapeCasts S512x1
  broadcasts_S512x1_S512x256 : S512x1.Broadcasts S512x256
  slices_S1024x256_o512_0_S512x256 : S1024x256.Slices ![512, 0] S512x256
  inb_S1024x256_S512x256_0_0 : ∀ a, (![0, 0] : Fin 2 → Nat) a + S512x256.size a ≤ S1024x256.size a
  h_S512x256 : 0 < S512x256.numel
  shapeCasts_S512x256_S512x256 : S512x256.ShapeCasts S512x256
  packedbf16_S1024x256_S512x256_0_0 : (Rect.unit (s := S1024x256) ![0, 0] S512x256.size inb_S1024x256_S512x256_0_0).PackedRows (EltTy.packing .bf16)
  inb_S1024x256_S512x256_512_0 : ∀ a, (![512, 0] : Fin 2 → Nat) a + S512x256.size a ≤ S1024x256.size a
  packedbf16_S1024x256_S512x256_512_0 : (Rect.unit (s := S1024x256) ![512, 0] S512x256.size inb_S1024x256_S512x256_512_0).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S2000x128_o0_0_S2000x1 : S2000x128.Slices ![0, 0] S2000x1
  broadcasts_S2000x1_S2000x256 : S2000x1.Broadcasts S2000x256
  dot_S1024x512_S1024x512_S512x512_0_0_1_1_n_n_wf : DotDims.WF S1024x512 S1024x512 S512x512 [0] [0] [1] [1] [] []
  dot_S512x512_S512x256_S512x256_1_0_0_1_n_n_wf : DotDims.WF S512x512 S512x256 S512x256 [1] [0] [0] [1] [] []
  dot_S512x512_S512x256_S512x256_0_0_1_1_n_n_wf : DotDims.WF S512x512 S512x256 S512x256 [0] [0] [1] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S10000x256.size a
  hwx0_8 : ∀ i : grid0.Coords, EltTy.bits .f32 = 32 ∨ (Rect.block (s := S10000x256) S2000x256.size (cc0_transform_8 i) (hinb0_8 i)).WholeWords (EltTy.packing .f32)

variable [Facts₀]

def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.K.Cases.lean ====
/-
  The four control cases of the fused kernel's body over its nine grid points, decided once: the first Gram
  step (point 0), the accumulating Gram steps (points 1 and 2), the last Gram step followed by the
  preamble's finish (point 3), and the attention steps (points 4 to 8). Also: where the output window
  is idle and not written back, the staging and scratch memrefs the body is called with, and the
  region invariant with the five scratch buffers spelled out.
-/
import proofs.«168895_g52209622450808_cont_9to1_m_767_18_alg».proof.Proof.Gen.Kernel.Frame
import proofs.«168895_g52209622450808_cont_9to1_m_767_18_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, as the skeleton spells them, and their closed forms over the grid -/

/-- `program_id == 0`. -/
abbrev cond0_0 (i : grid0.Coords) : Prop := (Scalar.cmpi .ne (Scalar.extui (Scalar.cmpi .eq (BitVec.ofNat 32 (i 0).val) 0#32)) 0#32) = 1#1
/-- `0 < program_id < 4`. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
/-- `program_id == 3`. -/
abbrev cond0_2 (i : grid0.Coords) : Prop := (Scalar.cmpi .ne (Scalar.extui (Scalar.cmpi .eq (BitVec.ofNat 32 (i 0).val) 3#32)) 0#32) = 1#1
/-- `program_id >= 4`. -/
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ (0 < t.val ∧ t.val < 4) :=
  (by decide +kernel : ∀ t : Fin grid0.N, cond0_1 (grid0.coords t) ↔ (0 < t.val ∧ t.val < 4))
theorem hcond0_2 : ∀ t : Fin cfg0.N, cond0_2 (grid0.coords t) ↔ t.val = 3 :=
  (by decide +kernel : ∀ t : Fin grid0.N, cond0_2 (grid0.coords t) ↔ t.val = 3)
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Before the attention steps the body stores nothing into the output window, and the pipeline does not write it back. -/
theorem idleAt0_8 : ∀ t : Fin cfg0.N, t.val < 4 → cfg0.idle 8 (grid0.coords t) = true := by decide +kernel
theorem noFlush0_8 : ∀ t : Fin cfg0.N, t.val < 4 → (cfg0.win 8).flush t = false := by decide +kernel
/-- At the attention steps it stores the whole block. -/
theorem liveAt0_8 : ∀ t : Fin cfg0.N, 4 ≤ t.val → cfg0.idle 8 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x256 .f32 := win0_8.stage (cfg0.slots t 8)
abbrev hs0_8 (t : Fin cfg0.N) : (ms0_8 t).IsWhole := hstage0_8 ((cfg0.slots t 8).cast nbuf0_8)

/-- The five scratch operands: the three Gram quadrants, the mixed rows and the scaled keys. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S1024x256 .bf16 := Memref.whole cc0_scratch3
abbrev scM0_4 : Memref sig .tc .vmem S1024x256 .bf16 := Memref.whole cc0_scratch4
abbrev VS0_0 : View sig .tc .vmem S512x512 .f32 := scM0_0.view
abbrev VS0_1 : View sig .tc .vmem S512x512 .f32 := scM0_1.view
abbrev VS0_2 : View sig .tc .vmem S512x512 .f32 := scM0_2.view
abbrev VS0_3 : View sig .tc .vmem S1024x256 .bf16 := scM0_3.view
abbrev VS0_4 : View sig .tc .vmem S1024x256 .bf16 := scM0_4.view
/-- One staging buffer of the output window, through which its contents are stated. -/
abbrev VO0_8 : View sig .tc .vmem S2000x256 .f32 := (Memref.whole cc0_stg8_0 : Memref sig .tc .vmem S2000x256 .f32).view

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.K.Steps.lean ====
/-
  What each control case of the fused kernel leaves in the buffers it stores into, as pure functions of the
  blocks it loads and of what the scratch buffers held: the first Gram step's three quadrant products, an
  accumulating Gram step's sums, the preamble's mixed rows and scaled keys, and an attention step's output block.
  Generic in the float instance; the arithmetic itself is the skeleton's named payloads.
-/
import proofs.«168895_g52209622450808_cont_9to1_m_767_18_alg».proof.Proof.Gen.Kernel.Skeleton
import Idealize.ShloMosaic.Lib.Pipeline.FrameBody

noncomputable section

namespace Cert.Kernel.Gen

open Idealize.ShloMosaic Idealize.SL.Sem

variable {F : FTy → Type} [FloatOps F]

/-- The two column halves of a staged chunk of `fix_feat`, as the body's two loads read them. -/
abbrev fixL (x0 : Vec F S1024x1024 .f32) : Vec F S1024x512 .f32 :=
  View.ld x0 (Rect.unit (s := S1024x1024) ![0, 0] S1024x512.size inb_S1024x1024_S1024x512_0_0)
abbrev fixR (x0 : Vec F S1024x1024 .f32) : Vec F S1024x512 .f32 :=
  View.ld x0 (Rect.unit (s := S1024x1024) ![0, 512] S1024x512.size inb_S1024x1024_S1024x512_0_512)

/-- The first Gram step: left-left, left-right and right-right products of the chunk's halves. -/
def gA0 (x0 : Vec F S1024x1024 .f32) : Vec F S512x512 .f32 := k0_pay3 (fixL x0)
def gA1 (x0 : Vec F S1024x1024 .f32) : Vec F S512x512 .f32 := k0_pay4 (fixL x0) (fixR x0)
def gA2 (x0 : Vec F S1024x1024 .f32) : Vec F S512x512 .f32 := k0_pay5 (fixR x0)

/-- An accumulating Gram step: what the buffer held plus the chunk's product. -/
def gB0 (x0 : Vec F S1024x1024 .f32) (g0 : Vec F S512x512 .f32) : Vec F S512x512 .f32 := k0_pay8 (fixL x0) g0
def gB1 (x0 : Vec F S1024x1024 .f32) (g1 : Vec F S512x512 .f32) : Vec F S512x512 .f32 := k0_pay9 (fixL x0) (fixR x0) g1
def gB2 (x0 : Vec F S1024x1024 .f32) (g2 : Vec F S512x512 .f32) : Vec F S512x512 .f32 := k0_pay10 (fixR x0) g2

/-- The preamble's mixed rows: the upper half of the rows and the lower half, from the three Gram quadrants and `other_feat`. -/
def omTop (g0 g1 g2 : Vec F S512x512 .f32) (x1 : Vec F S1024x256 .f32) : Vec F S512x256 .bf16 := k0_pay19 g0 g1 g2 x1
def omBot (g0 g1 g2 : Vec F S512x512 .f32) (x1 : Vec F S1024x256 .f32) : Vec F S512x256 .bf16 := k0_pay11 (k0_pay20 g0 g1 g2 x1)

/-- The two row halves of the mixed-rows buffer, as rectangles of it. -/
abbrev rTop : Rect S1024x256 := Rect.unit (s := S1024x256) ![0, 0] S512x256.size inb_S1024x256_S512x256_0_0
abbrev rBot : Rect S1024x256 := Rect.unit (s := S1024x256) ![512, 0] S512x256.size inb_S1024x256_S512x256_512_0

/-- The mixed rows as one buffer: the lower half stored last over the upper half. -/
def omOf (g0 g1 g2 : Vec F S512x512 .f32) (x1 : Vec F S1024x256 .f32) : Vec F S1024x256 .bf16 :=
  View.canon [(⟨rBot, omBot g0 g1 g2 x1⟩ : View.Piece (Elt F) S1024x256 .bf16), ⟨rTop, omTop g0 g1 g2 x1⟩]

/-- The scaled keys. -/
def ksOf (x1 : Vec F S1024x256 .f32) (x2 : Vec F S256x256 .f32) (x3 : Vec F S1x256 .f32) : Vec F S1024x256 .bf16 := k0_pay12 x1 x2 x3

/-- An attention step's output block. -/
def attOf (x4 : Vec F S2000x256 .f32) (x5 : Vec F S256x256 .f32) (x6 : Vec F S1x256 .f32) (ks om : Vec F S1024x256 .bf16) (x7 : Vec F S1024x128 .bf16) : Vec F S2000x256 .f32 :=
  k0_pay13 x4 x5 x6 ks om x7

theorem hz2 : (![0, 0] : Fin 2 → Nat) = fun _ => 0 := by funext a; match a with | ⟨0, _⟩ => rfl | ⟨1, _⟩ => rfl

end Cert.Kernel.Gen

end
-- ==== Proof.K.RunA.lean ====
/-
  The body's run at the first Gram step (point 0): it loads the two column halves of the staged chunk of
  `fix_feat` and stores the three quadrant products into the Gram scratch buffers, whatever those held.
-/
import proofs.«168895_g52209622450808_cont_9to1_m_767_18_alg».proof.Proof.K.Cases
import proofs.«168895_g52209622450808_cont_9to1_m_767_18_alg».proof.Proof.K.Steps
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the first Gram step leaves in the three Gram scratch buffers, with the body's triple: from the staged
    chunk at `x0` and the three buffers at anything, the body runs to the continuation holding the chunk as it was and
    each buffer with its pieces written. -/
noncomputable def kernelRun0_A (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i)
    (x0 : Vec F S1024x1024 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f0, %hf0, H0⟩, ⟨%ds0, %fs0, -, HS0⟩, ⟨%ds1, %fs1, -, HS1⟩, ⟨%ds2, %fs2, -, HS2⟩, Hk⟩
    obtain rfl := harg1.eq_unread hf0
    sl_exec (disch := first | exact hc0 | exact hc1 | exact hc2 | exact hc3)
    sl_step
    iapply Hk
    isplitl [H0]
    · iexists _; isplitr; · ipureintro; exact harg1.read_unread _
      iexact H0
    isplitl [HS0]
    · iexists _; iexact HS0
    isplitl [HS1]
    · iexists _; iexact HS1
    iexists _; iexact HS2

/-- Each Gram buffer's one store covers it. -/
theorem scover0_A_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1 S512x512.size (by sl_kernel_rfl) y
theorem scover0_A_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1 S512x512.size (by sl_kernel_rfl) y
theorem scover0_A_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1 S512x512.size (by sl_kernel_rfl) y

/-- What the stores leave is the step's named value. -/
theorem sval0_A_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1 = gA0 x0 := by
  unfold kernelRun0_A gA0; dsimp only; sl_unfold_words
  rw [View.canon_unit_zero hz2]
  simp only [View.readAt_eq_ld, harg1.read_unread]
  try rfl
theorem sval0_A_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1 = gA1 x0 := by
  unfold kernelRun0_A gA1; dsimp only; sl_unfold_words
  rw [View.canon_unit_zero hz2]
  simp only [View.readAt_eq_ld, harg1.read_unread]
  try rfl
theorem sval0_A_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1 = gA2 x0 := by
  unfold kernelRun0_A gA2; dsimp only; sl_unfold_words
  rw [View.canon_unit_zero hz2]
  simp only [View.readAt_eq_ld, harg1.read_unread]
  try rfl

/-- THE FIRST GRAM STEP: from the staged chunk at `x0` and the three Gram buffers at anything, the body leaves the chunk
    as it was and the buffers at the three quadrant products of the chunk's halves. -/
theorem runA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (E : Set ℕ) (K : PUnit → sProp 𝕄) :
    iprop(owns (c : Thread nD τ) arg1 fullShare x0 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg10 fullShare (gA0 x0) ∗ owns (c : Thread nD τ) arg11 fullShare (gA1 x0) ∗ owns (c : Thread nD τ) arg12 fullShare (gA2 x0)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, HS0, HS1, HS2, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.2 E K)
  isplitl [H0]; · iexact H0
  isplitl [HS0]; · iexact HS0
  isplitl [HS1]; · iexact HS1
  isplitl [HS2]; · iexact HS2
  iintro ⟨H0, ⟨%e0, HS0⟩, ⟨%e1, HS1⟩, ⟨%e2, HS2⟩⟩
  iapply Hk
  isplitl [H0]; · iexact H0
  isplitl [HS0]
  · unfold owns; iexists _; isplitr
    swap; · iexact HS0
    ipureintro; exact (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)
  isplitl [HS1]
  · unfold owns; iexists _; isplitr
    swap; · iexact HS1
    ipureintro; exact (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)
  · unfold owns; iexists _; isplitr
    swap; · iexact HS2
    ipureintro; exact (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)

end Cert.Kernel.Gen

end
-- ==== Proof.K.RunB.lean ====
/-
  The body's run at an accumulating Gram step (points 1 and 2): it loads the two column halves of the staged chunk,
  adds the three quadrant products to what the Gram scratch buffers hold, and stores the sums back.
-/
import proofs.«168895_g52209622450808_cont_9to1_m_767_18_alg».proof.Proof.K.Cases
import proofs.«168895_g52209622450808_cont_9to1_m_767_18_alg».proof.Proof.K.Steps
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The pieces an accumulating Gram step leaves in the three Gram scratch buffers, with the body's triple: from the staged
    chunk at `x0` and the three buffers at `g0`, `g1`, `g2`, the body runs to the continuation holding the chunk as it
    was and each buffer with its pieces written over what it held. -/
noncomputable def kernelRun0_B (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i)
    (x0 : Vec F S1024x1024 .f32) (g0 g1 g2 : Vec F S512x512 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ owns (c : Thread nD τ) arg10 fullShare g0 ∗ owns (c : Thread nD τ) arg11 fullShare g1 ∗ owns (c : Thread nD τ) arg12 fullShare g2
            ∗ (iprop(owns (c : Thread nD τ) arg1 fullShare x0 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, HS0⟩, ⟨%f2, %hf2, HS1⟩, ⟨%f3, %hf3, HS2⟩, Hk⟩
    obtain rfl := harg1.eq_unread hf0
    obtain rfl := harg10.eq_unread hf1
    obtain rfl := harg11.eq_unread hf2
    obtain rfl := harg12.eq_unread hf3
    sl_exec (disch := first | exact hc0 | exact hc1 | exact hc2 | exact hc3)
    sl_step
    iapply Hk
    isplitl [H0]
    · iexists _; isplitr; · ipureintro; exact harg1.read_unread _
      iexact H0
    isplitl [HS0]
    · iexists _; iexact HS0
    isplitl [HS1]
    · iexists _; iexact HS1
    iexists _; iexact HS2

/-- Each Gram buffer's one store covers it. -/
theorem scover0_B_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1 S512x512.size (by sl_kernel_rfl) y
theorem scover0_B_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1 S512x512.size (by sl_kernel_rfl) y
theorem scover0_B_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1 S512x512.size (by sl_kernel_rfl) y

/-- What the stores leave is the step's named value: the load of a whole buffer at known contents reads those contents. -/
theorem sval0_B_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1 = gB0 x0 g0 := by
  unfold kernelRun0_B gB0; dsimp only; sl_unfold_words
  rw [View.canon_unit_zero hz2]
  simp only [View.readAt_eq_ld, harg1.read_unread, harg10.read_unread]
  first
    | exact congrArg (k0_pay8 (fixL x0)) (View.ld_unit_zero (S := S512x512) hz2 _ g0)
    | (rw [View.ld_unit_zero (S := S512x512) hz2 _ g0]; try rfl)
theorem sval0_B_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1 = gB1 x0 g1 := by
  unfold kernelRun0_B gB1; dsimp only; sl_unfold_words
  rw [View.canon_unit_zero hz2]
  simp only [View.readAt_eq_ld, harg1.read_unread, harg11.read_unread]
  first
    | exact congrArg (k0_pay9 (fixL x0) (fixR x0)) (View.ld_unit_zero (S := S512x512) hz2 _ g1)
    | (rw [View.ld_unit_zero (S := S512x512) hz2 _ g1]; try rfl)
theorem sval0_B_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1 = gB2 x0 g2 := by
  unfold kernelRun0_B gB2; dsimp only; sl_unfold_words
  rw [View.canon_unit_zero hz2]
  simp only [View.readAt_eq_ld, harg1.read_unread, harg12.read_unread]
  first
    | exact congrArg (k0_pay10 (fixR x0)) (View.ld_unit_zero (S := S512x512) hz2 _ g2)
    | (rw [View.ld_unit_zero (S := S512x512) hz2 _ g2]; try rfl)

/-- AN ACCUMULATING GRAM STEP: from the staged chunk at `x0` and the three Gram buffers at `g0`, `g1`, `g2`, the body leaves
    the chunk as it was and each buffer at what it held plus the corresponding quadrant product of the chunk's halves. -/
theorem runB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (E : Set ℕ) (K : PUnit → sProp 𝕄) :
    iprop(owns (c : Thread nD τ) arg1 fullShare x0 ∗ owns (c : Thread nD τ) arg10 fullShare g0 ∗ owns (c : Thread nD τ) arg11 fullShare g1 ∗ owns (c : Thread nD τ) arg12 fullShare g2
        ∗ (iprop(owns (c : Thread nD τ) arg1 fullShare x0 ∗ owns (c : Thread nD τ) arg10 fullShare (gB0 x0 g0) ∗ owns (c : Thread nD τ) arg11 fullShare (gB1 x0 g1) ∗ owns (c : Thread nD τ) arg12 fullShare (gB2 x0 g2)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, HS0, HS1, HS2, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.2 E K)
  isplitl [H0]; · iexact H0
  isplitl [HS0]; · iexact HS0
  isplitl [HS1]; · iexact HS1
  isplitl [HS2]; · iexact HS2
  iintro ⟨H0, ⟨%e0, HS0⟩, ⟨%e1, HS1⟩, ⟨%e2, HS2⟩⟩
  iapply Hk
  isplitl [H0]; · iexact H0
  isplitl [HS0]
  · unfold owns; iexists _; isplitr
    swap; · iexact HS0
    ipureintro; exact (View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)
  isplitl [HS1]
  · unfold owns; iexists _; isplitr
    swap; · iexact HS1
    ipureintro; exact (View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)
  · unfold owns; iexists _; isplitr
    swap; · iexact HS2
    ipureintro; exact (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)

end Cert.Kernel.Gen

end
-- ==== Proof.K.RunC.lean ====
/-
  The body's run at the last Gram step (point 3): the accumulating step, then the preamble's finish — square roots of
  the Gram quadrants, the column sums, the rows of `other_feat` divided by them, the mixed rows (stored in two
  halves) and the scaled keys.
-/
import proofs.«168895_g52209622450808_cont_9to1_m_767_18_alg».proof.Proof.K.Cases
import proofs.«168895_g52209622450808_cont_9to1_m_767_18_alg».proof.Proof.K.Steps
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The pieces the last Gram step and the preamble's finish leave in the five scratch buffers, with the body's triple: from
    the staged chunk, `other_feat`, the key weights and bias at their contents, the three Gram buffers at `g0`, `g1`, `g2`
    and the two remaining buffers at anything, the body runs to the continuation holding the inputs as they were and each
    scratch buffer with its pieces written. -/
noncomputable def kernelRun0_C (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i)
    (x0 : Vec F S1024x1024 .f32) (x1 : Vec F S1024x256 .f32) (x2 : Vec F S256x256 .f32) (x3 : Vec F S1x256 .f32) (g0 g1 g2 : Vec F S512x512 .f32) :
    Σ' (LS0 : List (View.Piece (Elt F) S512x512 .f32)) (LS1 : List (View.Piece (Elt F) S512x512 .f32)) (LS2 : List (View.Piece (Elt F) S512x512 .f32)) (LS3 : List (View.Piece (Elt F) S1024x256 .bf16)), { LS4 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare g0 ∗ owns (c : Thread nD τ) arg11 fullShare g1 ∗ owns (c : Thread nD τ) arg12 fullShare g2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__fused_kernel_eq_skeleton]; unfold cc0__fused_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg10.eq_unread hfs0; obtain rfl := harg11.eq_unread hfs1; obtain rfl := harg12.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    isplitl [HS1]
    · iexists _; iexact HS1
    isplitl [HS2]
    · iexists _; iexact HS2
    isplitl [HS3]
    · iexists _; iexact HS3
    iexists _; iexact HS4

/-- Each Gram buffer's one store covers it; the two half stores tile the mixed-rows buffer; the one store of the scaled keys covers its buffer. -/
theorem scover0_C_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1 S512x512.size (by sl_kernel_rfl) y
theorem scover0_C_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1 S512x512.size (by sl_kernel_rfl) y
theorem scover0_C_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1 S512x512.size (by sl_kernel_rfl) y
theorem scover0_C_3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1 S512x256.size (by sl_kernel_rfl) y
theorem scover0_C_4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1 S1024x256.size (by sl_kernel_rfl) y

/-- What the stores leave is the step's named value: a Gram buffer its accumulated product, the mixed rows the two halves computed from
    the accumulated Gram quadrants (read back after their stores), the scaled keys. -/
theorem sval0_C_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1 = gB0 x0 g0 := by
  unfold kernelRun0_C gB0; dsimp only; sl_unfold_words
  rw [View.canon_unit_zero hz2]
  simp only [View.readAt_eq_ld, harg1.read_unread, harg10.read_unread, View.ld_unit_zero (S := S512x512) hz2]
  try rfl
theorem sval0_C_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1 = gB1 x0 g1 := by
  unfold kernelRun0_C gB1; dsimp only; sl_unfold_words
  rw [View.canon_unit_zero hz2]
  simp only [View.readAt_eq_ld, harg1.read_unread, harg11.read_unread, View.ld_unit_zero (S := S512x512) hz2]
  try rfl
theorem sval0_C_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1 = gB2 x0 g2 := by
  unfold kernelRun0_C gB2; dsimp only; sl_unfold_words
  rw [View.canon_unit_zero hz2]
  simp only [View.readAt_eq_ld, harg1.read_unread, harg12.read_unread, View.ld_unit_zero (S := S512x512) hz2]
  try rfl
theorem sval0_C_3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1 = omOf (gB0 x0 g0) (gB1 x0 g1) (gB2 x0 g2) x1 := by
  unfold kernelRun0_C omOf omTop omBot gB0 gB1 gB2; dsimp only; sl_unfold_words
  simp only [View.readAt_eq_ld, harg1.read_unread, harg2.read_unread, harg10.read_unread, harg11.read_unread, harg12.read_unread, View.readCov_unit_zero (S := S512x512) _ hz2, View.ld_unit_zero (S := S512x512) hz2, View.ld_unit_zero (S := S1024x256) hz2]
  try rfl
theorem sval0_C_4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1 = ksOf x1 x2 x3 := by
  unfold kernelRun0_C ksOf; dsimp only; sl_unfold_words
  rw [View.canon_unit_zero hz2]
  simp only [View.readAt_eq_ld, harg2.read_unread, harg3.read_unread, harg4.read_unread, View.ld_unit_zero (S := S1024x256) hz2, View.ld_unit_zero (S := S256x256) hz2, View.ld_unit_zero (S := S1x256) hz2]
  try rfl

/-- THE LAST GRAM STEP AND THE PREAMBLE'S FINISH: from the staged chunk at `x0`, `other_feat` at `x1`, the key weights at `x2`,
    the key bias at `x3`, the three Gram buffers at `g0`, `g1`, `g2` and the two remaining scratch buffers at anything, the body
    leaves the inputs as they were, the Gram buffers at their accumulated values, the mixed rows computed from those, and the scaled keys. -/
theorem runC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare g0 ∗ owns (c : Thread nD τ) arg11 fullShare g1 ∗ owns (c : Thread nD τ) arg12 fullShare g2 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (gB0 x0 g0) ∗ owns (c : Thread nD τ) arg11 fullShare (gB1 x0 g1) ∗ owns (c : Thread nD τ) arg12 fullShare (gB2 x0 g2)
            ∗ owns (c : Thread nD τ) arg13 fullShare (omOf (gB0 x0 g0) (gB1 x0 g1) (gB2 x0 g2) x1) ∗ owns (c : Thread nD τ) arg14 fullShare (ksOf x1 x2 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, HS0, HS1, HS2, HS3, HS4, Hk⟩
  iapply ((kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, ⟨%e0, HS0⟩, ⟨%e1, HS1⟩, ⟨%e2, HS2⟩, ⟨%e3, HS3⟩, ⟨%e4, HS4⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS1]
  · unfold owns; iexists _; isplitr
    swap; · iexact HS1
    ipureintro; exact (View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS2]
  · unfold owns; iexists _; isplitr
    swap; · iexact HS2
    ipureintro; exact (View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS3]
  · unfold owns; iexists _; isplitr
    swap; · iexact HS3
    ipureintro; exact (View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  · unfold owns; iexists _; isplitr
    swap; · iexact HS4
    ipureintro; exact (View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)

end Cert.Kernel.Gen

end
-- ==== Proof.K.RunD.lean ====
/-
  The body's run at an attention step (points 4 to 8): the query projection of the staged block, the logits against
  the scaled keys, their exponentials, the product with the mixed rows and the division by the row sums, stored
  into the output buffer.
-/
import proofs.«168895_g52209622450808_cont_9to1_m_767_18_alg».proof.Proof.K.Cases
import proofs.«168895_g52209622450808_cont_9to1_m_767_18_alg».proof.Proof.K.Steps
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The pieces an attention step leaves in the output buffer, with the body's triple: from the six blocks it reads, each at
    its known contents, and the output buffer at anything, the body runs to the continuation holding the six blocks as they
    were and the output buffer with its pieces written. -/
noncomputable def kernelRun0_D (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i)
    (x4 : Vec F S2000x256 .f32) (x5 : Vec F S256x256 .f32) (x6 : Vec F S1x256 .f32) (x7 : Vec F S1024x128 .bf16) (om ks : Vec F S1024x256 .bf16) :
    { LS0 : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg13 fullShare om ∗ owns (c : Thread nD τ) arg14 fullShare ks
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ owns (c : Thread nD τ) arg13 fullShare om ∗ owns (c : Thread nD τ) arg14 fullShare ks) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%f4, %hf4, H4⟩, ⟨%f5, %hf5, H5⟩, Hk⟩
    obtain rfl := harg5.eq_unread hf0
    obtain rfl := harg6.eq_unread hf1
    obtain rfl := harg7.eq_unread hf2
    obtain rfl := harg8.eq_unread hf3
    obtain rfl := harg13.eq_unread hf4
    obtain rfl := harg14.eq_unread hf5
    sl_exec (disch := first | exact hc0 | exact hc1 | exact hc2 | exact hc3)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]
    · iexists _; iexact HS0
    isplitl [H4]
    · iexists _; isplitr; · ipureintro; exact harg13.read_unread _
      iexact H4
    iexists _; isplitr; · ipureintro; exact harg14.read_unread _
    iexact H5

/-- The output buffer's one store covers it. -/
theorem scover0_D_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) (y : S2000x256.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1 S2000x256.size (by sl_kernel_rfl) y

/-- What the store leaves is the step's output block. -/
theorem sval0_D_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) :
    View.canon (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1 = attOf x4 x5 x6 ks om x7 := by
  unfold kernelRun0_D attOf; dsimp only; sl_unfold_words
  rw [View.canon_unit_zero hz2]
  simp only [View.readAt_eq_ld, harg5.read_unread, harg6.read_unread, harg7.read_unread, harg8.read_unread, harg13.read_unread, harg14.read_unread, View.ld_unit_zero (S := S2000x256) hz2, View.ld_unit_zero (S := S256x256) hz2, View.ld_unit_zero (S := S1x256) hz2, View.ld_unit_zero (S := S1024x128) hz2, View.ld_unit_zero (S := S1024x256) hz2]
  try rfl

/-- AN ATTENTION STEP: from the staged block of `main_feat` at `x4`, the query weights at `x5`, the query bias at `x6`, the ones
    at `x7`, the output buffer at anything, the mixed rows at `om` and the scaled keys at `ks`, the body leaves everything as it
    was but the output buffer, which holds the step's output block. -/
theorem runD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg13 fullShare om ∗ owns (c : Thread nD τ) arg14 fullShare ks
        ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (attOf x4 x5 x6 ks om x7) ∗ owns (c : Thread nD τ) arg13 fullShare om ∗ owns (c : Thread nD τ) arg14 fullShare ks) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, HS0, H4, H5, Hk⟩
  iapply ((kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).2 E K)
  isplitl [H0]; · iexact H0
  isplitl [H1]; · iexact H1
  isplitl [H2]; · iexact H2
  isplitl [H3]; · iexact H3
  isplitl [HS0]; · iexact HS0
  isplitl [H4]; · iexact H4
  isplitl [H5]; · iexact H5
  iintro ⟨H0, H1, H2, H3, ⟨%e0, HS0⟩, H4, H5⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scover0_D_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks)).trans (sval0_D_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks)
  isplitl [H4]; · iexact H4
  iexact H5

end Cert.Kernel.Gen

end
-- ==== Proof.K.FrameData.lean ====
/-
  The frame of the fused kernel's one region: what the Gram quadrants, the mixed rows, the scaled keys and the
  output's staging buffer hold after each of the nine grid points, by recursion on the point; the region's
  invariant carrying the scratch buffers at those contents; the pipeline's proof data; the body's obligation at
  every point from the four runs; and the run of the whole program.
-/
import proofs.«168895_g52209622450808_cont_9to1_m_767_18_alg».proof.Proof.K.RunA
import proofs.«168895_g52209622450808_cont_9to1_m_767_18_alg».proof.Proof.K.RunB
import proofs.«168895_g52209622450808_cont_9to1_m_767_18_alg».proof.Proof.K.RunC
import proofs.«168895_g52209622450808_cont_9to1_m_767_18_alg».proof.Proof.K.RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold after each point -/

/-- The output's staging buffer, the three Gram quadrants, the mixed rows and the scaled keys. -/
structure St (F : FTy → Type) [FloatOps F] where
  out : Vec F S2000x256 .f32
  g0 : Vec F S512x512 .f32
  g1 : Vec F S512x512 .f32
  g2 : Vec F S512x512 .f32
  om : Vec F S1024x256 .bf16
  ks : Vec F S1024x256 .bf16

/-- After point `n`: the first point sets the Gram quadrants; points 1 and 2 add to them; point 3 adds to them and computes the
    mixed rows and the scaled keys from `other_feat`, the key weights and the key bias; every later point computes its
    output block and leaves the rest alone. A buffer nothing has stored into yet holds an unspecified value. -/
def stAt (c : Dev nD) : (n : ℕ) → n < cfg0.N → St F
  | 0, hn => ⟨(View.canon ([] : List (View.Piece (Elt F) S2000x256 .f32))), gA0 (iblk m c 0 ⟨0, hn⟩), gA1 (iblk m c 0 ⟨0, hn⟩), gA2 (iblk m c 0 ⟨0, hn⟩), (View.canon ([] : List (View.Piece (Elt F) S1024x256 .bf16))), (View.canon ([] : List (View.Piece (Elt F) S1024x256 .bf16)))⟩
  | n + 1, hn =>
    if n + 1 < 3 then
      ⟨(stAt c n (Nat.lt_of_succ_lt hn)).out, gB0 (iblk m c 0 ⟨n + 1, hn⟩) (stAt c n (Nat.lt_of_succ_lt hn)).g0, gB1 (iblk m c 0 ⟨n + 1, hn⟩) (stAt c n (Nat.lt_of_succ_lt hn)).g1, gB2 (iblk m c 0 ⟨n + 1, hn⟩) (stAt c n (Nat.lt_of_succ_lt hn)).g2, (stAt c n (Nat.lt_of_succ_lt hn)).om, (stAt c n (Nat.lt_of_succ_lt hn)).ks⟩
    else if n + 1 = 3 then
      ⟨(stAt c n (Nat.lt_of_succ_lt hn)).out, gB0 (iblk m c 0 ⟨n + 1, hn⟩) (stAt c n (Nat.lt_of_succ_lt hn)).g0, gB1 (iblk m c 0 ⟨n + 1, hn⟩) (stAt c n (Nat.lt_of_succ_lt hn)).g1, gB2 (iblk m c 0 ⟨n + 1, hn⟩) (stAt c n (Nat.lt_of_succ_lt hn)).g2,
        omOf (gB0 (iblk m c 0 ⟨n + 1, hn⟩) (stAt c n (Nat.lt_of_succ_lt hn)).g0) (gB1 (iblk m c 0 ⟨n + 1, hn⟩) (stAt c n (Nat.lt_of_succ_lt hn)).g1) (gB2 (iblk m c 0 ⟨n + 1, hn⟩) (stAt c n (Nat.lt_of_succ_lt hn)).g2) (iblk m c 1 ⟨n + 1, hn⟩),
        ksOf (iblk m c 1 ⟨n + 1, hn⟩) (iblk m c 2 ⟨n + 1, hn⟩) (iblk m c 3 ⟨n + 1, hn⟩)⟩
    else
      ⟨attOf (iblk m c 4 ⟨n + 1, hn⟩) (iblk m c 5 ⟨n + 1, hn⟩) (iblk m c 6 ⟨n + 1, hn⟩) (stAt c n (Nat.lt_of_succ_lt hn)).ks (stAt c n (Nat.lt_of_succ_lt hn)).om (iblk m c 7 ⟨n + 1, hn⟩), (stAt c n (Nat.lt_of_succ_lt hn)).g0, (stAt c n (Nat.lt_of_succ_lt hn)).g1, (stAt c n (Nat.lt_of_succ_lt hn)).g2, (stAt c n (Nat.lt_of_succ_lt hn)).om, (stAt c n (Nat.lt_of_succ_lt hn)).ks⟩

theorem stAt_zero (c : Dev nD) (hn : 0 < cfg0.N) :
    stAt m c 0 hn = ⟨(View.canon ([] : List (View.Piece (Elt F) S2000x256 .f32))), gA0 (iblk m c 0 ⟨0, hn⟩), gA1 (iblk m c 0 ⟨0, hn⟩), gA2 (iblk m c 0 ⟨0, hn⟩), (View.canon ([] : List (View.Piece (Elt F) S1024x256 .bf16))), (View.canon ([] : List (View.Piece (Elt F) S1024x256 .bf16)))⟩ := rfl

theorem stAt_acc (c : Dev nD) (n : ℕ) (hn : n + 1 < cfg0.N) (h : n + 1 < 3) :
    stAt m c (n + 1) hn = ⟨(stAt m c n (Nat.lt_of_succ_lt hn)).out, gB0 (iblk m c 0 ⟨n + 1, hn⟩) (stAt m c n (Nat.lt_of_succ_lt hn)).g0, gB1 (iblk m c 0 ⟨n + 1, hn⟩) (stAt m c n (Nat.lt_of_succ_lt hn)).g1, gB2 (iblk m c 0 ⟨n + 1, hn⟩) (stAt m c n (Nat.lt_of_succ_lt hn)).g2, (stAt m c n (Nat.lt_of_succ_lt hn)).om, (stAt m c n (Nat.lt_of_succ_lt hn)).ks⟩ :=
  if_pos h

theorem stAt_fin (c : Dev nD) (n : ℕ) (hn : n + 1 < cfg0.N) (h : n + 1 = 3) :
    stAt m c (n + 1) hn = ⟨(stAt m c n (Nat.lt_of_succ_lt hn)).out, gB0 (iblk m c 0 ⟨n + 1, hn⟩) (stAt m c n (Nat.lt_of_succ_lt hn)).g0, gB1 (iblk m c 0 ⟨n + 1, hn⟩) (stAt m c n (Nat.lt_of_succ_lt hn)).g1, gB2 (iblk m c 0 ⟨n + 1, hn⟩) (stAt m c n (Nat.lt_of_succ_lt hn)).g2,
        omOf (gB0 (iblk m c 0 ⟨n + 1, hn⟩) (stAt m c n (Nat.lt_of_succ_lt hn)).g0) (gB1 (iblk m c 0 ⟨n + 1, hn⟩) (stAt m c n (Nat.lt_of_succ_lt hn)).g1) (gB2 (iblk m c 0 ⟨n + 1, hn⟩) (stAt m c n (Nat.lt_of_succ_lt hn)).g2) (iblk m c 1 ⟨n + 1, hn⟩),
        ksOf (iblk m c 1 ⟨n + 1, hn⟩) (iblk m c 2 ⟨n + 1, hn⟩) (iblk m c 3 ⟨n + 1, hn⟩)⟩ :=
  (if_neg (by omega)).trans (if_pos h)

theorem stAt_att (c : Dev nD) (n : ℕ) (hn : n + 1 < cfg0.N) (h : 4 ≤ n + 1) :
    stAt m c (n + 1) hn = ⟨attOf (iblk m c 4 ⟨n + 1, hn⟩) (iblk m c 5 ⟨n + 1, hn⟩) (iblk m c 6 ⟨n + 1, hn⟩) (stAt m c n (Nat.lt_of_succ_lt hn)).ks (stAt m c n (Nat.lt_of_succ_lt hn)).om (iblk m c 7 ⟨n + 1, hn⟩), (stAt m c n (Nat.lt_of_succ_lt hn)).g0, (stAt m c n (Nat.lt_of_succ_lt hn)).g1, (stAt m c n (Nat.lt_of_succ_lt hn)).g2, (stAt m c n (Nat.lt_of_succ_lt hn)).om, (stAt m c n (Nat.lt_of_succ_lt hn)).ks⟩ :=
  (if_neg (by omega)).trans (if_neg (by omega))

/-! ## The region's invariant -/

/-- Before point `n`: before the first point the scratch buffers hold anything; after points 0, 1, 2 the Gram quadrants
    hold their partial sums and the other two buffers anything; from point 3 on all five hold their named contents. -/
def PhiS (c : Dev nD) : (n : ℕ) → n ≤ cfg0.N → sProp 𝕄
  | 0, _ => Pipeline.ΦA spec0 c
  | n + 1, hn =>
    if n < 3 then
      iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ (∃ d, owns (c : Thread nD τ) scM0_3 fullShare d) ∗ (∃ d, owns (c : Thread nD τ) scM0_4 fullShare d)) ∗ (∃ r, prngReg c r))
    else
      iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ owns (c : Thread nD τ) scM0_3 fullShare (stAt m c n hn).om ∗ owns (c : Thread nD τ) scM0_4 fullShare (stAt m c n hn).ks) ∗ (∃ r, prngReg c r))

theorem PhiS_zero (c : Dev nD) (n : ℕ) (h : n ≤ cfg0.N) (hz : n = 0) : PhiS m c n h = Pipeline.ΦA spec0 c := by
  subst hz; rfl

theorem PhiS_early (c : Dev nD) (n : ℕ) (hn : n < cfg0.N) (h3 : n < 3) :
    PhiS m c (n + 1) hn = iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ (∃ d, owns (c : Thread nD τ) scM0_3 fullShare d) ∗ (∃ d, owns (c : Thread nD τ) scM0_4 fullShare d)) ∗ (∃ r, prngReg c r)) :=
  if_pos h3

theorem PhiS_late (c : Dev nD) (n : ℕ) (hn : n < cfg0.N) (h3 : ¬n < 3) :
    PhiS m c (n + 1) hn = iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ owns (c : Thread nD τ) scM0_3 fullShare (stAt m c n hn).om ∗ owns (c : Thread nD τ) scM0_4 fullShare (stAt m c n hn).ks) ∗ (∃ r, prngReg c r)) :=
  if_neg h3

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.Kernel.Gen

end
-- ==== Proof.K.Frame.lean ====
/-
  The body's obligation at every grid point, from the four runs and the invariant, and the run of the whole
  program: every weakly fair execution terminates, faults nowhere, and ends with every array of the pipeline at
  what the proof data says and every other buffer as it was.
-/
import proofs.«168895_g52209622450808_cont_9to1_m_767_18_alg».proof.Proof.K.FrameData

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, the core's (empty) debt, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-! ## The carried contents and the invariant, at a point of the grid -/

/-- The point before a point is a point. -/
theorem pred_lt (t : Fin cfg0.N) : t.val - 1 < cfg0.N := Nat.lt_of_le_of_lt (Nat.sub_le _ _) t.isLt

/-- After the first point: the three quadrant products of its chunk. -/
theorem stAtT_zero (c : Dev nD) (t : Fin cfg0.N) (h : t.val = 0) :
    stAt m c t.val t.isLt = ⟨(View.canon ([] : List (View.Piece (Elt F) S2000x256 .f32))), gA0 (iblk m c 0 t), gA1 (iblk m c 0 t), gA2 (iblk m c 0 t), (View.canon ([] : List (View.Piece (Elt F) S1024x256 .bf16))), (View.canon ([] : List (View.Piece (Elt F) S1024x256 .bf16)))⟩ := by
  obtain ⟨n, hn⟩ := t
  cases n with
  | zero => exact stAt_zero m c hn
  | succ n => exact absurd h (Nat.succ_ne_zero n)

/-- After points 1 and 2: the point before's quadrants plus the chunk's products. -/
theorem stAtT_acc (c : Dev nD) (t : Fin cfg0.N) (h0 : t.val ≠ 0) (h3 : t.val < 3) :
    stAt m c t.val t.isLt = ⟨(stAt m c (t.val - 1) (pred_lt t)).out, gB0 (iblk m c 0 t) (stAt m c (t.val - 1) (pred_lt t)).g0, gB1 (iblk m c 0 t) (stAt m c (t.val - 1) (pred_lt t)).g1, gB2 (iblk m c 0 t) (stAt m c (t.val - 1) (pred_lt t)).g2, (stAt m c (t.val - 1) (pred_lt t)).om, (stAt m c (t.val - 1) (pred_lt t)).ks⟩ := by
  obtain ⟨n, hn⟩ := t
  cases n with
  | zero => exact absurd rfl h0
  | succ n => exact stAt_acc m c n hn h3

/-- After point 3: the last sums, and the mixed rows and scaled keys computed from them. -/
theorem stAtT_fin (c : Dev nD) (t : Fin cfg0.N) (h : t.val = 3) :
    stAt m c t.val t.isLt = ⟨(stAt m c (t.val - 1) (pred_lt t)).out, gB0 (iblk m c 0 t) (stAt m c (t.val - 1) (pred_lt t)).g0, gB1 (iblk m c 0 t) (stAt m c (t.val - 1) (pred_lt t)).g1, gB2 (iblk m c 0 t) (stAt m c (t.val - 1) (pred_lt t)).g2,
        omOf (gB0 (iblk m c 0 t) (stAt m c (t.val - 1) (pred_lt t)).g0) (gB1 (iblk m c 0 t) (stAt m c (t.val - 1) (pred_lt t)).g1) (gB2 (iblk m c 0 t) (stAt m c (t.val - 1) (pred_lt t)).g2) (iblk m c 1 t),
        ksOf (iblk m c 1 t) (iblk m c 2 t) (iblk m c 3 t)⟩ := by
  obtain ⟨n, hn⟩ := t
  cases n with
  | zero => exact absurd (show (0 : ℕ) = 3 from h) (by decide)
  | succ n => exact stAt_fin m c n hn h

/-- After an attention step: its output block, the scratch buffers as they were. -/
theorem stAtT_att (c : Dev nD) (t : Fin cfg0.N) (h : 4 ≤ t.val) :
    stAt m c t.val t.isLt = ⟨attOf (iblk m c 4 t) (iblk m c 5 t) (iblk m c 6 t) (stAt m c (t.val - 1) (pred_lt t)).ks (stAt m c (t.val - 1) (pred_lt t)).om (iblk m c 7 t), (stAt m c (t.val - 1) (pred_lt t)).g0, (stAt m c (t.val - 1) (pred_lt t)).g1, (stAt m c (t.val - 1) (pred_lt t)).g2, (stAt m c (t.val - 1) (pred_lt t)).om, (stAt m c (t.val - 1) (pred_lt t)).ks⟩ := by
  obtain ⟨n, hn⟩ := t
  cases n with
  | zero => exact absurd (show 4 ≤ 0 from h) (by decide)
  | succ n => exact stAt_att m c n hn h

/-- Before points 1, 2, 3: the Gram quadrants at what the point before left, the other two buffers at anything. -/
theorem PhiST_early (c : Dev nD) (t : Fin cfg0.N) (h0 : t.val ≠ 0) (h3 : t.val - 1 < 3) :
    PhiS m c t.val (Nat.le_of_lt t.isLt) = iprop(iprop(owns (c : Thread nD τ) scM0_0 fullShare (stAt m c (t.val - 1) (pred_lt t)).g0 ∗ owns (c : Thread nD τ) scM0_1 fullShare (stAt m c (t.val - 1) (pred_lt t)).g1 ∗ owns (c : Thread nD τ) scM0_2 fullShare (stAt m c (t.val - 1) (pred_lt t)).g2 ∗ (∃ d, owns (c : Thread nD τ) scM0_3 fullShare d) ∗ (∃ d, owns (c : Thread nD τ) scM0_4 fullShare d)) ∗ (∃ r, prngReg c r)) := by
  obtain ⟨n, hn⟩ := t
  cases n with
  | zero => exact absurd rfl h0
  | succ n => exact PhiS_early m c n _ h3

/-- Before a later point: all five scratch buffers at what the point before left. -/
theorem PhiST_late (c : Dev nD) (t : Fin cfg0.N) (h0 : t.val ≠ 0) (h3 : ¬t.val - 1 < 3) :
    PhiS m c t.val (Nat.le_of_lt t.isLt) = iprop(iprop(owns (c : Thread nD τ) scM0_0 fullShare (stAt m c (t.val - 1) (pred_lt t)).g0 ∗ owns (c : Thread nD τ) scM0_1 fullShare (stAt m c (t.val - 1) (pred_lt t)).g1 ∗ owns (c : Thread nD τ) scM0_2 fullShare (stAt m c (t.val - 1) (pred_lt t)).g2 ∗ owns (c : Thread nD τ) scM0_3 fullShare (stAt m c (t.val - 1) (pred_lt t)).om ∗ owns (c : Thread nD τ) scM0_4 fullShare (stAt m c (t.val - 1) (pred_lt t)).ks) ∗ (∃ r, prngReg c r)) := by
  obtain ⟨n, hn⟩ := t
  cases n with
  | zero => exact absurd rfl h0
  | succ n => exact PhiS_late m c n _ h3

/-- A live window's buffer is left at the proof data's contents: the inputs at their blocks. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
/-- At an attention step the output's buffer is left at the step's block; before them it is handed back as it was. -/
theorem leaves0_8_live (c : Dev nD) (t : Fin cfg0.N) (h : 4 ≤ t.val) : (dats m 0 c).leavesExact 8 t = owns (c : Thread nD τ) (ms0_8 t) fullShare (stAt m c t.val t.isLt).out := by
  unfold Dat.leavesExact; rw [liveAt0_8 t h, after0_8]
theorem leaves0_8_idle (c : Dev nD) (t : Fin cfg0.N) (h : t.val < 4) : (dats m 0 c).leavesExact 8 t = iprop(∃ d, owns (c : Thread nD τ) (ms0_8 t) fullShare ((dats m 0 c).before 8 t d)) :=
  Dat.leavesExact_idle (dats m 0 c) 8 t (idleAt0_8 t h) (noFlush0_8 t h)

set_option maxHeartbeats 4800000 in
/-- The first point: the first Gram step. -/
theorem sound_body_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiS_zero m c _ _ h, PhiA0_eq, PhiS_early m c t.val t.isLt (by omega), stAtT_zero m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) _ _ _ _ _ _ _ _ _ _ _ _ _ _ _ _ _ _ _ _ _ _ _ _ _ _ _ _ ((hcond0_0 t).mpr h) (fun h' => absurd ((hcond0_1 t).mp h') (by omega)) (fun h' => absurd ((hcond0_2 t).mp h') (by omega)) (fun h' => absurd ((hcond0_3 t).mp h') (by omega)) (iblk m c 0 t) Set.univ _)
  isplitl [H0]; · iexact H0
  isplitl [HS0]; · iexact HS0
  isplitl [HS1]; · iexact HS1
  isplitl [HS2]; · iexact HS2
  iintro ⟨H0, HS0, HS1, HS2⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Points 1 and 2: an accumulating Gram step. -/
theorem sound_body_B (c : Dev nD) (t : Fin cfg0.N) (h0 : t.val ≠ 0) (h3 : t.val < 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiST_early m c t h0 (by omega), PhiS_early m c t.val t.isLt h3, stAtT_acc m c t h0 h3]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runB c (grid0.coords t) _ _ _ _ _ _ _ _ _ _ _ _ _ _ _ _ _ _ _ _ _ _ _ _ _ _ _ _ (fun h' => absurd ((hcond0_0 t).mp h') h0) ((hcond0_1 t).mpr ⟨by omega, by omega⟩) (fun h' => absurd ((hcond0_2 t).mp h') (by omega)) (fun h' => absurd ((hcond0_3 t).mp h') (by omega)) (iblk m c 0 t) _ _ _ Set.univ _)
  isplitl [H0]; · iexact H0
  isplitl [HS0]; · iexact HS0
  isplitl [HS1]; · iexact HS1
  isplitl [HS2]; · iexact HS2
  iintro ⟨H0, HS0, HS1, HS2⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Point 3: the last Gram step and the preamble's finish. -/
theorem sound_body_C (c : Dev nD) (t : Fin cfg0.N) (h : t.val = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiST_early m c t (by omega) (by omega), PhiS_late m c t.val t.isLt (by omega), stAtT_fin m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runC c (grid0.coords t) _ _ _ _ _ _ _ _ _ _ _ _ _ _ _ _ _ _ _ _ _ _ _ _ _ _ _ _ (fun h' => absurd ((hcond0_0 t).mp h') (by omega)) ((hcond0_1 t).mpr ⟨by omega, by omega⟩) ((hcond0_2 t).mpr h) (fun h' => absurd ((hcond0_3 t).mp h') (by omega)) (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Points 4 to 8: an attention step. -/
theorem sound_body_D (c : Dev nD) (t : Fin cfg0.N) (h : 4 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_live m c t h]
  rw [PhiS_castSucc m c t]
  rw [PhiST_late m c t (by omega) (by omega), PhiS_late m c t.val t.isLt (by omega), stAtT_att m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runD c (grid0.coords t) _ _ _ _ _ _ _ _ _ _ _ _ _ _ _ _ _ _ _ _ _ _ _ _ _ _ _ _ (fun h' => absurd ((hcond0_0 t).mp h') (by omega)) (fun h' => absurd ((hcond0_1 t).mp h') (by omega)) (fun h' => absurd ((hcond0_2 t).mp h') (by omega)) ((hcond0_3 t).mpr h) (iblk m c 4 t) (iblk m c 5 t) (iblk m c 6 t) (iblk m c 7 t) _ _ Set.univ _)
  isplitl [H4]; · iexact H4
  isplitl [H5]; · iexact H5
  isplitl [H6]; · iexact H6
  isplitl [H7]; · iexact H7
  isplitl [H8]; · iexists _; iexact H8
  isplitl [HS3]; · iexact HS3
  isplitl [HS4]; · iexact HS4
  iintro ⟨H4, H5, H6, H7, H8, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4800000 in
/-- The body at any point: the inputs' staging buffers hold their blocks; the point is in one of the four control cases,
    whose run applies; the invariant hands the run the scratch buffers at what the point before left and takes them back
    at this point's contents; the output's buffer is handed back untouched before the attention steps and holds the
    step's block at them; the core owes nothing throughout. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_body_A m c t hA
  by_cases hB : t.val < 3
  · exact sound_body_B m c t hA hB
  by_cases hC : t.val = 3
  · exact sound_body_C m c t hC
  exact sound_body_D m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl]
  have hN : cfg0.N = 8 + 1 := N_0
  rw [show PhiS m c cfg0.N (Nat.le_refl _) = PhiS m c (8 + 1) (by omega) from by congr 1, PhiS_late m c 8 (by omega) (by decide), PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
/-- At the compiled mesh, for any values, from any memory with zero counters: every weakly fair execution of the program
    terminates, and every final state has every array of the pipeline at what the library computes from the proof data
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Gen

end
-- ==== Proof.KI.Cases.lean ====
/-
  The four control cases of the fused kernel's body over its nine grid points, decided once: the first Gram
  step (point 0), the accumulating Gram steps (points 1 and 2), the last Gram step followed by the
  preamble's finish (point 3), and the attention steps (points 4 to 8). Also: where the output window
  is idle and not written back, the staging and scratch memrefs the body is called with, and the
  region invariant with the five scratch buffers spelled out.
-/
import proofs.«168895_g52209622450808_cont_9to1_m_767_18_alg».proof.Proof.Gen.KernelIdeal.Frame
import proofs.«168895_g52209622450808_cont_9to1_m_767_18_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, as the skeleton spells them, and their closed forms over the grid -/

/-- `program_id == 0`. -/
abbrev cond0_0 (i : grid0.Coords) : Prop := (Scalar.cmpi .ne (Scalar.extui (Scalar.cmpi .eq (BitVec.ofNat 32 (i 0).val) 0#32)) 0#32) = 1#1
/-- `0 < program_id < 4`. -/
abbrev cond0_1 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
/-- `program_id == 3`. -/
abbrev cond0_2 (i : grid0.Coords) : Prop := (Scalar.cmpi .ne (Scalar.extui (Scalar.cmpi .eq (BitVec.ofNat 32 (i 0).val) 3#32)) 0#32) = 1#1
/-- `program_id >= 4`. -/
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ (0 < t.val ∧ t.val < 4) :=
  (by decide +kernel : ∀ t : Fin grid0.N, cond0_1 (grid0.coords t) ↔ (0 < t.val ∧ t.val < 4))
theorem hcond0_2 : ∀ t : Fin cfg0.N, cond0_2 (grid0.coords t) ↔ t.val = 3 :=
  (by decide +kernel : ∀ t : Fin grid0.N, cond0_2 (grid0.coords t) ↔ t.val = 3)
theorem hcond0_3 : ∀ t : Fin cfg0.N, cond0_3 (grid0.coords t) ↔ 4 ≤ t.val :=
  (by decide +kernel : ∀ t : Fin grid0.N, cond0_3 (grid0.coords t) ↔ 4 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Before the attention steps the body stores nothing into the output window, and the pipeline does not write it back. -/
theorem idleAt0_8 : ∀ t : Fin cfg0.N, t.val < 4 → cfg0.idle 8 (grid0.coords t) = true := by decide +kernel
theorem noFlush0_8 : ∀ t : Fin cfg0.N, t.val < 4 → (cfg0.win 8).flush t = false := by decide +kernel
/-- At the attention steps it stores the whole block. -/
theorem liveAt0_8 : ∀ t : Fin cfg0.N, 4 ≤ t.val → cfg0.idle 8 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2000x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2000x256 .f32 := win0_8.stage (cfg0.slots t 8)
abbrev hs0_8 (t : Fin cfg0.N) : (ms0_8 t).IsWhole := hstage0_8 ((cfg0.slots t 8).cast nbuf0_8)

/-- The five scratch operands: the three Gram quadrants, the mixed rows and the scaled keys. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .f32 := Memref.whole cc0_scratch2
abbrev scM0_3 : Memref sig .tc .vmem S1024x256 .bf16 := Memref.whole cc0_scratch3
abbrev scM0_4 : Memref sig .tc .vmem S1024x256 .bf16 := Memref.whole cc0_scratch4
abbrev VS0_0 : View sig .tc .vmem S512x512 .f32 := scM0_0.view
abbrev VS0_1 : View sig .tc .vmem S512x512 .f32 := scM0_1.view
abbrev VS0_2 : View sig .tc .vmem S512x512 .f32 := scM0_2.view
abbrev VS0_3 : View sig .tc .vmem S1024x256 .bf16 := scM0_3.view
abbrev VS0_4 : View sig .tc .vmem S1024x256 .bf16 := scM0_4.view
/-- One staging buffer of the output window, through which its contents are stated. -/
abbrev VO0_8 : View sig .tc .vmem S2000x256 .f32 := (Memref.whole cc0_stg8_0 : Memref sig .tc .vmem S2000x256 .f32).view

/-- The region invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KI.Steps.lean ====
/-
  What each control case of the fused kernel leaves in the buffers it stores into, as pure functions of the
  blocks it loads and of what the scratch buffers held: the first Gram step's three quadrant products, an
  accumulating Gram step's sums, the preamble's mixed rows and scaled keys, and an attention step's output block.
  Generic in the float instance; the arithmetic itself is the skeleton's named payloads.
-/
import proofs.«168895_g52209622450808_cont_9to1_m_767_18_alg».proof.Proof.Gen.KernelIdeal.Skeleton
import Idealize.ShloMosaic.Lib.Pipeline.FrameBody

noncomputable section

namespace Cert.KernelIdeal.Gen

open Idealize.ShloMosaic Idealize.SL.Sem

variable {F : FTy → Type} [FloatOps F]

/-- The two column halves of a staged chunk of `fix_feat`, as the body's two loads read them. -/
abbrev fixL (x0 : Vec F S1024x1024 .f32) : Vec F S1024x512 .f32 :=
  View.ld x0 (Rect.unit (s := S1024x1024) ![0, 0] S1024x512.size inb_S1024x1024_S1024x512_0_0)
abbrev fixR (x0 : Vec F S1024x1024 .f32) : Vec F S1024x512 .f32 :=
  View.ld x0 (Rect.unit (s := S1024x1024) ![0, 512] S1024x512.size inb_S1024x1024_S1024x512_0_512)

/-- The first Gram step: left-left, left-right and right-right products of the chunk's halves. -/
def gA0 (x0 : Vec F S1024x1024 .f32) : Vec F S512x512 .f32 := k0_pay3 (fixL x0)
def gA1 (x0 : Vec F S1024x1024 .f32) : Vec F S512x512 .f32 := k0_pay4 (fixL x0) (fixR x0)
def gA2 (x0 : Vec F S1024x1024 .f32) : Vec F S512x512 .f32 := k0_pay5 (fixR x0)

/-- An accumulating Gram step: what the buffer held plus the chunk's product. -/
def gB0 (x0 : Vec F S1024x1024 .f32) (g0 : Vec F S512x512 .f32) : Vec F S512x512 .f32 := k0_pay8 (fixL x0) g0
def gB1 (x0 : Vec F S1024x1024 .f32) (g1 : Vec F S512x512 .f32) : Vec F S512x512 .f32 := k0_pay9 (fixL x0) (fixR x0) g1
def gB2 (x0 : Vec F S1024x1024 .f32) (g2 : Vec F S512x512 .f32) : Vec F S512x512 .f32 := k0_pay10 (fixR x0) g2

/-- The preamble's mixed rows: the upper half of the rows and the lower half, from the three Gram quadrants and `other_feat`. -/
def omTop (g0 g1 g2 : Vec F S512x512 .f32) (x1 : Vec F S1024x256 .f32) : Vec F S512x256 .bf16 := k0_pay19 g0 g1 g2 x1
def omBot (g0 g1 g2 : Vec F S512x512 .f32) (x1 : Vec F S1024x256 .f32) : Vec F S512x256 .bf16 := k0_pay11 (k0_pay20 g0 g1 g2 x1)

/-- The two row halves of the mixed-rows buffer, as rectangles of it. -/
abbrev rTop : Rect S1024x256 := Rect.unit (s := S1024x256) ![0, 0] S512x256.size inb_S1024x256_S512x256_0_0
abbrev rBot : Rect S1024x256 := Rect.unit (s := S1024x256) ![512, 0] S512x256.size inb_S1024x256_S512x256_512_0

/-- The mixed rows as one buffer: the lower half stored last over the upper half. -/
def omOf (g0 g1 g2 : Vec F S512x512 .f32) (x1 : Vec F S1024x256 .f32) : Vec F S1024x256 .bf16 :=
  View.canon [(⟨rBot, omBot g0 g1 g2 x1⟩ : View.Piece (Elt F) S1024x256 .bf16), ⟨rTop, omTop g0 g1 g2 x1⟩]

/-- The scaled keys. -/
def ksOf (x1 : Vec F S1024x256 .f32) (x2 : Vec F S256x256 .f32) (x3 : Vec F S1x256 .f32) : Vec F S1024x256 .bf16 := k0_pay12 x1 x2 x3

/-- An attention step's output block. -/
def attOf (x4 : Vec F S2000x256 .f32) (x5 : Vec F S256x256 .f32) (x6 : Vec F S1x256 .f32) (ks om : Vec F S1024x256 .bf16) (x7 : Vec F S1024x128 .bf16) : Vec F S2000x256 .f32 :=
  k0_pay13 x4 x5 x6 ks om x7

theorem hz2 : (![0, 0] : Fin 2 → Nat) = fun _ => 0 := by funext a; match a with | ⟨0, _⟩ => rfl | ⟨1, _⟩ => rfl

end Cert.KernelIdeal.Gen

end
-- ==== Proof.KI.RunA.lean ====
/-
  The body's run at the first Gram step (point 0): it loads the two column halves of the staged chunk of
  `fix_feat` and stores the three quadrant products into the Gram scratch buffers, whatever those held.
-/
import proofs.«168895_g52209622450808_cont_9to1_m_767_18_alg».proof.Proof.KI.Cases
import proofs.«168895_g52209622450808_cont_9to1_m_767_18_alg».proof.Proof.KI.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the first Gram step leaves in the three Gram scratch buffers, with the body's triple: from the staged
    chunk at `x0` and the three buffers at anything, the body runs to the continuation holding the chunk as it was and
    each buffer with its pieces written. -/
noncomputable def kernelRun0_A (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i)
    (x0 : Vec F S1024x1024 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f0, %hf0, H0⟩, ⟨%ds0, %fs0, -, HS0⟩, ⟨%ds1, %fs1, -, HS1⟩, ⟨%ds2, %fs2, -, HS2⟩, Hk⟩
    obtain rfl := harg1.eq_unread hf0
    sl_exec (disch := first | exact hc0 | exact hc1 | exact hc2 | exact hc3)
    sl_step
    iapply Hk
    isplitl [H0]
    · iexists _; isplitr; · ipureintro; exact harg1.read_unread _
      iexact H0
    isplitl [HS0]
    · iexists _; iexact HS0
    isplitl [HS1]
    · iexists _; iexact HS1
    iexists _; iexact HS2

/-- Each Gram buffer's one store covers it. -/
theorem scover0_A_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1 S512x512.size (by sl_kernel_rfl) y
theorem scover0_A_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1 S512x512.size (by sl_kernel_rfl) y
theorem scover0_A_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1 S512x512.size (by sl_kernel_rfl) y

/-- What the stores leave is the step's named value. -/
theorem sval0_A_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).1 = gA0 x0 := by
  unfold kernelRun0_A gA0; dsimp only; sl_unfold_words
  rw [View.canon_unit_zero hz2]
  simp only [View.readAt_eq_ld, harg1.read_unread]
  try rfl
theorem sval0_A_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.1 = gA1 x0 := by
  unfold kernelRun0_A gA1; dsimp only; sl_unfold_words
  rw [View.canon_unit_zero hz2]
  simp only [View.readAt_eq_ld, harg1.read_unread]
  try rfl
theorem sval0_A_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.1 = gA2 x0 := by
  unfold kernelRun0_A gA2; dsimp only; sl_unfold_words
  rw [View.canon_unit_zero hz2]
  simp only [View.readAt_eq_ld, harg1.read_unread]
  try rfl

/-- THE FIRST GRAM STEP: from the staged chunk at `x0` and the three Gram buffers at anything, the body leaves the chunk
    as it was and the buffers at the three quadrant products of the chunk's halves. -/
theorem runA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : cond0_0 i) (hc1 : ¬cond0_1 i) (hc2 : ¬cond0_2 i) (hc3 : ¬cond0_3 i) (x0 : Vec F S1024x1024 .f32) (E : Set ℕ) (K : PUnit → sProp 𝕄) :
    iprop(owns (c : Thread nD τ) arg1 fullShare x0 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg10 fullShare (gA0 x0) ∗ owns (c : Thread nD τ) arg11 fullShare (gA1 x0) ∗ owns (c : Thread nD τ) arg12 fullShare (gA2 x0)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, HS0, HS1, HS2, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0).2.2.2 E K)
  isplitl [H0]; · iexact H0
  isplitl [HS0]; · iexact HS0
  isplitl [HS1]; · iexact HS1
  isplitl [HS2]; · iexact HS2
  iintro ⟨H0, ⟨%e0, HS0⟩, ⟨%e1, HS1⟩, ⟨%e2, HS2⟩⟩
  iapply Hk
  isplitl [H0]; · iexact H0
  isplitl [HS0]
  · unfold owns; iexists _; isplitr
    swap; · iexact HS0
    ipureintro; exact (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)
  isplitl [HS1]
  · unfold owns; iexists _; isplitr
    swap; · iexact HS1
    ipureintro; exact (View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)
  · unfold owns; iexists _; isplitr
    swap; · iexact HS2
    ipureintro; exact (View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)).trans (sval0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0)

end Cert.KernelIdeal.Gen

end
-- ==== Proof.KI.RunB.lean ====
/-
  The body's run at an accumulating Gram step (points 1 and 2): it loads the two column halves of the staged chunk,
  adds the three quadrant products to what the Gram scratch buffers hold, and stores the sums back.
-/
import proofs.«168895_g52209622450808_cont_9to1_m_767_18_alg».proof.Proof.KI.Cases
import proofs.«168895_g52209622450808_cont_9to1_m_767_18_alg».proof.Proof.KI.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The pieces an accumulating Gram step leaves in the three Gram scratch buffers, with the body's triple: from the staged
    chunk at `x0` and the three buffers at `g0`, `g1`, `g2`, the body runs to the continuation holding the chunk as it
    was and each buffer with its pieces written over what it held. -/
noncomputable def kernelRun0_B (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i)
    (x0 : Vec F S1024x1024 .f32) (g0 g1 g2 : Vec F S512x512 .f32) :
    Σ' (LS0 : List (View.Piece (Elt F) S512x512 .f32)) (LS1 : List (View.Piece (Elt F) S512x512 .f32)), { LS2 : List (View.Piece (Elt F) S512x512 .f32) //
      ∀ (E : Set ℕ) (K : PUnit → sProp 𝕄),
        iprop(owns (c : Thread nD τ) arg1 fullShare x0 ∗ owns (c : Thread nD τ) arg10 fullShare g0 ∗ owns (c : Thread nD τ) arg11 fullShare g1 ∗ owns (c : Thread nD τ) arg12 fullShare g2
            ∗ (iprop(owns (c : Thread nD τ) arg1 fullShare x0 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, HS0⟩, ⟨%f2, %hf2, HS1⟩, ⟨%f3, %hf3, HS2⟩, Hk⟩
    obtain rfl := harg1.eq_unread hf0
    obtain rfl := harg10.eq_unread hf1
    obtain rfl := harg11.eq_unread hf2
    obtain rfl := harg12.eq_unread hf3
    sl_exec (disch := first | exact hc0 | exact hc1 | exact hc2 | exact hc3)
    sl_step
    iapply Hk
    isplitl [H0]
    · iexists _; isplitr; · ipureintro; exact harg1.read_unread _
      iexact H0
    isplitl [HS0]
    · iexists _; iexact HS0
    isplitl [HS1]
    · iexists _; iexact HS1
    iexists _; iexact HS2

/-- Each Gram buffer's one store covers it. -/
theorem scover0_B_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1 S512x512.size (by sl_kernel_rfl) y
theorem scover0_B_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1 S512x512.size (by sl_kernel_rfl) y
theorem scover0_B_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1 S512x512.size (by sl_kernel_rfl) y

/-- What the stores leave is the step's named value: the load of a whole buffer at known contents reads those contents. -/
theorem sval0_B_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).1 = gB0 x0 g0 := by
  unfold kernelRun0_B gB0; dsimp only; sl_unfold_words
  rw [View.canon_unit_zero hz2]
  simp only [View.readAt_eq_ld, harg1.read_unread, harg10.read_unread]
  first
    | exact congrArg (k0_pay8 (fixL x0)) (View.ld_unit_zero (S := S512x512) hz2 _ g0)
    | (rw [View.ld_unit_zero (S := S512x512) hz2 _ g0]; try rfl)
theorem sval0_B_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.1 = gB1 x0 g1 := by
  unfold kernelRun0_B gB1; dsimp only; sl_unfold_words
  rw [View.canon_unit_zero hz2]
  simp only [View.readAt_eq_ld, harg1.read_unread, harg11.read_unread]
  first
    | exact congrArg (k0_pay9 (fixL x0) (fixR x0)) (View.ld_unit_zero (S := S512x512) hz2 _ g1)
    | (rw [View.ld_unit_zero (S := S512x512) hz2 _ g1]; try rfl)
theorem sval0_B_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.1 = gB2 x0 g2 := by
  unfold kernelRun0_B gB2; dsimp only; sl_unfold_words
  rw [View.canon_unit_zero hz2]
  simp only [View.readAt_eq_ld, harg1.read_unread, harg12.read_unread]
  first
    | exact congrArg (k0_pay10 (fixR x0)) (View.ld_unit_zero (S := S512x512) hz2 _ g2)
    | (rw [View.ld_unit_zero (S := S512x512) hz2 _ g2]; try rfl)

/-- AN ACCUMULATING GRAM STEP: from the staged chunk at `x0` and the three Gram buffers at `g0`, `g1`, `g2`, the body leaves
    the chunk as it was and each buffer at what it held plus the corresponding quadrant product of the chunk's halves. -/
theorem runB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : ¬cond0_2 i) (hc3 : ¬cond0_3 i) (x0 : Vec F S1024x1024 .f32) (g0 g1 g2 : Vec F S512x512 .f32) (E : Set ℕ) (K : PUnit → sProp 𝕄) :
    iprop(owns (c : Thread nD τ) arg1 fullShare x0 ∗ owns (c : Thread nD τ) arg10 fullShare g0 ∗ owns (c : Thread nD τ) arg11 fullShare g1 ∗ owns (c : Thread nD τ) arg12 fullShare g2
        ∗ (iprop(owns (c : Thread nD τ) arg1 fullShare x0 ∗ owns (c : Thread nD τ) arg10 fullShare (gB0 x0 g0) ∗ owns (c : Thread nD τ) arg11 fullShare (gB1 x0 g1) ∗ owns (c : Thread nD τ) arg12 fullShare (gB2 x0 g2)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, HS0, HS1, HS2, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2).2.2.2 E K)
  isplitl [H0]; · iexact H0
  isplitl [HS0]; · iexact HS0
  isplitl [HS1]; · iexact HS1
  isplitl [HS2]; · iexact HS2
  iintro ⟨H0, ⟨%e0, HS0⟩, ⟨%e1, HS1⟩, ⟨%e2, HS2⟩⟩
  iapply Hk
  isplitl [H0]; · iexact H0
  isplitl [HS0]
  · unfold owns; iexists _; isplitr
    swap; · iexact HS0
    ipureintro; exact (View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)
  isplitl [HS1]
  · unfold owns; iexists _; isplitr
    swap; · iexact HS1
    ipureintro; exact (View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)
  · unfold owns; iexists _; isplitr
    swap; · iexact HS2
    ipureintro; exact (View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)).trans (sval0_B_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 g0 g1 g2)

end Cert.KernelIdeal.Gen

end
-- ==== Proof.KI.RunC.lean ====
/-
  The body's run at the last Gram step (point 3): the accumulating step, then the preamble's finish — square roots of
  the Gram quadrants, the column sums, the rows of `other_feat` divided by them, the mixed rows (stored in two
  halves) and the scaled keys.
-/
import proofs.«168895_g52209622450808_cont_9to1_m_767_18_alg».proof.Proof.KI.Cases
import proofs.«168895_g52209622450808_cont_9to1_m_767_18_alg».proof.Proof.KI.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 8000000 in
/-- The pieces the last Gram step and the preamble's finish leave in the five scratch buffers, with the body's triple: from
    the staged chunk, `other_feat`, the key weights and bias at their contents, the three Gram buffers at `g0`, `g1`, `g2`
    and the two remaining buffers at anything, the body runs to the continuation holding the inputs as they were and each
    scratch buffer with its pieces written. -/
noncomputable def kernelRun0_C (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i)
    (x0 : Vec F S1024x1024 .f32) (x1 : Vec F S1024x256 .f32) (x2 : Vec F S256x256 .f32) (x3 : Vec F S1x256 .f32) (g0 g1 g2 : Vec F S512x512 .f32) :
    Σ' (LS0 : List (View.Piece (Elt F) S512x512 .f32)) (LS1 : List (View.Piece (Elt F) S512x512 .f32)) (LS2 : List (View.Piece (Elt F) S512x512 .f32)) (LS3 : List (View.Piece (Elt F) S1024x256 .bf16)), { LS4 : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare g0 ∗ owns (c : Thread nD τ) arg11 fullShare g1 ∗ owns (c : Thread nD τ) arg12 fullShare g2 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__fused_kernel_eq_skeleton]; unfold cc0__fused_kernel_skel
    rw [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    obtain rfl := harg10.eq_unread hfs0; obtain rfl := harg11.eq_unread hfs1; obtain rfl := harg12.eq_unread hfs2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    isplitl [HS1]
    · iexists _; iexact HS1
    isplitl [HS2]
    · iexists _; iexact HS2
    isplitl [HS3]
    · iexists _; iexact HS3
    iexists _; iexact HS4

/-- Each Gram buffer's one store covers it; the two half stores tile the mixed-rows buffer; the one store of the scaled keys covers its buffer. -/
theorem scover0_C_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1 S512x512.size (by sl_kernel_rfl) y
theorem scover0_C_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1 S512x512.size (by sl_kernel_rfl) y
theorem scover0_C_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S512x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1 S512x512.size (by sl_kernel_rfl) y
theorem scover0_C_3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1 S512x256.size (by sl_kernel_rfl) y
theorem scover0_C_4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (y : S1024x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1 S1024x256.size (by sl_kernel_rfl) y

/-- What the stores leave is the step's named value: a Gram buffer its accumulated product, the mixed rows the two halves computed from
    the accumulated Gram quadrants (read back after their stores), the scaled keys. -/
theorem sval0_C_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).1 = gB0 x0 g0 := by
  unfold kernelRun0_C gB0; dsimp only; sl_unfold_words
  rw [View.canon_unit_zero hz2]
  simp only [View.readAt_eq_ld, harg1.read_unread, harg10.read_unread, View.ld_unit_zero (S := S512x512) hz2]
  try rfl
theorem sval0_C_1 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.1 = gB1 x0 g1 := by
  unfold kernelRun0_C gB1; dsimp only; sl_unfold_words
  rw [View.canon_unit_zero hz2]
  simp only [View.readAt_eq_ld, harg1.read_unread, harg11.read_unread, View.ld_unit_zero (S := S512x512) hz2]
  try rfl
theorem sval0_C_2 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.1 = gB2 x0 g2 := by
  unfold kernelRun0_C gB2; dsimp only; sl_unfold_words
  rw [View.canon_unit_zero hz2]
  simp only [View.readAt_eq_ld, harg1.read_unread, harg12.read_unread, View.ld_unit_zero (S := S512x512) hz2]
  try rfl
theorem sval0_C_3 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.1 = omOf (gB0 x0 g0) (gB1 x0 g1) (gB2 x0 g2) x1 := by
  unfold kernelRun0_C omOf omTop omBot gB0 gB1 gB2; dsimp only; sl_unfold_words
  simp only [View.readAt_eq_ld, harg1.read_unread, harg2.read_unread, harg10.read_unread, harg11.read_unread, harg12.read_unread, View.readCov_unit_zero (S := S512x512) _ hz2, View.ld_unit_zero (S := S512x512) hz2, View.ld_unit_zero (S := S1024x256) hz2]
  try rfl
theorem sval0_C_4 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.1 = ksOf x1 x2 x3 := by
  unfold kernelRun0_C ksOf; dsimp only; sl_unfold_words
  rw [View.canon_unit_zero hz2]
  simp only [View.readAt_eq_ld, harg2.read_unread, harg3.read_unread, harg4.read_unread, View.ld_unit_zero (S := S1024x256) hz2, View.ld_unit_zero (S := S256x256) hz2, View.ld_unit_zero (S := S1x256) hz2]
  try rfl

/-- THE LAST GRAM STEP AND THE PREAMBLE'S FINISH: from the staged chunk at `x0`, `other_feat` at `x1`, the key weights at `x2`,
    the key bias at `x3`, the three Gram buffers at `g0`, `g1`, `g2` and the two remaining scratch buffers at anything, the body
    leaves the inputs as they were, the Gram buffers at their accumulated values, the mixed rows computed from those, and the scaled keys. -/
theorem runC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : cond0_1 i) (hc2 : cond0_2 i) (hc3 : ¬cond0_3 i) (x0 : Vec F S1024x1024 .f32) (x1 : Vec F S1024x256 .f32) (x2 : Vec F S256x256 .f32) (x3 : Vec F S1x256 .f32) (g0 g1 g2 : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare g0 ∗ owns (c : Thread nD τ) arg11 fullShare g1 ∗ owns (c : Thread nD τ) arg12 fullShare g2 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (gB0 x0 g0) ∗ owns (c : Thread nD τ) arg11 fullShare (gB1 x0 g1) ∗ owns (c : Thread nD τ) arg12 fullShare (gB2 x0 g2)
            ∗ owns (c : Thread nD τ) arg13 fullShare (omOf (gB0 x0 g0) (gB1 x0 g1) (gB2 x0 g2) x1) ∗ owns (c : Thread nD τ) arg14 fullShare (ksOf x1 x2 x3)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, HS0, HS1, HS2, HS3, HS4, Hk⟩
  iapply ((kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2).2.2.2.2.2 E K)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, ⟨%e0, HS0⟩, ⟨%e1, HS1⟩, ⟨%e2, HS2⟩, ⟨%e3, HS3⟩, ⟨%e4, HS4⟩⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS1]
  · unfold owns; iexists _; isplitr
    swap; · iexact HS1
    ipureintro; exact (View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS2]
  · unfold owns; iexists _; isplitr
    swap; · iexact HS2
    ipureintro; exact (View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_2 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  isplitl [HS3]
  · unfold owns; iexists _; isplitr
    swap; · iexact HS3
    ipureintro; exact (View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_3 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)
  · unfold owns; iexists _; isplitr
    swap; · iexact HS4
    ipureintro; exact (View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)).trans (sval0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x0 x1 x2 x3 g0 g1 g2)

end Cert.KernelIdeal.Gen

end
-- ==== Proof.KI.RunD.lean ====
/-
  The body's run at an attention step (points 4 to 8): the query projection of the staged block, the logits against
  the scaled keys, their exponentials, the product with the mixed rows and the division by the row sums, stored
  into the output buffer.
-/
import proofs.«168895_g52209622450808_cont_9to1_m_767_18_alg».proof.Proof.KI.Cases
import proofs.«168895_g52209622450808_cont_9to1_m_767_18_alg».proof.Proof.KI.Steps
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- The pieces an attention step leaves in the output buffer, with the body's triple: from the six blocks it reads, each at
    its known contents, and the output buffer at anything, the body runs to the continuation holding the six blocks as they
    were and the output buffer with its pieces written. -/
noncomputable def kernelRun0_D (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i)
    (x4 : Vec F S2000x256 .f32) (x5 : Vec F S256x256 .f32) (x6 : Vec F S1x256 .f32) (x7 : Vec F S1024x128 .bf16) (om ks : Vec F S1024x256 .bf16) :
    { LS0 : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg13 fullShare om ∗ owns (c : Thread nD τ) arg14 fullShare ks
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ owns (c : Thread nD τ) arg13 fullShare om ∗ owns (c : Thread nD τ) arg14 fullShare ks) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%f4, %hf4, H4⟩, ⟨%f5, %hf5, H5⟩, Hk⟩
    obtain rfl := harg5.eq_unread hf0
    obtain rfl := harg6.eq_unread hf1
    obtain rfl := harg7.eq_unread hf2
    obtain rfl := harg8.eq_unread hf3
    obtain rfl := harg13.eq_unread hf4
    obtain rfl := harg14.eq_unread hf5
    sl_exec (disch := first | exact hc0 | exact hc1 | exact hc2 | exact hc3)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [HS0]
    · iexists _; iexact HS0
    isplitl [H4]
    · iexists _; isplitr; · ipureintro; exact harg13.read_unread _
      iexact H4
    iexists _; isplitr; · ipureintro; exact harg14.read_unread _
    iexact H5

/-- The output buffer's one store covers it. -/
theorem scover0_D_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) (y : S2000x256.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1 S2000x256.size (by sl_kernel_rfl) y

/-- What the store leaves is the step's output block. -/
theorem sval0_D_0 (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) :
    View.canon (kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).1 = attOf x4 x5 x6 ks om x7 := by
  unfold kernelRun0_D attOf; dsimp only; sl_unfold_words
  rw [View.canon_unit_zero hz2]
  simp only [View.readAt_eq_ld, harg5.read_unread, harg6.read_unread, harg7.read_unread, harg8.read_unread, harg13.read_unread, harg14.read_unread, View.ld_unit_zero (S := S2000x256) hz2, View.ld_unit_zero (S := S256x256) hz2, View.ld_unit_zero (S := S1x256) hz2, View.ld_unit_zero (S := S1024x128) hz2, View.ld_unit_zero (S := S1024x256) hz2]
  try rfl

/-- AN ATTENTION STEP: from the staged block of `main_feat` at `x4`, the query weights at `x5`, the query bias at `x6`, the ones
    at `x7`, the output buffer at anything, the mixed rows at `om` and the scaled keys at `ks`, the body leaves everything as it
    was but the output buffer, which holds the step's output block. -/
theorem runD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S1024x256 .bf16) (harg13 : arg13.IsWhole) (arg14 : Memref sig .tc .vmem S1024x256 .bf16) (harg14 : arg14.IsWhole) (hc0 : ¬cond0_0 i) (hc1 : ¬cond0_1 i) (hc2 : ¬cond0_2 i) (hc3 : cond0_3 i) (x4 : Vec F S2000x256 .f32) (x5 : Vec F S256x256 .f32) (x6 : Vec F S1x256 .f32) (x7 : Vec F S1024x128 .bf16) (om ks : Vec F S1024x256 .bf16) (E : Set ℕ) (K : PUnit → sProp 𝕄) :
    iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg13 fullShare om ∗ owns (c : Thread nD τ) arg14 fullShare ks
        ∗ (iprop(owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (attOf x4 x5 x6 ks om x7) ∗ owns (c : Thread nD τ) arg13 fullShare om ∗ owns (c : Thread nD τ) arg14 fullShare ks) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, HS0, H4, H5, Hk⟩
  iapply ((kernelRun0_D c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks).2 E K)
  isplitl [H0]; · iexact H0
  isplitl [H1]; · iexact H1
  isplitl [H2]; · iexact H2
  isplitl [H3]; · iexact H3
  isplitl [HS0]; · iexact HS0
  isplitl [H4]; · iexact H4
  isplitl [H5]; · iexact H5
  iintro ⟨H0, H1, H2, H3, ⟨%e0, HS0⟩, H4, H5⟩
  iapply Hk
  isplitl [H0]; · iexact H0
  isplitl [H1]; · iexact H1
  isplitl [H2]; · iexact H2
  isplitl [H3]; · iexact H3
  isplitl [HS0]
  · unfold owns; iexists _; isplitr
    swap; · iexact HS0
    ipureintro; exact (View.read_writes_eq_canon _ _ _ (scover0_D_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks)).trans (sval0_D_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 x4 x5 x6 x7 om ks)
  isplitl [H4]; · iexact H4
  iexact H5

end Cert.KernelIdeal.Gen

end
-- ==== Proof.KI.FrameData.lean ====
/-
  The frame of the fused kernel's one region: what the Gram quadrants, the mixed rows, the scaled keys and the
  output's staging buffer hold after each of the nine grid points, by recursion on the point; the region's
  invariant carrying the scratch buffers at those contents; the pipeline's proof data; the body's obligation at
  every point from the four runs; and the run of the whole program.
-/
import proofs.«168895_g52209622450808_cont_9to1_m_767_18_alg».proof.Proof.KI.RunA
import proofs.«168895_g52209622450808_cont_9to1_m_767_18_alg».proof.Proof.KI.RunB
import proofs.«168895_g52209622450808_cont_9to1_m_767_18_alg».proof.Proof.KI.RunC
import proofs.«168895_g52209622450808_cont_9to1_m_767_18_alg».proof.Proof.KI.RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold after each point -/

/-- The output's staging buffer, the three Gram quadrants, the mixed rows and the scaled keys. -/
structure St (F : FTy → Type) [FloatOps F] where
  out : Vec F S2000x256 .f32
  g0 : Vec F S512x512 .f32
  g1 : Vec F S512x512 .f32
  g2 : Vec F S512x512 .f32
  om : Vec F S1024x256 .bf16
  ks : Vec F S1024x256 .bf16

/-- After point `n`: the first point sets the Gram quadrants; points 1 and 2 add to them; point 3 adds to them and computes the
    mixed rows and the scaled keys from `other_feat`, the key weights and the key bias; every later point computes its
    output block and leaves the rest alone. A buffer nothing has stored into yet holds an unspecified value. -/
def stAt (c : Dev nD) : (n : ℕ) → n < cfg0.N → St F
  | 0, hn => ⟨(View.canon ([] : List (View.Piece (Elt F) S2000x256 .f32))), gA0 (iblk m c 0 ⟨0, hn⟩), gA1 (iblk m c 0 ⟨0, hn⟩), gA2 (iblk m c 0 ⟨0, hn⟩), (View.canon ([] : List (View.Piece (Elt F) S1024x256 .bf16))), (View.canon ([] : List (View.Piece (Elt F) S1024x256 .bf16)))⟩
  | n + 1, hn =>
    if n + 1 < 3 then
      ⟨(stAt c n (Nat.lt_of_succ_lt hn)).out, gB0 (iblk m c 0 ⟨n + 1, hn⟩) (stAt c n (Nat.lt_of_succ_lt hn)).g0, gB1 (iblk m c 0 ⟨n + 1, hn⟩) (stAt c n (Nat.lt_of_succ_lt hn)).g1, gB2 (iblk m c 0 ⟨n + 1, hn⟩) (stAt c n (Nat.lt_of_succ_lt hn)).g2, (stAt c n (Nat.lt_of_succ_lt hn)).om, (stAt c n (Nat.lt_of_succ_lt hn)).ks⟩
    else if n + 1 = 3 then
      ⟨(stAt c n (Nat.lt_of_succ_lt hn)).out, gB0 (iblk m c 0 ⟨n + 1, hn⟩) (stAt c n (Nat.lt_of_succ_lt hn)).g0, gB1 (iblk m c 0 ⟨n + 1, hn⟩) (stAt c n (Nat.lt_of_succ_lt hn)).g1, gB2 (iblk m c 0 ⟨n + 1, hn⟩) (stAt c n (Nat.lt_of_succ_lt hn)).g2,
        omOf (gB0 (iblk m c 0 ⟨n + 1, hn⟩) (stAt c n (Nat.lt_of_succ_lt hn)).g0) (gB1 (iblk m c 0 ⟨n + 1, hn⟩) (stAt c n (Nat.lt_of_succ_lt hn)).g1) (gB2 (iblk m c 0 ⟨n + 1, hn⟩) (stAt c n (Nat.lt_of_succ_lt hn)).g2) (iblk m c 1 ⟨n + 1, hn⟩),
        ksOf (iblk m c 1 ⟨n + 1, hn⟩) (iblk m c 2 ⟨n + 1, hn⟩) (iblk m c 3 ⟨n + 1, hn⟩)⟩
    else
      ⟨attOf (iblk m c 4 ⟨n + 1, hn⟩) (iblk m c 5 ⟨n + 1, hn⟩) (iblk m c 6 ⟨n + 1, hn⟩) (stAt c n (Nat.lt_of_succ_lt hn)).ks (stAt c n (Nat.lt_of_succ_lt hn)).om (iblk m c 7 ⟨n + 1, hn⟩), (stAt c n (Nat.lt_of_succ_lt hn)).g0, (stAt c n (Nat.lt_of_succ_lt hn)).g1, (stAt c n (Nat.lt_of_succ_lt hn)).g2, (stAt c n (Nat.lt_of_succ_lt hn)).om, (stAt c n (Nat.lt_of_succ_lt hn)).ks⟩

theorem stAt_zero (c : Dev nD) (hn : 0 < cfg0.N) :
    stAt m c 0 hn = ⟨(View.canon ([] : List (View.Piece (Elt F) S2000x256 .f32))), gA0 (iblk m c 0 ⟨0, hn⟩), gA1 (iblk m c 0 ⟨0, hn⟩), gA2 (iblk m c 0 ⟨0, hn⟩), (View.canon ([] : List (View.Piece (Elt F) S1024x256 .bf16))), (View.canon ([] : List (View.Piece (Elt F) S1024x256 .bf16)))⟩ := rfl

theorem stAt_acc (c : Dev nD) (n : ℕ) (hn : n + 1 < cfg0.N) (h : n + 1 < 3) :
    stAt m c (n + 1) hn = ⟨(stAt m c n (Nat.lt_of_succ_lt hn)).out, gB0 (iblk m c 0 ⟨n + 1, hn⟩) (stAt m c n (Nat.lt_of_succ_lt hn)).g0, gB1 (iblk m c 0 ⟨n + 1, hn⟩) (stAt m c n (Nat.lt_of_succ_lt hn)).g1, gB2 (iblk m c 0 ⟨n + 1, hn⟩) (stAt m c n (Nat.lt_of_succ_lt hn)).g2, (stAt m c n (Nat.lt_of_succ_lt hn)).om, (stAt m c n (Nat.lt_of_succ_lt hn)).ks⟩ :=
  if_pos h

theorem stAt_fin (c : Dev nD) (n : ℕ) (hn : n + 1 < cfg0.N) (h : n + 1 = 3) :
    stAt m c (n + 1) hn = ⟨(stAt m c n (Nat.lt_of_succ_lt hn)).out, gB0 (iblk m c 0 ⟨n + 1, hn⟩) (stAt m c n (Nat.lt_of_succ_lt hn)).g0, gB1 (iblk m c 0 ⟨n + 1, hn⟩) (stAt m c n (Nat.lt_of_succ_lt hn)).g1, gB2 (iblk m c 0 ⟨n + 1, hn⟩) (stAt m c n (Nat.lt_of_succ_lt hn)).g2,
        omOf (gB0 (iblk m c 0 ⟨n + 1, hn⟩) (stAt m c n (Nat.lt_of_succ_lt hn)).g0) (gB1 (iblk m c 0 ⟨n + 1, hn⟩) (stAt m c n (Nat.lt_of_succ_lt hn)).g1) (gB2 (iblk m c 0 ⟨n + 1, hn⟩) (stAt m c n (Nat.lt_of_succ_lt hn)).g2) (iblk m c 1 ⟨n + 1, hn⟩),
        ksOf (iblk m c 1 ⟨n + 1, hn⟩) (iblk m c 2 ⟨n + 1, hn⟩) (iblk m c 3 ⟨n + 1, hn⟩)⟩ :=
  (if_neg (by omega)).trans (if_pos h)

theorem stAt_att (c : Dev nD) (n : ℕ) (hn : n + 1 < cfg0.N) (h : 4 ≤ n + 1) :
    stAt m c (n + 1) hn = ⟨attOf (iblk m c 4 ⟨n + 1, hn⟩) (iblk m c 5 ⟨n + 1, hn⟩) (iblk m c 6 ⟨n + 1, hn⟩) (stAt m c n (Nat.lt_of_succ_lt hn)).ks (stAt m c n (Nat.lt_of_succ_lt hn)).om (iblk m c 7 ⟨n + 1, hn⟩), (stAt m c n (Nat.lt_of_succ_lt hn)).g0, (stAt m c n (Nat.lt_of_succ_lt hn)).g1, (stAt m c n (Nat.lt_of_succ_lt hn)).g2, (stAt m c n (Nat.lt_of_succ_lt hn)).om, (stAt m c n (Nat.lt_of_succ_lt hn)).ks⟩ :=
  (if_neg (by omega)).trans (if_neg (by omega))

/-! ## The region's invariant -/

/-- Before point `n`: before the first point the scratch buffers hold anything; after points 0, 1, 2 the Gram quadrants
    hold their partial sums and the other two buffers anything; from point 3 on all five hold their named contents. -/
def PhiS (c : Dev nD) : (n : ℕ) → n ≤ cfg0.N → sProp 𝕄
  | 0, _ => Pipeline.ΦA spec0 c
  | n + 1, hn =>
    if n < 3 then
      iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ (∃ d, owns (c : Thread nD τ) scM0_3 fullShare d) ∗ (∃ d, owns (c : Thread nD τ) scM0_4 fullShare d)) ∗ (∃ r, prngReg c r))
    else
      iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ owns (c : Thread nD τ) scM0_3 fullShare (stAt m c n hn).om ∗ owns (c : Thread nD τ) scM0_4 fullShare (stAt m c n hn).ks) ∗ (∃ r, prngReg c r))

theorem PhiS_zero (c : Dev nD) (n : ℕ) (h : n ≤ cfg0.N) (hz : n = 0) : PhiS m c n h = Pipeline.ΦA spec0 c := by
  subst hz; rfl

theorem PhiS_early (c : Dev nD) (n : ℕ) (hn : n < cfg0.N) (h3 : n < 3) :
    PhiS m c (n + 1) hn = iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ (∃ d, owns (c : Thread nD τ) scM0_3 fullShare d) ∗ (∃ d, owns (c : Thread nD τ) scM0_4 fullShare d)) ∗ (∃ r, prngReg c r)) :=
  if_pos h3

theorem PhiS_late (c : Dev nD) (n : ℕ) (hn : n < cfg0.N) (h3 : ¬n < 3) :
    PhiS m c (n + 1) hn = iprop(iprop(owns (c : Thread nD τ) scM0_0 fullShare (stAt m c n hn).g0 ∗ owns (c : Thread nD τ) scM0_1 fullShare (stAt m c n hn).g1 ∗ owns (c : Thread nD τ) scM0_2 fullShare (stAt m c n hn).g2 ∗ owns (c : Thread nD τ) scM0_3 fullShare (stAt m c n hn).om ∗ owns (c : Thread nD τ) scM0_4 fullShare (stAt m c n hn).ks) ∗ (∃ r, prngReg c r)) :=
  if_neg h3

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

end Cert.KernelIdeal.Gen

end
-- ==== Proof.KI.Frame.lean ====
/-
  The body's obligation at every grid point, from the four runs and the invariant, and the run of the whole
  program: every weakly fair execution terminates, faults nowhere, and ends with every array of the pipeline at
  what the proof data says and every other buffer as it was.
-/
import proofs.«168895_g52209622450808_cont_9to1_m_767_18_alg».proof.Proof.KI.FrameData

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, the core's (empty) debt, and each window's current staging
    buffer at what it holds before the body, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-! ## The carried contents and the invariant, at a point of the grid -/

/-- The point before a point is a point. -/
theorem pred_lt (t : Fin cfg0.N) : t.val - 1 < cfg0.N := Nat.lt_of_le_of_lt (Nat.sub_le _ _) t.isLt

/-- After the first point: the three quadrant products of its chunk. -/
theorem stAtT_zero (c : Dev nD) (t : Fin cfg0.N) (h : t.val = 0) :
    stAt m c t.val t.isLt = ⟨(View.canon ([] : List (View.Piece (Elt F) S2000x256 .f32))), gA0 (iblk m c 0 t), gA1 (iblk m c 0 t), gA2 (iblk m c 0 t), (View.canon ([] : List (View.Piece (Elt F) S1024x256 .bf16))), (View.canon ([] : List (View.Piece (Elt F) S1024x256 .bf16)))⟩ := by
  obtain ⟨n, hn⟩ := t
  cases n with
  | zero => exact stAt_zero m c hn
  | succ n => exact absurd h (Nat.succ_ne_zero n)

/-- After points 1 and 2: the point before's quadrants plus the chunk's products. -/
theorem stAtT_acc (c : Dev nD) (t : Fin cfg0.N) (h0 : t.val ≠ 0) (h3 : t.val < 3) :
    stAt m c t.val t.isLt = ⟨(stAt m c (t.val - 1) (pred_lt t)).out, gB0 (iblk m c 0 t) (stAt m c (t.val - 1) (pred_lt t)).g0, gB1 (iblk m c 0 t) (stAt m c (t.val - 1) (pred_lt t)).g1, gB2 (iblk m c 0 t) (stAt m c (t.val - 1) (pred_lt t)).g2, (stAt m c (t.val - 1) (pred_lt t)).om, (stAt m c (t.val - 1) (pred_lt t)).ks⟩ := by
  obtain ⟨n, hn⟩ := t
  cases n with
  | zero => exact absurd rfl h0
  | succ n => exact stAt_acc m c n hn h3

/-- After point 3: the last sums, and the mixed rows and scaled keys computed from them. -/
theorem stAtT_fin (c : Dev nD) (t : Fin cfg0.N) (h : t.val = 3) :
    stAt m c t.val t.isLt = ⟨(stAt m c (t.val - 1) (pred_lt t)).out, gB0 (iblk m c 0 t) (stAt m c (t.val - 1) (pred_lt t)).g0, gB1 (iblk m c 0 t) (stAt m c (t.val - 1) (pred_lt t)).g1, gB2 (iblk m c 0 t) (stAt m c (t.val - 1) (pred_lt t)).g2,
        omOf (gB0 (iblk m c 0 t) (stAt m c (t.val - 1) (pred_lt t)).g0) (gB1 (iblk m c 0 t) (stAt m c (t.val - 1) (pred_lt t)).g1) (gB2 (iblk m c 0 t) (stAt m c (t.val - 1) (pred_lt t)).g2) (iblk m c 1 t),
        ksOf (iblk m c 1 t) (iblk m c 2 t) (iblk m c 3 t)⟩ := by
  obtain ⟨n, hn⟩ := t
  cases n with
  | zero => exact absurd (show (0 : ℕ) = 3 from h) (by decide)
  | succ n => exact stAt_fin m c n hn h

/-- After an attention step: its output block, the scratch buffers as they were. -/
theorem stAtT_att (c : Dev nD) (t : Fin cfg0.N) (h : 4 ≤ t.val) :
    stAt m c t.val t.isLt = ⟨attOf (iblk m c 4 t) (iblk m c 5 t) (iblk m c 6 t) (stAt m c (t.val - 1) (pred_lt t)).ks (stAt m c (t.val - 1) (pred_lt t)).om (iblk m c 7 t), (stAt m c (t.val - 1) (pred_lt t)).g0, (stAt m c (t.val - 1) (pred_lt t)).g1, (stAt m c (t.val - 1) (pred_lt t)).g2, (stAt m c (t.val - 1) (pred_lt t)).om, (stAt m c (t.val - 1) (pred_lt t)).ks⟩ := by
  obtain ⟨n, hn⟩ := t
  cases n with
  | zero => exact absurd (show 4 ≤ 0 from h) (by decide)
  | succ n => exact stAt_att m c n hn h

/-- Before points 1, 2, 3: the Gram quadrants at what the point before left, the other two buffers at anything. -/
theorem PhiST_early (c : Dev nD) (t : Fin cfg0.N) (h0 : t.val ≠ 0) (h3 : t.val - 1 < 3) :
    PhiS m c t.val (Nat.le_of_lt t.isLt) = iprop(iprop(owns (c : Thread nD τ) scM0_0 fullShare (stAt m c (t.val - 1) (pred_lt t)).g0 ∗ owns (c : Thread nD τ) scM0_1 fullShare (stAt m c (t.val - 1) (pred_lt t)).g1 ∗ owns (c : Thread nD τ) scM0_2 fullShare (stAt m c (t.val - 1) (pred_lt t)).g2 ∗ (∃ d, owns (c : Thread nD τ) scM0_3 fullShare d) ∗ (∃ d, owns (c : Thread nD τ) scM0_4 fullShare d)) ∗ (∃ r, prngReg c r)) := by
  obtain ⟨n, hn⟩ := t
  cases n with
  | zero => exact absurd rfl h0
  | succ n => exact PhiS_early m c n _ h3

/-- Before a later point: all five scratch buffers at what the point before left. -/
theorem PhiST_late (c : Dev nD) (t : Fin cfg0.N) (h0 : t.val ≠ 0) (h3 : ¬t.val - 1 < 3) :
    PhiS m c t.val (Nat.le_of_lt t.isLt) = iprop(iprop(owns (c : Thread nD τ) scM0_0 fullShare (stAt m c (t.val - 1) (pred_lt t)).g0 ∗ owns (c : Thread nD τ) scM0_1 fullShare (stAt m c (t.val - 1) (pred_lt t)).g1 ∗ owns (c : Thread nD τ) scM0_2 fullShare (stAt m c (t.val - 1) (pred_lt t)).g2 ∗ owns (c : Thread nD τ) scM0_3 fullShare (stAt m c (t.val - 1) (pred_lt t)).om ∗ owns (c : Thread nD τ) scM0_4 fullShare (stAt m c (t.val - 1) (pred_lt t)).ks) ∗ (∃ r, prngReg c r)) := by
  obtain ⟨n, hn⟩ := t
  cases n with
  | zero => exact absurd rfl h0
  | succ n => exact PhiS_late m c n _ h3

/-- A live window's buffer is left at the proof data's contents: the inputs at their blocks. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
/-- At an attention step the output's buffer is left at the step's block; before them it is handed back as it was. -/
theorem leaves0_8_live (c : Dev nD) (t : Fin cfg0.N) (h : 4 ≤ t.val) : (dats m 0 c).leavesExact 8 t = owns (c : Thread nD τ) (ms0_8 t) fullShare (stAt m c t.val t.isLt).out := by
  unfold Dat.leavesExact; rw [liveAt0_8 t h, after0_8]
theorem leaves0_8_idle (c : Dev nD) (t : Fin cfg0.N) (h : t.val < 4) : (dats m 0 c).leavesExact 8 t = iprop(∃ d, owns (c : Thread nD τ) (ms0_8 t) fullShare ((dats m 0 c).before 8 t d)) :=
  Dat.leavesExact_idle (dats m 0 c) 8 t (idleAt0_8 t h) (noFlush0_8 t h)

set_option maxHeartbeats 4800000 in
/-- The first point: the first Gram step. -/
theorem sound_body_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiS_zero m c _ _ h, PhiA0_eq, PhiS_early m c t.val t.isLt (by omega), stAtT_zero m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runA c (grid0.coords t) _ _ _ _ _ _ _ _ _ _ _ _ _ _ _ _ _ _ _ _ _ _ _ _ _ _ _ _ ((hcond0_0 t).mpr h) (fun h' => absurd ((hcond0_1 t).mp h') (by omega)) (fun h' => absurd ((hcond0_2 t).mp h') (by omega)) (fun h' => absurd ((hcond0_3 t).mp h') (by omega)) (iblk m c 0 t) Set.univ _)
  isplitl [H0]; · iexact H0
  isplitl [HS0]; · iexact HS0
  isplitl [HS1]; · iexact HS1
  isplitl [HS2]; · iexact HS2
  iintro ⟨H0, HS0, HS1, HS2⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Points 1 and 2: an accumulating Gram step. -/
theorem sound_body_B (c : Dev nD) (t : Fin cfg0.N) (h0 : t.val ≠ 0) (h3 : t.val < 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiST_early m c t h0 (by omega), PhiS_early m c t.val t.isLt h3, stAtT_acc m c t h0 h3]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runB c (grid0.coords t) _ _ _ _ _ _ _ _ _ _ _ _ _ _ _ _ _ _ _ _ _ _ _ _ _ _ _ _ (fun h' => absurd ((hcond0_0 t).mp h') h0) ((hcond0_1 t).mpr ⟨by omega, by omega⟩) (fun h' => absurd ((hcond0_2 t).mp h') (by omega)) (fun h' => absurd ((hcond0_3 t).mp h') (by omega)) (iblk m c 0 t) _ _ _ Set.univ _)
  isplitl [H0]; · iexact H0
  isplitl [HS0]; · iexact HS0
  isplitl [HS1]; · iexact HS1
  isplitl [HS2]; · iexact HS2
  iintro ⟨H0, HS0, HS1, HS2⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Point 3: the last Gram step and the preamble's finish. -/
theorem sound_body_C (c : Dev nD) (t : Fin cfg0.N) (h : t.val = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_idle m c t (by omega)]
  rw [PhiS_castSucc m c t]
  rw [PhiST_early m c t (by omega) (by omega), PhiS_late m c t.val t.isLt (by omega), stAtT_fin m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runC c (grid0.coords t) _ _ _ _ _ _ _ _ _ _ _ _ _ _ _ _ _ _ _ _ _ _ _ _ _ _ _ _ (fun h' => absurd ((hcond0_0 t).mp h') (by omega)) ((hcond0_1 t).mpr ⟨by omega, by omega⟩) ((hcond0_2 t).mpr h) (fun h' => absurd ((hcond0_3 t).mp h') (by omega)) (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- Points 4 to 8: an attention step. -/
theorem sound_body_D (c : Dev nD) (t : Fin cfg0.N) (h : 4 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl]
  rw [leaves0_0, leaves0_1, leaves0_2, leaves0_3, leaves0_4, leaves0_5, leaves0_6, leaves0_7, leaves0_8_live m c t h]
  rw [PhiS_castSucc m c t]
  rw [PhiST_late m c t (by omega) (by omega), PhiS_late m c t.val t.isLt (by omega), stAtT_att m c t h]
  dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runD c (grid0.coords t) _ _ _ _ _ _ _ _ _ _ _ _ _ _ _ _ _ _ _ _ _ _ _ _ _ _ _ _ (fun h' => absurd ((hcond0_0 t).mp h') (by omega)) (fun h' => absurd ((hcond0_1 t).mp h') (by omega)) (fun h' => absurd ((hcond0_2 t).mp h') (by omega)) ((hcond0_3 t).mpr h) (iblk m c 4 t) (iblk m c 5 t) (iblk m c 6 t) (iblk m c 7 t) _ _ Set.univ _)
  isplitl [H4]; · iexact H4
  isplitl [H5]; · iexact H5
  isplitl [H6]; · iexact H6
  isplitl [H7]; · iexact H7
  isplitl [H8]; · iexists _; iexact H8
  isplitl [HS3]; · iexact HS3
  isplitl [HS4]; · iexact HS4
  iintro ⟨H4, H5, H6, H7, H8, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4800000 in
/-- The body at any point: the inputs' staging buffers hold their blocks; the point is in one of the four control cases,
    whose run applies; the invariant hands the run the scratch buffers at what the point before left and takes them back
    at this point's contents; the output's buffer is handed back untouched before the attention steps and holds the
    step's block at them; the core owes nothing throughout. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_body_A m c t hA
  by_cases hB : t.val < 3
  · exact sound_body_B m c t hA hB
  by_cases hC : t.val = 3
  · exact sound_body_C m c t hC
  exact sound_body_D m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl]
  have hN : cfg0.N = 8 + 1 := N_0
  rw [show PhiS m c cfg0.N (Nat.le_refl _) = PhiS m c (8 + 1) (by omega) from by congr 1, PhiS_late m c 8 (by omega) (by decide), PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
/-- At the compiled mesh, for any values, from any memory with zero counters: every weakly fair execution of the program
    terminates, and every final state has every array of the pipeline at what the library computes from the proof data
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Gen

end
-- ==== Proof.KI.Quad.lean ====
/-
  The lower and upper halves of the 1024 column indices, and the 1024 × 1024 matrix of square roots assembled
  from three 512 × 512 quadrants of a symmetric matrix: upper-left, upper-right, lower-right, the lower-left
  quadrant being the transpose of the upper-right one.
-/
import proofs.«168895_g52209622450808_cont_9to1_m_767_18_alg».proof.Proof.KI.Steps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx Cert.KernelIdeal Cert.KernelIdeal.Gen

/-- Index `i` of the lower half, and of the upper half, of 1024. -/
def lo (i : Fin 512) : Fin 1024 := ⟨i.val, by omega⟩
def hi (i : Fin 512) : Fin 1024 := ⟨512 + i.val, by omega⟩

theorem lo_val (i : Fin 512) : (lo i).val = i.val := rfl
theorem hi_val (i : Fin 512) : (hi i).val = 512 + i.val := rfl

/-- Every index below 1024 is in exactly one half. -/
theorem lo_or_hi (i : Fin 1024) : (∃ a : Fin 512, i = lo a) ∨ (∃ a : Fin 512, i = hi a) := by
  by_cases h : i.val < 512
  · exact .inl ⟨⟨i.val, h⟩, Fin.ext rfl⟩
  · exact .inr ⟨⟨i.val - 512, by omega⟩, Fin.ext (by simp only [hi_val]; omega)⟩

/-- A sum over 1024 indices is the sum over the lower half plus the sum over the upper half. -/
theorem sum_halves {M : Type*} [AddCommMonoid M] (f : Fin 1024 → M) : ∑ j : Fin 1024, f j = (∑ a : Fin 512, f (lo a)) + ∑ a : Fin 512, f (hi a) := by
  have h := Fin.sum_univ_add (a := 512) (b := 512) (fun x : Fin (512 + 512) => f x)
  refine h.trans ?_
  congr 1 <;> refine Finset.sum_congr rfl fun a _ => congrArg f (Fin.ext ?_)
  all_goals first | rfl | (simp only [Fin.val_natAdd, hi_val])

/-- The matrix of square roots with quadrants √g0 (upper left), √g1 (upper right), √g1 transposed (lower left), √g2 (lower right). -/
def quadA (g0 g1 g2 : Vec Ideal S512x512 .f32) (i j : Fin 1024) : EReal :=
  if hi' : i.val < 512 then
    (if hj : j.val < 512 then Ideal.sqrt (g0 (ix2 ⟨i.val, hi'⟩ ⟨j.val, hj⟩)) else Ideal.sqrt (g1 (ix2 ⟨i.val, hi'⟩ ⟨j.val - 512, by omega⟩)))
  else
    (if hj : j.val < 512 then Ideal.sqrt (g1 (ix2 ⟨j.val, hj⟩ ⟨i.val - 512, by omega⟩)) else Ideal.sqrt (g2 (ix2 ⟨i.val - 512, by omega⟩ ⟨j.val - 512, by omega⟩)))

theorem quadA_lo_lo (g0 g1 g2 : Vec Ideal S512x512 .f32) (a b : Fin 512) : quadA g0 g1 g2 (lo a) (lo b) = Ideal.sqrt (g0 (ix2 a b)) := by
  unfold quadA; rw [dif_pos (by simp only [lo_val]; omega), dif_pos (by simp only [lo_val]; omega)]; rfl
theorem quadA_lo_hi (g0 g1 g2 : Vec Ideal S512x512 .f32) (a b : Fin 512) : quadA g0 g1 g2 (lo a) (hi b) = Ideal.sqrt (g1 (ix2 a b)) := by
  unfold quadA; rw [dif_pos (by simp only [lo_val]; omega), dif_neg (by simp only [hi_val]; omega)]
  congr 2; exact congrArg (ix2 _) (Fin.ext (by simp only [hi_val]; omega))
theorem quadA_hi_lo (g0 g1 g2 : Vec Ideal S512x512 .f32) (a b : Fin 512) : quadA g0 g1 g2 (hi a) (lo b) = Ideal.sqrt (g1 (ix2 b a)) := by
  unfold quadA; rw [dif_neg (by simp only [hi_val]; omega), dif_pos (by simp only [lo_val]; omega)]
  congr 2; exact congrArg (ix2 _) (Fin.ext (by simp only [hi_val]; omega))
theorem quadA_hi_hi (g0 g1 g2 : Vec Ideal S512x512 .f32) (a b : Fin 512) : quadA g0 g1 g2 (hi a) (hi b) = Ideal.sqrt (g2 (ix2 a b)) := by
  unfold quadA; rw [dif_neg (by simp only [hi_val]; omega), dif_neg (by simp only [hi_val]; omega)]
  congr 2
  have e1 : (⟨(hi a).val - 512, by simp only [hi_val]; omega⟩ : Fin 512) = a := Fin.ext (by simp only [hi_val]; omega)
  have e2 : (⟨(hi b).val - 512, by simp only [hi_val]; omega⟩ : Fin 512) = b := Fin.ext (by simp only [hi_val]; omega)
  rw [e1, e2]

end Cert.KernelIdeal.Val

end
-- ==== Proof.Spec.lean ====
/-
  The mathematics of the certificate, with no program in sight. Over the extended reals:
    gram i j   = ∑ r, fix r i · fix r j                         (the Gram matrix of the columns of fix_feat)
    rt i j     = √(gram i j)                                     (⊥ where the Gram entry is negative)
    colsum j   = ∑ i, rt i j
    mixK i d   = ∑ j, rt i j · (other j d / colsum j)            (the kernel: rows of other_feat pre-divided)
    mixR i d   = ∑ j, (rt i j / colsum j) · other j d            (the reference: columns of rt normalised)
    q n d      = (∑ e, main n e · Wq d e) + bq d,   k j d = (∑ e, other j e · Wk d e) + bk d
    logitK n j = ∑ d, q n d · (k j d · 1/16)                     (the kernel scales the keys)
    logitR n j = (∑ d, q n d · k j d) / 16                       (the reference scales the logits)
    outK n d   = (∑ j, exp (logitK n j) · mixK j d) · (1 / ∑ j, exp (logitK n j) · 1)
    outR n d   = ∑ j, (exp (logitR n j − M n) / ∑ j', exp (logitR n j' − M n)) · mixR j d     (M n any real shift)
  For finite inputs and nonzero column sums the two outputs agree: a quotient by a nonzero extended real is a
  product with its inverse, so the two mixings agree term by term by associativity and commutativity alone;
  every logit is real, where 1/16 distributes over the sum; and the shift of a softmax cancels.
-/
import Idealize.ShloMosaic.PureOps.Ideal
import Mathlib.Analysis.SpecialFunctions.Exp
import Mathlib.Data.EReal.Inv

noncomputable section

namespace Cert.Spec

open Idealize.ShloMosaic

/-- An extended real that is a real number. -/
def IsReal (x : EReal) : Prop := ∃ r : ℝ, x = (r : EReal)

variable (fx : Fin 4096 → Fin 1024 → EReal) (ot : Fin 1024 → Fin 256 → EReal) (mn : Fin 10000 → Fin 256 → EReal)
  (wq wk : Fin 256 → Fin 256 → EReal) (bq bk : Fin 256 → EReal)

def gram (i j : Fin 1024) : EReal := ∑ r : Fin 4096, fx r i * fx r j
def rt (i j : Fin 1024) : EReal := Ideal.sqrt (gram fx i j)
def colsum (j : Fin 1024) : EReal := ∑ i : Fin 1024, rt fx i j
def mixK (i : Fin 1024) (d : Fin 256) : EReal := ∑ j : Fin 1024, rt fx i j * Ideal.div (ot j d) (colsum fx j)
def mixR (i : Fin 1024) (d : Fin 256) : EReal := ∑ j : Fin 1024, Ideal.div (rt fx i j) (colsum fx j) * ot j d
def qv (n : Fin 10000) (d : Fin 256) : EReal := (∑ e : Fin 256, mn n e * wq d e) + bq d
def kv (j : Fin 1024) (d : Fin 256) : EReal := (∑ e : Fin 256, ot j e * wk d e) + bk d
/-- The f32 word of 1/16, of 16 and of 1, and the bf16 word of 1, as extended reals. -/
def sixteenth : EReal := Ideal.ofBits .f32 0x3D800000#32
def sixteen : EReal := Ideal.ofBits .f32 0x41800000#32
def oneF : EReal := Ideal.ofBits .f32 0x3F800000#32
def oneB : EReal := Ideal.ofBits .bf16 0x3F80#16
def logitK (n : Fin 10000) (j : Fin 1024) : EReal := ∑ d : Fin 256, qv mn wq bq n d * (kv ot wk bk j d * sixteenth)
def logitR (n : Fin 10000) (j : Fin 1024) : EReal := Ideal.div (∑ d : Fin 256, qv mn wq bq n d * kv ot wk bk j d) sixteen
def outK (n : Fin 10000) (d : Fin 256) : EReal :=
  (∑ j : Fin 1024, Ideal.exp (logitK ot mn wq wk bq bk n j) * mixK fx ot j d)
    * Ideal.div oneF (∑ j : Fin 1024, Ideal.exp (logitK ot mn wq wk bq bk n j) * oneB)
def outR (M : Fin 10000 → EReal) (n : Fin 10000) (d : Fin 256) : EReal :=
  ∑ j : Fin 1024, Ideal.div (Ideal.exp (logitR ot mn wq wk bq bk n j - M n)) (∑ j' : Fin 1024, Ideal.exp (logitR ot mn wq wk bq bk n j' - M n)) * mixR fx ot j d

end Cert.Spec

end
-- ==== Proof.KI.Blocks.lean ====
/-
  What each window's block holds at a grid point, read off the argument arrays: chunk t of fix_feat at the Gram
  steps, block t − 4 of main_feat at the attention steps, the whole of other_feat and of the two weight
  matrices, the two bias vectors as rows, and the constant ones.
-/
import proofs.«168895_g52209622450808_cont_9to1_m_767_18_alg».proof.Proof.KI.FrameData
import proofs.«168895_g52209622450808_cont_9to1_m_767_18_alg».proof.Proof.KI.Quad
import proofs.«168895_g52209622450808_cont_9to1_m_767_18_alg».proof.Proof.Spec
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The argument arrays of core `c` as plain functions of their coordinates. -/
abbrev mnOf (c : Dev nD) : Fin 10000 → Fin 256 → EReal := fun n e => m ((c : Thread nD τ).loc main_arg0) (ix2 n e)
abbrev otOf (c : Dev nD) : Fin 1024 → Fin 256 → EReal := fun j d => m ((c : Thread nD τ).loc main_arg1) (ix2 j d)
abbrev fxOf (c : Dev nD) : Fin 4096 → Fin 1024 → EReal := fun r i => m ((c : Thread nD τ).loc main_arg2) (ix2 r i)
abbrev wqOf (c : Dev nD) : Fin 256 → Fin 256 → EReal := fun d e => m ((c : Thread nD τ).loc main_arg3) (ix2 d e)
abbrev bqOf (c : Dev nD) : Fin 256 → EReal := fun d => m ((c : Thread nD τ).loc main_arg4) (ix1 d)
abbrev wkOf (c : Dev nD) : Fin 256 → Fin 256 → EReal := fun d e => m ((c : Thread nD τ).loc main_arg5) (ix2 d e)
abbrev bkOf (c : Dev nD) : Fin 256 → EReal := fun d => m ((c : Thread nD τ).loc main_arg6) (ix1 d)

/-- Each window's block at point `t`, at its literal type. -/
abbrev xb0 (c : Dev nD) (t : Fin cfg0.N) : Vec Ideal S1024x1024 .f32 := iblk m c 0 t
abbrev xb1 (c : Dev nD) (t : Fin cfg0.N) : Vec Ideal S1024x256 .f32 := iblk m c 1 t
abbrev xb2 (c : Dev nD) (t : Fin cfg0.N) : Vec Ideal S256x256 .f32 := iblk m c 2 t
abbrev xb3 (c : Dev nD) (t : Fin cfg0.N) : Vec Ideal S1x256 .f32 := iblk m c 3 t
abbrev xb4 (c : Dev nD) (t : Fin cfg0.N) : Vec Ideal S2000x256 .f32 := iblk m c 4 t
abbrev xb5 (c : Dev nD) (t : Fin cfg0.N) : Vec Ideal S256x256 .f32 := iblk m c 5 t
abbrev xb6 (c : Dev nD) (t : Fin cfg0.N) : Vec Ideal S1x256 .f32 := iblk m c 6 t
abbrev xb7 (c : Dev nD) (t : Fin cfg0.N) : Vec Ideal S1024x128 .bf16 := iblk m c 7 t

/-! ## The windows' index maps over the nine grid points, and their arrays -/

/-- The fix_feat window moves down one chunk per Gram step and stays at the last chunk afterwards; the main_feat window
    stays at block 0 until the attention steps and then moves down one block per step; every other window stays at its
    one block. Decided once over the grid. -/
theorem idx0 : ∀ t : Fin cfg0.N, win0_0.index t (0 : Fin 2) = min t.val 3 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val - 4 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)

/-- The array each window reads: the program's arguments, and for the two biases and the ones the arrays the program
    computes before the region. -/
theorem arr0 : Pipeline.arrRef spec0 0 = main_arg2 := rfl
theorem arr1 : Pipeline.arrRef spec0 1 = main_arg1 := rfl
theorem arr2 : Pipeline.arrRef spec0 2 = main_arg5 := rfl
theorem arr3 : Pipeline.arrRef spec0 3 = main_v1 := rfl
theorem arr4 : Pipeline.arrRef spec0 4 = main_arg0 := rfl
theorem arr5 : Pipeline.arrRef spec0 5 = main_arg3 := rfl
theorem arr6 : Pipeline.arrRef spec0 6 = main_v0 := rfl
theorem arr7 : Pipeline.arrRef spec0 7 = main_v2 := rfl

/-- At the Gram steps the fix_feat window holds chunk `t`: rows 1024 t … 1024 t + 1023. -/
theorem blk0 (c : Dev nD) (t : Fin cfg0.N) (ht : t.val < 4) (r i : Fin 1024) (q : Fin 4096) (hq : q.val = 1024 * t.val + r.val) :
    xb0 m c t (ix2 r i) = fxOf m c q i := by
  show V m c main_arg2 (((cfg0.win 0).blk t).view.emb (ix2 r i)) = m ((c : Thread nD τ).loc main_arg2) (ix2 q i)
  rw [V_main_arg2]
  refine congrArg _ ?_
  obtain ⟨e0, e1⟩ := idx0 t
  funext a; apply Fin.ext
  match a with
  | ⟨0, _⟩ => show win0_0.index t (0 : Fin 2) * 1024 + 1 * r.val = q.val; rw [e0]; omega
  | ⟨1, _⟩ => show win0_0.index t (1 : Fin 2) * 1024 + 1 * i.val = i.val; rw [e1]; omega
theorem blk1 (c : Dev nD) (t : Fin cfg0.N) (j : Fin 1024) (d : Fin 256) : xb1 m c t (ix2 j d) = otOf m c j d := by
  show V m c main_arg1 (((cfg0.win 1).blk t).view.emb (ix2 j d)) = m ((c : Thread nD τ).loc main_arg1) (ix2 j d)
  rw [V_main_arg1]
  refine congrArg _ ?_
  obtain ⟨e0, e1⟩ := idx1 t
  funext a; apply Fin.ext
  match a with
  | ⟨0, _⟩ => show win0_1.index t (0 : Fin 2) * 1024 + 1 * j.val = j.val; rw [e0]; omega
  | ⟨1, _⟩ => show win0_1.index t (1 : Fin 2) * 256 + 1 * d.val = d.val; rw [e1]; omega
/-- The key weights (the program's sixth argument). -/
theorem blk2 (c : Dev nD) (t : Fin cfg0.N) (d e : Fin 256) : xb2 m c t (ix2 d e) = wkOf m c d e := by
  show V m c main_arg5 (((cfg0.win 2).blk t).view.emb (ix2 d e)) = m ((c : Thread nD τ).loc main_arg5) (ix2 d e)
  rw [V_main_arg5]
  refine congrArg _ ?_
  obtain ⟨e0, e1⟩ := idx2 t
  funext a; apply Fin.ext
  match a with
  | ⟨0, _⟩ => show win0_2.index t (0 : Fin 2) * 256 + 1 * d.val = d.val; rw [e0]; omega
  | ⟨1, _⟩ => show win0_2.index t (1 : Fin 2) * 256 + 1 * e.val = e.val; rw [e1]; omega
/-- The key bias, reshaped to a row by the program before the region. -/
theorem blk3 (c : Dev nD) (t : Fin cfg0.N) (e : Fin 256) : xb3 m c t (ix2 (0 : Fin 1) e) = bkOf m c e := by
  have eV : (V m c main_v1 : S1x256.Idx → EReal) = shapeCast S1x256 (m ((c : Thread nD τ).loc main_arg6)) shapeCasts_S256_S1x256 := by
    dsimp only [Gen.V, Gen.hostOps0]; after_results; rfl
  show V m c main_v1 (((cfg0.win 3).blk t).view.emb (ix2 (0 : Fin 1) e)) = m ((c : Thread nD τ).loc main_arg6) (ix1 e)
  rw [eV]
  obtain ⟨e0, e1⟩ := idx3 t
  refine shapeCast_apply _ _ _ (ix1 e) ?_
  rw [Shape.rowMajor_val_one, Shape.rowMajor_val_two]
  show e.val = (win0_3.index t (0 : Fin 2) * 1 + 1 * 0) * 256 + (win0_3.index t (1 : Fin 2) * 256 + 1 * e.val)
  rw [e0, e1]; omega
/-- At the attention steps the main_feat window holds block `t − 4`: rows 2000 (t − 4) … 2000 (t − 4) + 1999. -/
theorem blk4 (c : Dev nD) (t : Fin cfg0.N) (ht : 4 ≤ t.val) (r : Fin 2000) (e : Fin 256) (q : Fin 10000) (hq : q.val = 2000 * (t.val - 4) + r.val) :
    xb4 m c t (ix2 r e) = mnOf m c q e := by
  show V m c main_arg0 (((cfg0.win 4).blk t).view.emb (ix2 r e)) = m ((c : Thread nD τ).loc main_arg0) (ix2 q e)
  rw [V_main_arg0]
  refine congrArg _ ?_
  obtain ⟨e0, e1⟩ := idx4 t
  funext a; apply Fin.ext
  match a with
  | ⟨0, _⟩ => show win0_4.index t (0 : Fin 2) * 2000 + 1 * r.val = q.val; rw [e0]; omega
  | ⟨1, _⟩ => show win0_4.index t (1 : Fin 2) * 256 + 1 * e.val = e.val; rw [e1]; omega
/-- The query weights (the program's fourth argument). -/
theorem blk5 (c : Dev nD) (t : Fin cfg0.N) (d e : Fin 256) : xb5 m c t (ix2 d e) = wqOf m c d e := by
  show V m c main_arg3 (((cfg0.win 5).blk t).view.emb (ix2 d e)) = m ((c : Thread nD τ).loc main_arg3) (ix2 d e)
  rw [V_main_arg3]
  refine congrArg _ ?_
  obtain ⟨e0, e1⟩ := idx5 t
  funext a; apply Fin.ext
  match a with
  | ⟨0, _⟩ => show win0_5.index t (0 : Fin 2) * 256 + 1 * d.val = d.val; rw [e0]; omega
  | ⟨1, _⟩ => show win0_5.index t (1 : Fin 2) * 256 + 1 * e.val = e.val; rw [e1]; omega
/-- The query bias, reshaped to a row by the program before the region. -/
theorem blk6 (c : Dev nD) (t : Fin cfg0.N) (e : Fin 256) : xb6 m c t (ix2 (0 : Fin 1) e) = bqOf m c e := by
  have eV : (V m c main_v0 : S1x256.Idx → EReal) = shapeCast S1x256 (m ((c : Thread nD τ).loc main_arg4)) shapeCasts_S256_S1x256 := by
    dsimp only [Gen.V, Gen.hostOps0]; after_results; rfl
  show V m c main_v0 (((cfg0.win 6).blk t).view.emb (ix2 (0 : Fin 1) e)) = m ((c : Thread nD τ).loc main_arg4) (ix1 e)
  rw [eV]
  obtain ⟨e0, e1⟩ := idx6 t
  refine shapeCast_apply _ _ _ (ix1 e) ?_
  rw [Shape.rowMajor_val_one, Shape.rowMajor_val_two]
  show e.val = (win0_6.index t (0 : Fin 2) * 1 + 1 * 0) * 256 + (win0_6.index t (1 : Fin 2) * 256 + 1 * e.val)
  rw [e0, e1]; omega
/-- The ones the program broadcasts before the region. -/
theorem blk7 (c : Dev nD) (t : Fin cfg0.N) (j : Fin 1024) (k : Fin 128) : xb7 m c t (ix2 j k) = Spec.oneB := by
  have eV : (V m c main_v2 : S1024x128.Idx → EReal) = broadcastInDim S1024x128 ![] bcast_S_S1024x128 (constant (F := Ideal) S_ .bf16 0x3F80#16) := by
    dsimp only [Gen.V, Gen.hostOps0]; after_results
  show V m c main_v2 (((cfg0.win 7).blk t).view.emb (ix2 j k)) = Spec.oneB
  rw [eV]
  rfl

end Cert.KernelIdeal.Val

end
-- ==== Proof.KI.PayGram.lean ====
/-
  The Gram steps, index by index, at the ideal instance. A step's three products are plain sums over the 1024
  rows of the staged chunk: entry (a, b) of the left-left product is ∑ r, x (r, a) · x (r, b) with both columns in
  the lower half, of the left-right product with the second column in the upper half, of the right-right
  product with both in the upper half; an accumulating step adds the same sums to what the buffer held.
  (A change of float format is the identity here, and a matrix product into a zero accumulator is the plain sum.)
-/
import proofs.«168895_g52209622450808_cont_9to1_m_767_18_alg».proof.Proof.KI.Quad
import proofs.«168895_g52209622450808_cont_9to1_m_767_18_alg».proof.Proof.Spec

set_option maxRecDepth 16384

noncomputable section

namespace Cert.KernelIdeal.Val

open Idealize.ShloMosaic Idealize.ShloMosaic.ValueIdx Cert.KernelIdeal Cert.KernelIdeal.Gen

/-- The lower column half of the chunk reads its column `a`, the upper half its column `512 + a`. -/
theorem fixL_apply (x0 : Vec Ideal S1024x1024 .f32) (r : Fin 1024) (a : Fin 512) :
    fixL x0 (ix2 r a) = x0 (ix2 r (lo a)) := by
  show x0 ((Rect.unit (s := S1024x1024) ![0, 0] S1024x512.size inb_S1024x1024_S1024x512_0_0).idx (ix2 r a)) = _
  refine congrArg x0 (funext fun ax => Fin.ext ?_)
  match ax with
  | ⟨0, _⟩ => show 0 + 1 * r.val = r.val; omega
  | ⟨1, _⟩ => show 0 + 1 * a.val = (lo a).val; rw [lo_val]; omega
theorem fixR_apply (x0 : Vec Ideal S1024x1024 .f32) (r : Fin 1024) (a : Fin 512) :
    fixR x0 (ix2 r a) = x0 (ix2 r (hi a)) := by
  show x0 ((Rect.unit (s := S1024x1024) ![0, 512] S1024x512.size inb_S1024x1024_S1024x512_0_512).idx (ix2 r a)) = _
  refine congrArg x0 (funext fun ax => Fin.ext ?_)
  match ax with
  | ⟨0, _⟩ => show 0 + 1 * r.val = r.val; omega
  | ⟨1, _⟩ => show 512 + 1 * a.val = (hi a).val; rw [hi_val]; omega

/-- The product's operand indices: it contracts the rows (axis 0) of both operands, and the output's two
    coordinates are the columns of the left and of the right operand. -/
theorem lhs_gram_0 (i : S512x512.Idx) (q : dot_S1024x512_S1024x512_S512x512_0_0_1_1_n_n.contr.Idx) :
    (dot_S1024x512_S1024x512_S512x512_0_0_1_1_n_n.lhsIdx i q 0).val = (q ⟨0, by decide⟩).val :=
  dot_S1024x512_S1024x512_S512x512_0_0_1_1_n_n.lhsIdx_val_of_single rfl i q
theorem lhs_gram_1 (i : S512x512.Idx) (q : dot_S1024x512_S1024x512_S512x512_0_0_1_1_n_n.contr.Idx) :
    (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide), dif_pos (show (1 : Fin S1024x512.rank) ∈ dot_S1024x512_S1024x512_S512x512_0_0_1_1_n_n.lhsNonContracting by decide)]
  rfl
theorem rhs_gram_0 (i : S512x512.Idx) (q : dot_S1024x512_S1024x512_S512x512_0_0_1_1_n_n.contr.Idx) :
    (dot_S1024x512_S1024x512_S512x512_0_0_1_1_n_n.rhsIdx i q 0).val = (q ⟨0, by decide⟩).val :=
  dot_S1024x512_S1024x512_S512x512_0_0_1_1_n_n.rhsIdx_val_of_single rfl i q
theorem rhs_gram_1 (i : S512x512.Idx) (q : dot_S1024x512_S1024x512_S512x512_0_0_1_1_n_n.contr.Idx) :
    (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide), dif_pos (show (1 : Fin S1024x512.rank) ∈ dot_S1024x512_S1024x512_S512x512_0_0_1_1_n_n.rhsNonContracting by decide)]
  rfl

/-- The product of two blocks of 1024 rows into a zero accumulator, after the change of format (the identity here):
    entry (a, b) is the sum over the rows of the product of column `a` of the left and column `b` of the right. -/
theorem gram_mm (A B : Vec Ideal S1024x512 .f32) (a b : Fin 512) :
    matmul dot_S1024x512_S1024x512_S512x512_0_0_1_1_n_n none (truncf .bf16 A bitsLt_bf16_f32) (truncf .bf16 B bitsLt_bf16_f32) (constant (F := Ideal) S512x512 .f32 0x00000000#32) (ix2 a b)
      = ∑ r : Fin 1024, A (ix2 r a) * B (ix2 r b) := by
  simp only [matmul]
  rw [Ideal.matmul_constant_zero_apply, ← Equiv.sum_comp (contrEquiv1 dot_S1024x512_S1024x512_S512x512_0_0_1_1_n_n 1024 rfl rfl).symm]
  refine Finset.sum_congr rfl fun k _ => ?_
  have hk := contrEquiv1_symm_val dot_S1024x512_S1024x512_S512x512_0_0_1_1_n_n 1024 rfl rfl k
  have el : dot_S1024x512_S1024x512_S512x512_0_0_1_1_n_n.lhsIdx (ix2 a b) ((contrEquiv1 dot_S1024x512_S1024x512_S512x512_0_0_1_1_n_n 1024 rfl rfl).symm k) = ix2 k a := funext fun ax => Fin.ext (by
    match ax with
    | ⟨0, _⟩ => exact (lhs_gram_0 _ _).trans hk
    | ⟨1, _⟩ => exact lhs_gram_1 _ _)
  have er : dot_S1024x512_S1024x512_S512x512_0_0_1_1_n_n.rhsIdx (ix2 a b) ((contrEquiv1 dot_S1024x512_S1024x512_S512x512_0_0_1_1_n_n 1024 rfl rfl).symm k) = ix2 k b := funext fun ax => Fin.ext (by
    match ax with
    | ⟨0, _⟩ => exact (rhs_gram_0 _ _).trans hk
    | ⟨1, _⟩ => exact rhs_gram_1 _ _)
  rw [el, er]
  rfl

/-- The six payloads at an index, over any blocks. -/
theorem pay3_apply (v14 : Vec Ideal S1024x512 .f32) (a b : Fin 512) :
    k0_pay3 v14 (ix2 a b) = ∑ r : Fin 1024, v14 (ix2 r a) * v14 (ix2 r b) := by
  unfold k0_pay3 k0_pay1
  exact (congrFun (shapeCast_self _ _) _).trans (gram_mm v14 v14 a b)
theorem pay4_apply (v14 v16 : Vec Ideal S1024x512 .f32) (a b : Fin 512) :
    k0_pay4 v14 v16 (ix2 a b) = ∑ r : Fin 1024, v14 (ix2 r a) * v16 (ix2 r b) := by
  unfold k0_pay4 k0_pay1 k0_pay2
  exact (congrFun (shapeCast_self _ _) _).trans (gram_mm v14 v16 a b)
theorem pay5_apply (v16 : Vec Ideal S1024x512 .f32) (a b : Fin 512) :
    k0_pay5 v16 (ix2 a b) = ∑ r : Fin 1024, v16 (ix2 r a) * v16 (ix2 r b) := by
  unfold k0_pay5 k0_pay2
  exact (congrFun (shapeCast_self _ _) _).trans (gram_mm v16 v16 a b)
theorem pay8_apply (v14 : Vec Ideal S1024x512 .f32) (g : Vec Ideal S512x512 .f32) (a b : Fin 512) :
    k0_pay8 v14 g (ix2 a b) = g (ix2 a b) + ∑ r : Fin 1024, v14 (ix2 r a) * v14 (ix2 r b) := by
  unfold k0_pay8 k0_pay6
  exact (congrFun (shapeCast_self _ _) _).trans (congrArg (g (ix2 a b) + ·) (gram_mm v14 v14 a b))
theorem pay9_apply (v14 v16 : Vec Ideal S1024x512 .f32) (g : Vec Ideal S512x512 .f32) (a b : Fin 512) :
    k0_pay9 v14 v16 g (ix2 a b) = g (ix2 a b) + ∑ r : Fin 1024, v14 (ix2 r a) * v16 (ix2 r b) := by
  unfold k0_pay9 k0_pay6 k0_pay7
  exact (congrFun (shapeCast_self _ _) _).trans (congrArg (g (ix2 a b) + ·) (gram_mm v14 v16 a b))
theorem pay10_apply (v16 : Vec Ideal S1024x512 .f32) (g : Vec Ideal S512x512 .f32) (a b : Fin 512) :
    k0_pay10 v16 g (ix2 a b) = g (ix2 a b) + ∑ r : Fin 1024, v16 (ix2 r a) * v16 (ix2 r b) := by
  unfold k0_pay10 k0_pay7
  exact (congrFun (shapeCast_self _ _) _).trans (congrArg (g (ix2 a b) + ·) (gram_mm v16 v16 a b))

theorem gA0_eq (x0 : Vec Ideal S1024x1024 .f32) (a b : Fin 512) :
    gA0 x0 (ix2 a b) = ∑ r : Fin 1024, x0 (ix2 r (lo a)) * x0 (ix2 r (lo b)) := by
  exact (pay3_apply (fixL x0) a b).trans (Finset.sum_congr rfl fun r _ => congrArg₂ (· * ·) (fixL_apply x0 r a) (fixL_apply x0 r b))
theorem gA1_eq (x0 : Vec Ideal S1024x1024 .f32) (a b : Fin 512) :
    gA1 x0 (ix2 a b) = ∑ r : Fin 1024, x0 (ix2 r (lo a)) * x0 (ix2 r (hi b)) := by
  exact (pay4_apply (fixL x0) (fixR x0) a b).trans (Finset.sum_congr rfl fun r _ => congrArg₂ (· * ·) (fixL_apply x0 r a) (fixR_apply x0 r b))
theorem gA2_eq (x0 : Vec Ideal S1024x1024 .f32) (a b : Fin 512) :
    gA2 x0 (ix2 a b) = ∑ r : Fin 1024, x0 (ix2 r (hi a)) * x0 (ix2 r (hi b)) := by
  exact (pay5_apply (fixR x0) a b).trans (Finset.sum_congr rfl fun r _ => congrArg₂ (· * ·) (fixR_apply x0 r a) (fixR_apply x0 r b))
theorem gB0_eq (x0 : Vec Ideal S1024x1024 .f32) (g : Vec Ideal S512x512 .f32) (a b : Fin 512) :
    gB0 x0 g (ix2 a b) = g (ix2 a b) + ∑ r : Fin 1024, x0 (ix2 r (lo a)) * x0 (ix2 r (lo b)) := by
  exact (pay8_apply (fixL x0) g a b).trans (congrArg (g (ix2 a b) + ·) (Finset.sum_congr rfl fun r _ => congrArg₂ (· * ·) (fixL_apply x0 r a) (fixL_apply x0 r b)))
theorem gB1_eq (x0 : Vec Ideal S1024x1024 .f32) (g : Vec Ideal S512x512 .f32) (a b : Fin 512) :
    gB1 x0 g (ix2 a b) = g (ix2 a b) + ∑ r : Fin 1024, x0 (ix2 r (lo a)) * x0 (ix2 r (hi b)) := by
  exact (pay9_apply (fixL x0) (fixR x0) g a b).trans (congrArg (g (ix2 a b) + ·) (Finset.sum_congr rfl fun r _ => congrArg₂ (· * ·) (fixL_apply x0 r a) (fixR_apply x0 r b)))
theorem gB2_eq (x0 : Vec Ideal S1024x1024 .f32) (g : Vec Ideal S512x512 .f32) (a b : Fin 512) :
    gB2 x0 g (ix2 a b) = g (ix2 a b) + ∑ r : Fin 1024, x0 (ix2 r (hi a)) * x0 (ix2 r (hi b)) := by
  exact (pay10_apply (fixR x0) g a b).trans (congrArg (g (ix2 a b) + ·) (Finset.sum_congr rfl fun r _ => congrArg₂ (· * ·) (fixR_apply x0 r a) (fixR_apply x0 r b)))

end Cert.KernelIdeal.Val

end
-- ==== Proof.SpecMix.lean ====
/-
  The two mixings agree. A quotient x / y with y ≠ 0 is the product x · y⁻¹ on the extended reals, so
  rt i j · (other j d / c) and (rt i j / c) · other j d are one product of three factors in two groupings: no
  finiteness is needed for the equality, only that no column sum is zero. For finite inputs every mixed entry is
  moreover a real number: a column with a negative Gram entry has column sum ⊥, whose inverse is 0, so its terms
  vanish; in every other column all the roots and the (positive) column sum are real.
-/
import proofs.«168895_g52209622450808_cont_9to1_m_767_18_alg».proof.Proof.Spec

noncomputable section

namespace Cert.Spec

open Idealize.ShloMosaic

/-- Zero is a real number. -/
theorem isReal_zero : IsReal 0 := ⟨0, EReal.coe_zero.symm⟩

/-- The sum of two real numbers is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- On the extended reals ⊥ absorbs every summand, so a finite sum with a ⊥ term is ⊥. -/
theorem sum_eq_bot {ι : Type*} (s : Finset ι) (f : ι → EReal) (a : ι) (ha : a ∈ s) (h : f a = ⊥) :
    ∑ i ∈ s, f i = ⊥ := by
  classical
  rw [← Finset.add_sum_erase s f ha, h, EReal.bot_add]

variable (fx : Fin 4096 → Fin 1024 → EReal) (ot : Fin 1024 → Fin 256 → EReal)

/-- The Gram matrix is symmetric, hence so is its entrywise square root. -/
theorem rt_symm (i j : Fin 1024) : rt fx i j = rt fx j i := by
  unfold rt gram
  congr 1
  exact Finset.sum_congr rfl fun r _ => mul_comm _ _

/-- Term by term, the kernel's mixing is the reference's, wherever no column sum vanishes. -/
theorem mixK_eq_mixR (hcol : ∀ j, colsum fx j ≠ 0) (i : Fin 1024) (d : Fin 256) : mixK fx ot i d = mixR fx ot i d := by
  unfold mixK mixR
  refine Finset.sum_congr rfl fun j _ => ?_
  simp only [Ideal.div, if_neg (hcol j)]
  rw [mul_assoc, mul_comm (ot j d)]

/-- For finite inputs every Gram entry is a real number. -/
theorem gram_isReal (hfx : ∀ r i, IsReal (fx r i)) (i j : Fin 1024) : IsReal (gram fx i j) :=
  isReal_sum _ _ fun r _ => isReal_mul (hfx r i) (hfx r j)

/-- For finite inputs each root is ⊥ (a negative Gram entry) or a nonnegative real. -/
theorem rt_cases (hfx : ∀ r i, IsReal (fx r i)) (i j : Fin 1024) :
    rt fx i j = ⊥ ∨ ∃ r : ℝ, 0 ≤ r ∧ rt fx i j = (r : EReal) := by
  obtain ⟨g, hg⟩ := gram_isReal fx hfx i j
  unfold rt
  rw [hg, Ideal.sqrt_coe]
  by_cases h : g < 0
  · left; rw [if_pos h]
  · right; rw [if_neg h]; exact ⟨Real.sqrt g, Real.sqrt_nonneg g, rfl⟩

/-- For finite inputs and nonzero column sums every mixed entry is a real number. -/
theorem mixK_isReal (hfx : ∀ r i, IsReal (fx r i)) (hot : ∀ j d, IsReal (ot j d)) (hcol : ∀ j, colsum fx j ≠ 0)
    (i : Fin 1024) (d : Fin 256) : IsReal (mixK fx ot i d) := by
  unfold mixK
  refine isReal_sum _ _ fun j _ => ?_
  by_cases hb : ∃ i', rt fx i' j = ⊥
  · -- a ⊥ root in the column: the column sum is ⊥, its inverse 0, and the term vanishes
    obtain ⟨i', hi'⟩ := hb
    have hc : colsum fx j = ⊥ := by
      unfold colsum
      exact sum_eq_bot _ _ i' (Finset.mem_univ _) hi'
    have hb0 : (⊥ : EReal) ≠ 0 := EReal.bot_lt_zero.ne
    rw [hc, Ideal.div, if_neg hb0, EReal.inv_bot, mul_zero, mul_zero]
    exact isReal_zero
  · -- every root in the column is real: so is the column sum c ≠ 0, and the term is a · (b · (1/c))
    have hr : ∀ i', IsReal (rt fx i' j) := fun i' => by
      rcases rt_cases fx hfx i' j with h | ⟨r, _, h⟩
      · exact absurd ⟨i', h⟩ hb
      · exact ⟨r, h⟩
    obtain ⟨c, hc⟩ : IsReal (colsum fx j) := isReal_sum _ _ fun i' _ => hr i'
    have hc0 : c ≠ 0 := by
      intro h
      apply hcol j
      rw [hc, h, EReal.coe_zero]
    rw [hc, Ideal.div_coe hc0]
    exact isReal_mul (hr i) (isReal_mul (hot j d) ⟨1 / c, rfl⟩)

end Cert.Spec

end
-- ==== Proof.KI.GramVal.lean ====
/-
  The Gram quadrants in closed form, at the ideal instance. After the four Gram steps the three quadrant buffers
  hold the Gram matrix of the columns of fix_feat: a sum over the 4096 rows is the sum of the four chunks' sums
  over 1024 rows each; so the assembled root matrix is rt, its lower-left quadrant by the symmetry of the Gram matrix.
-/
import proofs.«168895_g52209622450808_cont_9to1_m_767_18_alg».proof.Proof.KI.Blocks
import proofs.«168895_g52209622450808_cont_9to1_m_767_18_alg».proof.Proof.KI.PayGram
import proofs.«168895_g52209622450808_cont_9to1_m_767_18_alg».proof.Proof.SpecMix

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem N9 : cfg0.N = 9 := N_0
theorem h3lt : 3 < cfg0.N := by rw [N9]; decide

/-- A sum over `a + b` indices is the sum over the first `a` plus the sum over the last `b`. -/
theorem sum_split {M : Type*} [AddCommMonoid M] (a b : ℕ) (f : Fin (a + b) → M) :
    ∑ q : Fin (a + b), f q = (∑ r : Fin a, f ⟨r.val, by omega⟩) + ∑ r : Fin b, f ⟨a + r.val, by omega⟩ :=
  Fin.sum_univ_add f

/-- A sum over 4096 rows is the sum over the four chunks of 1024 rows. -/
theorem sum_chunks {M : Type*} [AddCommMonoid M] (f : Fin 4096 → M) :
    ∑ q : Fin 4096, f q = (((∑ r : Fin 1024, f ⟨r.val, by omega⟩) + ∑ r : Fin 1024, f ⟨1024 + r.val, by omega⟩) + ∑ r : Fin 1024, f ⟨2048 + r.val, by omega⟩) + ∑ r : Fin 1024, f ⟨3072 + r.val, by omega⟩ := by
  have h1 := sum_split 3072 1024 (fun x : Fin (3072 + 1024) => f x)
  have h2 := sum_split 2048 1024 (fun x : Fin (2048 + 1024) => f ⟨x.val, by omega⟩)
  have h3 := sum_split 1024 1024 (fun x : Fin (1024 + 1024) => f ⟨x.val, by omega⟩)
  exact h1.trans (congrArg₂ (· + ·) (h2.trans (congrArg₂ (· + ·) h3 rfl)) rfl)

theorem h0lt : 0 < cfg0.N := by rw [N9]; decide
theorem h1lt : 1 < cfg0.N := by rw [N9]; decide
theorem h2lt : 2 < cfg0.N := by rw [N9]; decide

/-- The quadrant buffers after the four Gram steps, unrolled: the first step's products with the three later steps' added. -/
theorem stAt_g0_3 (c : Dev nD) :
    (stAt m c 3 h3lt).g0 = gB0 (xb0 m c ⟨3, h3lt⟩) (gB0 (xb0 m c ⟨2, h2lt⟩) (gB0 (xb0 m c ⟨1, h1lt⟩) (gA0 (xb0 m c ⟨0, h0lt⟩)))) := rfl
theorem stAt_g1_3 (c : Dev nD) :
    (stAt m c 3 h3lt).g1 = gB1 (xb0 m c ⟨3, h3lt⟩) (gB1 (xb0 m c ⟨2, h2lt⟩) (gB1 (xb0 m c ⟨1, h1lt⟩) (gA1 (xb0 m c ⟨0, h0lt⟩)))) := rfl
theorem stAt_g2_3 (c : Dev nD) :
    (stAt m c 3 h3lt).g2 = gB2 (xb0 m c ⟨3, h3lt⟩) (gB2 (xb0 m c ⟨2, h2lt⟩) (gB2 (xb0 m c ⟨1, h1lt⟩) (gA2 (xb0 m c ⟨0, h0lt⟩)))) := rfl

/-- One chunk's sum of products of two columns, read off fix_feat: chunk `t` holds rows 1024 t … 1024 t + 1023. -/
theorem chunk_sum (c : Dev nD) (t : Fin cfg0.N) (ht : t.val < 4) (i j : Fin 1024) (q : Fin 1024 → Fin 4096)
    (hq : ∀ r : Fin 1024, (q r).val = 1024 * t.val + r.val) :
    ∑ r : Fin 1024, xb0 m c t (ix2 r i) * xb0 m c t (ix2 r j) = ∑ r : Fin 1024, fxOf m c (q r) i * fxOf m c (q r) j :=
  Finset.sum_congr rfl fun r _ => by rw [blk0 m c t ht r i (q r) (hq r), blk0 m c t ht r j (q r) (hq r)]

/-- The four chunks' sums, grouped as the steps accumulate them, are the sum over all 4096 rows. -/
theorem four_chunks (c : Dev nD) (i j : Fin 1024) :
    (((∑ r : Fin 1024, xb0 m c ⟨0, h0lt⟩ (ix2 r i) * xb0 m c ⟨0, h0lt⟩ (ix2 r j))
        + ∑ r : Fin 1024, xb0 m c ⟨1, h1lt⟩ (ix2 r i) * xb0 m c ⟨1, h1lt⟩ (ix2 r j))
        + ∑ r : Fin 1024, xb0 m c ⟨2, h2lt⟩ (ix2 r i) * xb0 m c ⟨2, h2lt⟩ (ix2 r j))
        + ∑ r : Fin 1024, xb0 m c ⟨3, h3lt⟩ (ix2 r i) * xb0 m c ⟨3, h3lt⟩ (ix2 r j)
      = Spec.gram (fxOf m c) i j := by
  unfold Spec.gram
  rw [sum_chunks (fun q : Fin 4096 => fxOf m c q i * fxOf m c q j)]
  refine congrArg₂ (· + ·) (congrArg₂ (· + ·) (congrArg₂ (· + ·) ?_ ?_) ?_) ?_
  · exact chunk_sum m c ⟨0, h0lt⟩ (by show 0 < 4; omega) i j (fun r => ⟨r.val, by omega⟩) (fun r => by show r.val = 1024 * 0 + r.val; omega)
  · exact chunk_sum m c ⟨1, h1lt⟩ (by show 1 < 4; omega) i j (fun r => ⟨1024 + r.val, by omega⟩) (fun r => by show 1024 + r.val = 1024 * 1 + r.val; omega)
  · exact chunk_sum m c ⟨2, h2lt⟩ (by show 2 < 4; omega) i j (fun r => ⟨2048 + r.val, by omega⟩) (fun r => by show 2048 + r.val = 1024 * 2 + r.val; omega)
  · exact chunk_sum m c ⟨3, h3lt⟩ (by show 3 < 4; omega) i j (fun r => ⟨3072 + r.val, by omega⟩) (fun r => by show 3072 + r.val = 1024 * 3 + r.val; omega)

/-- The Gram quadrants after the four Gram steps. -/
theorem g0_at3 (c : Dev nD) (a b : Fin 512) : (stAt m c 3 h3lt).g0 (ix2 a b) = Spec.gram (fxOf m c) (lo a) (lo b) := by
  rw [stAt_g0_3, gB0_eq, gB0_eq, gB0_eq, gA0_eq]
  exact four_chunks m c (lo a) (lo b)
theorem g1_at3 (c : Dev nD) (a b : Fin 512) : (stAt m c 3 h3lt).g1 (ix2 a b) = Spec.gram (fxOf m c) (lo a) (hi b) := by
  rw [stAt_g1_3, gB1_eq, gB1_eq, gB1_eq, gA1_eq]
  exact four_chunks m c (lo a) (hi b)
theorem g2_at3 (c : Dev nD) (a b : Fin 512) : (stAt m c 3 h3lt).g2 (ix2 a b) = Spec.gram (fxOf m c) (hi a) (hi b) := by
  rw [stAt_g2_3, gB2_eq, gB2_eq, gB2_eq, gA2_eq]
  exact four_chunks m c (hi a) (hi b)

/-- The assembled root matrix is the square root of the Gram matrix, entry by entry. -/
theorem quadA_at3 (c : Dev nD) (i j : Fin 1024) :
    quadA (stAt m c 3 h3lt).g0 (stAt m c 3 h3lt).g1 (stAt m c 3 h3lt).g2 i j = Spec.rt (fxOf m c) i j := by
  rcases lo_or_hi i with ⟨a, rfl⟩ | ⟨a, rfl⟩ <;> rcases lo_or_hi j with ⟨b, rfl⟩ | ⟨b, rfl⟩
  · rw [quadA_lo_lo, g0_at3]; rfl
  · rw [quadA_lo_hi, g1_at3]; rfl
  · rw [quadA_hi_lo, g1_at3]; exact Spec.rt_symm (fxOf m c) (lo b) (hi a)
  · rw [quadA_hi_hi, g2_at3]; rfl

end Cert.KernelIdeal.Val

end
-- ==== Proof.KI.PayMix.lean ====
/-
  The preamble's finish, index by index, at the ideal instance. With A the matrix of square roots assembled from
  the three Gram quadrants (its lower-left quadrant the transpose of the upper-right one), the column sums the
  kernel forms are the column sums of A, and row i of the mixed rows is ∑ j, A i j · (other j d / colsum j):
  the upper rows through the left and the right halves of the columns, the lower rows through the transposed
  quadrant and the lower-right one. The scaled keys are (∑ f, other j f · Wk e f + bk e) · 1/16.
-/
import proofs.«168895_g52209622450808_cont_9to1_m_767_18_alg».proof.Proof.KI.Quad
import proofs.«168895_g52209622450808_cont_9to1_m_767_18_alg».proof.Proof.Spec

set_option maxRecDepth 16384

noncomputable section

namespace Cert.KernelIdeal.Val

open Idealize.ShloMosaic Idealize.ShloMosaic.ValueIdx Cert.KernelIdeal Cert.KernelIdeal.Gen

/-! ## The three contractions read at an index -/

theorem lhs_rowcol_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_rowcol_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_rowcol_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_rowcol_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Rows against columns: entry (a, d) of the product is ∑ k, L (a, k) · R (k, d). -/
theorem matmul_rowcol_apply (L : FVec Ideal S512x512 .bf16) (R : FVec Ideal S512x256 .bf16) (a : Fin 512) (d : Fin 256) :
    matmul dot_S512x512_S512x256_S512x256_1_0_0_1_n_n none L R (constant (F := Ideal) S512x256 .f32 0x00000000#32) (ix2 a d)
      = ∑ k : Fin 512, L (ix2 a k) * R (ix2 k d) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 a d) ((contrEquiv1 dot_S512x512_S512x256_S512x256_1_0_0_1_n_n 512 rfl rfl).symm k) = ix2 a k := funext fun x => Fin.ext (by
    match x with
    | ⟨0, _⟩ => exact lhs_rowcol_0 _ _
    | ⟨1, _⟩ => exact (lhs_rowcol_1 _ _).trans hk)
  have er : dot_S512x512_S512x256_S512x256_1_0_0_1_n_n.rhsIdx (ix2 a d) ((contrEquiv1 dot_S512x512_S512x256_S512x256_1_0_0_1_n_n 512 rfl rfl).symm k) = ix2 k d := funext fun x => Fin.ext (by
    match x with
    | ⟨0, _⟩ => exact (rhs_rowcol_0 _ _).trans hk
    | ⟨1, _⟩ => exact rhs_rowcol_1 _ _)
  rw [el, er]

theorem lhs_colcol_0 (i : S512x256.Idx) (q : dot_S512x512_S512x256_S512x256_0_0_1_1_n_n.contr.Idx) :
    (dot_S512x512_S512x256_S512x256_0_0_1_1_n_n.lhsIdx i q 0).val = (q ⟨0, by decide⟩).val :=
  dot_S512x512_S512x256_S512x256_0_0_1_1_n_n.lhsIdx_val_of_single rfl i q
theorem lhs_colcol_1 (i : S512x256.Idx) (q : dot_S512x512_S512x256_S512x256_0_0_1_1_n_n.contr.Idx) :
    (dot_S512x512_S512x256_S512x256_0_0_1_1_n_n.lhsIdx i q 1).val = (i 0).val := by
  unfold DotDims.lhsIdx
  rw [dif_neg (show ¬(1 : Fin S512x512.rank) ∈ dot_S512x512_S512x256_S512x256_0_0_1_1_n_n.lhsBatch by decide), dif_pos (show (1 : Fin S512x512.rank) ∈ dot_S512x512_S512x256_S512x256_0_0_1_1_n_n.lhsNonContracting by decide)]
  rfl
theorem rhs_colcol_0 (i : S512x256.Idx) (q : dot_S512x512_S512x256_S512x256_0_0_1_1_n_n.contr.Idx) :
    (dot_S512x512_S512x256_S512x256_0_0_1_1_n_n.rhsIdx i q 0).val = (q ⟨0, by decide⟩).val :=
  dot_S512x512_S512x256_S512x256_0_0_1_1_n_n.rhsIdx_val_of_single rfl i q
theorem rhs_colcol_1 (i : S512x256.Idx) (q : dot_S512x512_S512x256_S512x256_0_0_1_1_n_n.contr.Idx) :
    (dot_S512x512_S512x256_S512x256_0_0_1_1_n_n.rhsIdx i q 1).val = (i 1).val := by
  unfold DotDims.rhsIdx
  rw [dif_neg (show ¬(1 : Fin S512x256.rank) ∈ dot_S512x512_S512x256_S512x256_0_0_1_1_n_n.rhsBatch by decide), dif_pos (show (1 : Fin S512x256.rank) ∈ dot_S512x512_S512x256_S512x256_0_0_1_1_n_n.rhsNonContracting by decide)]
  rfl

/-- Columns against columns: entry (a, d) of the product is ∑ k, L (k, a) · R (k, d). -/
theorem matmul_colcol_apply (L : FVec Ideal S512x512 .bf16) (R : FVec Ideal S512x256 .bf16) (a : Fin 512) (d : Fin 256) :
    matmul dot_S512x512_S512x256_S512x256_0_0_1_1_n_n none L R (constant (F := Ideal) S512x256 .f32 0x00000000#32) (ix2 a d)
      = ∑ k : Fin 512, L (ix2 k a) * R (ix2 k d) := by
  simp only [matmul]
  rw [Ideal.matmul_constant_zero_apply, ← Equiv.sum_comp (contrEquiv1 dot_S512x512_S512x256_S512x256_0_0_1_1_n_n 512 rfl rfl).symm]
  refine Finset.sum_congr rfl fun k _ => ?_
  have hk := contrEquiv1_symm_val dot_S512x512_S512x256_S512x256_0_0_1_1_n_n 512 rfl rfl k
  have el : dot_S512x512_S512x256_S512x256_0_0_1_1_n_n.lhsIdx (ix2 a d) ((contrEquiv1 dot_S512x512_S512x256_S512x256_0_0_1_1_n_n 512 rfl rfl).symm k) = ix2 k a := funext fun x => Fin.ext (by
    match x with
    | ⟨0, _⟩ => exact (lhs_colcol_0 _ _).trans hk
    | ⟨1, _⟩ => exact lhs_colcol_1 _ _)
  have er : dot_S512x512_S512x256_S512x256_0_0_1_1_n_n.rhsIdx (ix2 a d) ((contrEquiv1 dot_S512x512_S512x256_S512x256_0_0_1_1_n_n 512 rfl rfl).symm k) = ix2 k d := funext fun x => Fin.ext (by
    match x with
    | ⟨0, _⟩ => exact (rhs_colcol_0 _ _).trans hk
    | ⟨1, _⟩ => exact rhs_colcol_1 _ _)
  rw [el, er]

theorem lhs_rowrow_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_rowrow_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_rowrow_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_rowrow_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- Rows against rows: entry (j, e) of the product is ∑ f, L (j, f) · R (e, f). -/
theorem matmul_rowrow_apply (L : FVec Ideal S1024x256 .bf16) (R : FVec Ideal S256x256 .bf16) (j : Fin 1024) (e : Fin 256) :
    matmul dot_S1024x256_S256x256_S1024x256_1_1_0_0_n_n none L R (constant (F := Ideal) S1024x256 .f32 0x00000000#32) (ix2 j e)
      = ∑ f : Fin 256, L (ix2 j f) * R (ix2 e f) := by
  simp only [matmul]
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 j e) ((contrEquiv1 dot_S1024x256_S256x256_S1024x256_1_1_0_0_n_n 256 rfl rfl).symm k) = ix2 j k := funext fun x => Fin.ext (by
    match x with
    | ⟨0, _⟩ => exact lhs_rowrow_0 _ _
    | ⟨1, _⟩ => exact (lhs_rowrow_1 _ _).trans hk)
  have er : dot_S1024x256_S256x256_S1024x256_1_1_0_0_n_n.rhsIdx (ix2 j e) ((contrEquiv1 dot_S1024x256_S256x256_S1024x256_1_1_0_0_n_n 256 rfl rfl).symm k) = ix2 e k := funext fun x => Fin.ext (by
    match x with
    | ⟨0, _⟩ => exact rhs_rowrow_0 _ _
    | ⟨1, _⟩ => exact (rhs_rowrow_1 _ _).trans hk)
  rw [el, er]

/-! ## The sums along an axis, the column broadcast, and the square roots, read at an index -/

/-- The sum down the rows: entry b is ∑ k, X (k, b). -/
theorem sum_axis0_apply (X : FVec Ideal S512x512 .f32) (hφ : FKind.Formats .f32)
    (hacc : (0x00000000#32 : BitVec FTy.f32.bits) = FKind.add.neutral .f32 hφ) (b : Fin 512) :
    multiReduction (F := Ideal) .add [0] S512 X 0x00000000#32 reduces_S512x512_S512 hφ hacc (ix1 b)
      = ∑ k : Fin 512, X (ix2 k b) := by
  refine (Ideal.multiReduction_add_single X 0x00000000#32 reduces_S512x512_S512 hφ hacc (ix1 b)).trans ?_
  refine Finset.sum_congr rfl fun k _ => congrArg X (funext fun c => Fin.ext ?_)
  match c with
  | ⟨0, _⟩ => rfl
  | ⟨1, _⟩ => rfl

/-- The sum along the columns: entry a is ∑ k, X (a, k). -/
theorem sum_axis1_apply (X : FVec Ideal S512x512 .f32) (hφ : FKind.Formats .f32)
    (hacc : (0x00000000#32 : BitVec FTy.f32.bits) = FKind.add.neutral .f32 hφ) (a : Fin 512) :
    multiReduction (F := Ideal) .add [1] S512 X 0x00000000#32 reduces_S512x512_S512_2 hφ hacc (ix1 a)
      = ∑ k : Fin 512, X (ix2 a k) := by
  refine (Ideal.multiReduction_add_single X 0x00000000#32 reduces_S512x512_S512_2 hφ hacc (ix1 a)).trans ?_
  refine Finset.sum_congr rfl fun k _ => congrArg X (funext fun c => Fin.ext ?_)
  match c with
  | ⟨0, _⟩ => rfl
  | ⟨1, _⟩ => rfl

/-- A vector made a column and broadcast along the rows reads, at (b, d), its entry b. -/
theorem col_broadcast_apply {α : Type} (v : S512.Idx → α) (b : Fin 512) (d : Fin 256) :
    broadcastTo S512x256 (shapeCast S512x1 v shapeCasts_S512_S512x1) broadcasts_S512x1_S512x256 (ix2 b d) = v (ix1 b) := by
  refine (broadcastTo_apply _ broadcasts_S512x1_S512x256 (ix2 b d) (ix2 b (0 : Fin 1)) fun ax => ?_).trans ?_
  · match ax with
    | ⟨0, _⟩ => rfl
    | ⟨1, _⟩ => rfl
  · refine shapeCast_apply v shapeCasts_S512_S512x1 (ix2 b (0 : Fin 1)) (ix1 b) ?_
    rw [Shape.rowMajor_val_two, Shape.rowMajor_val_one]
    show b.val = b.val * 1 + 0
    omega

/-- The three square-root payloads are the entrywise square root. -/
theorem pay14_apply (g : Vec Ideal S512x512 .f32) (i : S512x512.Idx) : k0_pay14 g i = Ideal.sqrt (g i) := rfl
theorem pay15_apply (g : Vec Ideal S512x512 .f32) (i : S512x512.Idx) : k0_pay15 g i = Ideal.sqrt (g i) := rfl
theorem pay16_apply (g : Vec Ideal S512x512 .f32) (i : S512x512.Idx) : k0_pay16 g i = Ideal.sqrt (g i) := rfl

/-! ## The column sums and the divided rows -/

/-- The sum of column b (b < 512) of the root matrix: down the upper-left quadrant, then down the lower-left one, which is row b of the upper-right quadrant. -/
def csLo (g0 g1 : Vec Ideal S512x512 .f32) (b : Fin 512) : EReal :=
  (∑ k : Fin 512, Ideal.sqrt (g0 (ix2 k b))) + ∑ k : Fin 512, Ideal.sqrt (g1 (ix2 b k))
/-- The sum of column 512 + b of the root matrix: down the upper-right quadrant, then down the lower-right one. -/
def csHi (g1 g2 : Vec Ideal S512x512 .f32) (b : Fin 512) : EReal :=
  (∑ k : Fin 512, Ideal.sqrt (g1 (ix2 k b))) + ∑ k : Fin 512, Ideal.sqrt (g2 (ix2 k b))

theorem colsum_lo (g0 g1 g2 : Vec Ideal S512x512 .f32) (b : Fin 512) :
    ∑ i' : Fin 1024, quadA g0 g1 g2 i' (lo b) = csLo g0 g1 b := by
  rw [sum_halves]
  unfold csLo
  exact congrArg₂ (· + ·) (Finset.sum_congr rfl fun k _ => quadA_lo_lo g0 g1 g2 k b)
    (Finset.sum_congr rfl fun k _ => quadA_hi_lo g0 g1 g2 k b)
theorem colsum_hi (g0 g1 g2 : Vec Ideal S512x512 .f32) (b : Fin 512) :
    ∑ i' : Fin 1024, quadA g0 g1 g2 i' (hi b) = csHi g1 g2 b := by
  rw [sum_halves]
  unfold csHi
  exact congrArg₂ (· + ·) (Finset.sum_congr rfl fun k _ => quadA_lo_hi g0 g1 g2 k b)
    (Finset.sum_congr rfl fun k _ => quadA_hi_hi g0 g1 g2 k b)

/-- Rows 0 to 511 of `other_feat`: row b divided by the sum of column b of the root matrix. -/
theorem pay17_apply (g0 g1 : Vec Ideal S512x512 .f32) (x1 : Vec Ideal S1024x256 .f32) (b : Fin 512) (d : Fin 256) :
    k0_pay17 g0 g1 x1 (ix2 b d) = Ideal.div (x1 (ix2 (lo b) d)) (csLo g0 g1 b) := by
  unfold k0_pay17
  refine (divf_apply _ _ _).trans ?_
  refine congrArg₂ Ideal.div ?_ ?_
  · exact slice2_axis0_apply 0 x1 slices_S1024x256_o0_0_S512x256 b d (lo b) (Nat.zero_add _).symm
  · refine (col_broadcast_apply _ b d).trans ?_
    refine (addf_apply _ _ _).trans ?_
    unfold csLo
    refine congrArg₂ (· + ·) ?_ ?_
    · exact sum_axis0_apply (k0_pay14 g0) _ _ b
    · exact sum_axis1_apply (k0_pay15 g1) _ _ b

/-- Rows 512 to 1023 of `other_feat`: row 512 + b divided by the sum of column 512 + b of the root matrix. -/
theorem pay18_apply (g1 g2 : Vec Ideal S512x512 .f32) (x1 : Vec Ideal S1024x256 .f32) (b : Fin 512) (d : Fin 256) :
    k0_pay18 g1 g2 x1 (ix2 b d) = Ideal.div (x1 (ix2 (hi b) d)) (csHi g1 g2 b) := by
  unfold k0_pay18
  refine (divf_apply _ _ _).trans ?_
  refine congrArg₂ Ideal.div ?_ ?_
  · exact slice2_axis0_apply 512 x1 slices_S1024x256_o512_0_S512x256 b d (hi b) rfl
  · refine (col_broadcast_apply _ b d).trans ?_
    refine (addf_apply _ _ _).trans ?_
    unfold csHi
    refine congrArg₂ (· + ·) ?_ ?_
    · exact sum_axis0_apply (k0_pay15 g1) _ _ b
    · exact sum_axis0_apply (k0_pay16 g2) _ _ b

/-! ## The two halves of the mixed rows -/

/-- Rows 0 to 511 of the mixed rows: through columns 0 to 511 (the upper-left quadrant), then through columns 512 to 1023 (the upper-right one). -/
theorem pay19_apply (g0 g1 g2 : Vec Ideal S512x512 .f32) (x1 : Vec Ideal S1024x256 .f32) (a : Fin 512) (d : Fin 256) :
    k0_pay19 g0 g1 g2 x1 (ix2 a d)
      = (∑ k : Fin 512, Ideal.sqrt (g0 (ix2 a k)) * Ideal.div (x1 (ix2 (lo k) d)) (csLo g0 g1 k))
        + ∑ k : Fin 512, Ideal.sqrt (g1 (ix2 a k)) * Ideal.div (x1 (ix2 (hi k) d)) (csHi g1 g2 k) := by
  unfold k0_pay19
  refine (congrFun (shapeCast_self _ _) _).trans ?_
  refine (truncf_apply (ψ := .bf16) _ bitsLt_bf16_f32 _).trans ?_
  refine (addf_apply _ _ _).trans ?_
  refine congrArg₂ (· + ·) ?_ ?_
  · refine (matmul_rowcol_apply _ _ a d).trans ?_
    refine Finset.sum_congr rfl fun k _ => congrArg₂ (· * ·) ?_ ?_
    · exact (truncf_apply (ψ := .bf16) _ bitsLt_bf16_f32 _).trans (pay14_apply g0 _)
    · exact (truncf_apply (ψ := .bf16) _ bitsLt_bf16_f32 _).trans (pay17_apply g0 g1 x1 k d)
  · refine (matmul_rowcol_apply _ _ a d).trans ?_
    refine Finset.sum_congr rfl fun k _ => congrArg₂ (· * ·) ?_ ?_
    · exact (truncf_apply (ψ := .bf16) _ bitsLt_bf16_f32 _).trans (pay15_apply g1 _)
    · exact (truncf_apply (ψ := .bf16) _ bitsLt_bf16_f32 _).trans (pay18_apply g1 g2 x1 k d)

/-- Rows 512 to 1023 of the mixed rows: through columns 0 to 511 (the lower-left quadrant, the upper-right one transposed), then through columns 512 to 1023 (the lower-right one). -/
theorem pay20_apply (g0 g1 g2 : Vec Ideal S512x512 .f32) (x1 : Vec Ideal S1024x256 .f32) (a : Fin 512) (d : Fin 256) :
    k0_pay20 g0 g1 g2 x1 (ix2 a d)
      = (∑ k : Fin 512, Ideal.sqrt (g1 (ix2 k a)) * Ideal.div (x1 (ix2 (lo k) d)) (csLo g0 g1 k))
        + ∑ k : Fin 512, Ideal.sqrt (g2 (ix2 a k)) * Ideal.div (x1 (ix2 (hi k) d)) (csHi g1 g2 k) := by
  unfold k0_pay20
  refine (truncf_apply (ψ := .bf16) _ bitsLt_bf16_f32 _).trans ?_
  refine (addf_apply _ _ _).trans ?_
  refine congrArg₂ (· + ·) ?_ ?_
  · refine (matmul_colcol_apply _ _ a d).trans ?_
    refine Finset.sum_congr rfl fun k _ => congrArg₂ (· * ·) ?_ ?_
    · exact (truncf_apply (ψ := .bf16) _ bitsLt_bf16_f32 _).trans (pay15_apply g1 _)
    · exact (truncf_apply (ψ := .bf16) _ bitsLt_bf16_f32 _).trans (pay17_apply g0 g1 x1 k d)
  · refine (matmul_rowcol_apply _ _ a d).trans ?_
    refine Finset.sum_congr rfl fun k _ => congrArg₂ (· * ·) ?_ ?_
    · exact (truncf_apply (ψ := .bf16) _ bitsLt_bf16_f32 _).trans (pay16_apply g2 _)
    · exact (truncf_apply (ψ := .bf16) _ bitsLt_bf16_f32 _).trans (pay18_apply g1 g2 x1 k d)

/-- A row index below 512 is outside the rectangle of rows 512 to 1023 of the buffer. -/
theorem lo_not_mem_rBot (a : Fin 512) (d : Fin 256) : (ix2 (lo a) d : S1024x256.Idx) ∉ (rBot).set := by
  intro h
  have h0 : (512 : Nat) ≤ a.val := (Rect.mem_set_unit.mp h 0).1
  omega

/-- The sum over all 1024 columns, split into columns 0 to 511 and columns 512 to 1023, with the column sums named. -/
theorem mix_split (g0 g1 g2 : Vec Ideal S512x512 .f32) (x1 : Vec Ideal S1024x256 .f32) (i : Fin 1024) (d : Fin 256) :
    ∑ j : Fin 1024, quadA g0 g1 g2 i j * Ideal.div (x1 (ix2 j d)) (∑ i' : Fin 1024, quadA g0 g1 g2 i' j)
      = (∑ k : Fin 512, quadA g0 g1 g2 i (lo k) * Ideal.div (x1 (ix2 (lo k) d)) (csLo g0 g1 k))
        + ∑ k : Fin 512, quadA g0 g1 g2 i (hi k) * Ideal.div (x1 (ix2 (hi k) d)) (csHi g1 g2 k) := by
  refine (sum_halves _).trans ?_
  refine congrArg₂ (· + ·) (Finset.sum_congr rfl fun k _ => ?_) (Finset.sum_congr rfl fun k _ => ?_)
  · rw [colsum_lo]
  · rw [colsum_hi]

/-- The mixed rows: entry (i, d) is the sum over all 1024 columns j of the root matrix's entry times the row of
    `other_feat` divided by the column's sum. -/
theorem omOf_eq (g0 g1 g2 : Vec Ideal S512x512 .f32) (x1 : Vec Ideal S1024x256 .f32) (i : Fin 1024) (d : Fin 256) :
    omOf g0 g1 g2 x1 (ix2 i d)
      = ∑ j : Fin 1024, quadA g0 g1 g2 i j * Ideal.div (x1 (ix2 j d)) (∑ i' : Fin 1024, quadA g0 g1 g2 i' j) := by
  rw [mix_split]
  rcases lo_or_hi i with ⟨a, rfl⟩ | ⟨a, rfl⟩
  · -- a row below 512: the piece stored last (rows 512 to 1023) does not hold it, the other one does
    have he : (ix2 (lo a) d : S1024x256.Idx) = rTop.emb (ix2 a d) := funext fun c => Fin.ext (by
      match c with
      | ⟨0, _⟩ => show a.val = 0 + 1 * a.val; omega
      | ⟨1, _⟩ => show d.val = 0 + 1 * d.val; omega)
    unfold omOf
    refine (View.canon_cons_of_not_mem (⟨rBot, omBot g0 g1 g2 x1⟩ : View.Piece (Elt Ideal) S1024x256 .bf16)
      [⟨rTop, omTop g0 g1 g2 x1⟩] (lo_not_mem_rBot a d)).trans ?_
    refine (congrArg (View.canon [(⟨rTop, omTop g0 g1 g2 x1⟩ : View.Piece (Elt Ideal) S1024x256 .bf16)]) he).trans ?_
    refine (View.canon_cons_emb rTop (omTop g0 g1 g2 x1) [] (ix2 a d)).trans ?_
    unfold omTop
    refine (pay19_apply g0 g1 g2 x1 a d).trans ?_
    refine congrArg₂ (· + ·) (Finset.sum_congr rfl fun k _ => ?_) (Finset.sum_congr rfl fun k _ => ?_)
    · rw [quadA_lo_lo]
    · rw [quadA_lo_hi]
  · -- a row from 512 on: the piece stored last holds it
    have he : (ix2 (hi a) d : S1024x256.Idx) = rBot.emb (ix2 a d) := funext fun c => Fin.ext (by
      match c with
      | ⟨0, _⟩ => show 512 + a.val = 512 + 1 * a.val; omega
      | ⟨1, _⟩ => show d.val = 0 + 1 * d.val; omega)
    unfold omOf
    refine (congrArg (View.canon [(⟨rBot, omBot g0 g1 g2 x1⟩ : View.Piece (Elt Ideal) S1024x256 .bf16), ⟨rTop, omTop g0 g1 g2 x1⟩]) he).trans ?_
    refine (View.canon_cons_emb rBot (omBot g0 g1 g2 x1) [⟨rTop, omTop g0 g1 g2 x1⟩] (ix2 a d)).trans ?_
    unfold omBot k0_pay11
    refine (congrFun (shapeCast_self _ _) _).trans ?_
    refine (pay20_apply g0 g1 g2 x1 a d).trans ?_
    refine congrArg₂ (· + ·) (Finset.sum_congr rfl fun k _ => ?_) (Finset.sum_congr rfl fun k _ => ?_)
    · rw [quadA_hi_lo]
    · rw [quadA_hi_hi]

/-- The scaled keys: the key projection of row j, times the word of 1/16. -/
theorem ksOf_eq (x1 : Vec Ideal S1024x256 .f32) (x2 : Vec Ideal S256x256 .f32) (x3 : Vec Ideal S1x256 .f32) (j : Fin 1024) (e : Fin 256) :
    ksOf x1 x2 x3 (ix2 j e) = ((∑ f : Fin 256, x1 (ix2 j f) * x2 (ix2 e f)) + x3 (ix2 (0 : Fin 1) e)) * Spec.sixteenth := by
  unfold ksOf k0_pay12
  refine (congrFun (shapeCast_self _ _) _).trans ?_
  refine (truncf_apply (ψ := .bf16) _ bitsLt_bf16_f32 _).trans ?_
  refine (mulf_apply _ _ _).trans ?_
  refine congrArg₂ (· * ·) ?_ ?_
  · refine (addf_apply _ _ _).trans ?_
    refine congrArg₂ (· + ·) ?_ ?_
    · exact matmul_rowrow_apply _ _ j e
    · refine (broadcastTo_1b_ab_apply _ broadcasts_S1x256_S1024x256 j e).trans ?_
      exact congrFun (shapeCast_self x3 _) _
  · rfl

end Cert.KernelIdeal.Val

end
-- ==== Proof.KI.PayAtt.lean ====
/-
  An attention step, index by index, at the ideal instance: with q r e = ∑ f, main r f · Wq e f + bq e and the
  logit l r j = ∑ e, q r e · ks j e, entry (r, d) of the output block is
  (∑ j, exp (l r j) · om j d) · (1 / ∑ j, exp (l r j) · ones j 0).
-/
import proofs.«168895_g52209622450808_cont_9to1_m_767_18_alg».proof.Proof.KI.Quad
import proofs.«168895_g52209622450808_cont_9to1_m_767_18_alg».proof.Proof.Spec

set_option maxRecDepth 16384

noncomputable section

namespace Cert.KernelIdeal.Val

open Idealize.ShloMosaic Idealize.ShloMosaic.ValueIdx Cert.KernelIdeal Cert.KernelIdeal.Gen

theorem att_lhs_q_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem att_lhs_q_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem att_rhs_q_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem att_rhs_q_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q
/-- The query projection's contraction: row a of the left factor against row b of the right factor. -/
theorem att_mm_q (x : FVec Ideal S2000x256 .bf16) (y : FVec Ideal S256x256 .bf16) (a : Fin 2000) (b : Fin 256) :
    matmul dot_S2000x256_S256x256_S2000x256_1_1_0_0_n_n none x y (constant (F := Ideal) S2000x256 .f32 0x00000000#32) (ix2 a b)
      = ∑ k : Fin 256, x (ix2 a k) * y (ix2 b k) := by
  refine (Ideal.matmul_constant_zero_apply dot_S2000x256_S256x256_S2000x256_1_1_0_0_n_n none x y (ix2 a b)).trans ?_
  rw [← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 a b) ((contrEquiv1 dot_S2000x256_S256x256_S2000x256_1_1_0_0_n_n 256 rfl rfl).symm k) = ix2 a k := funext fun ax => Fin.ext (by
    match ax with
    | ⟨0, _⟩ => exact att_lhs_q_0 _ _
    | ⟨1, _⟩ => exact (att_lhs_q_1 _ _).trans hk)
  have er : dot_S2000x256_S256x256_S2000x256_1_1_0_0_n_n.rhsIdx (ix2 a b) ((contrEquiv1 dot_S2000x256_S256x256_S2000x256_1_1_0_0_n_n 256 rfl rfl).symm k) = ix2 b k := funext fun ax => Fin.ext (by
    match ax with
    | ⟨0, _⟩ => exact att_rhs_q_0 _ _
    | ⟨1, _⟩ => exact (att_rhs_q_1 _ _).trans hk)
  rw [el, er]

theorem att_lhs_l_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem att_lhs_l_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem att_rhs_l_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem att_rhs_l_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q
/-- The logits' contraction: row a of the queries against row b of the keys. -/
theorem att_mm_l (x : FVec Ideal S2000x256 .bf16) (y : FVec Ideal S1024x256 .bf16) (a : Fin 2000) (b : Fin 1024) :
    matmul dot_S2000x256_S1024x256_S2000x1024_1_1_0_0_n_n none x y (constant (F := Ideal) S2000x1024 .f32 0x00000000#32) (ix2 a b)
      = ∑ k : Fin 256, x (ix2 a k) * y (ix2 b k) := by
  refine (Ideal.matmul_constant_zero_apply dot_S2000x256_S1024x256_S2000x1024_1_1_0_0_n_n none x y (ix2 a b)).trans ?_
  rw [← Equiv.sum_comp (contrEquiv1 dot_S2000x256_S1024x256_S2000x1024_1_1_0_0_n_n 256 rfl rfl).symm]
  refine Finset.sum_congr rfl fun k _ => ?_
  have hk := contrEquiv1_symm_val dot_S2000x256_S1024x256_S2000x1024_1_1_0_0_n_n 256 rfl rfl k
  have el : dot_S2000x256_S1024x256_S2000x1024_1_1_0_0_n_n.lhsIdx (ix2 a b) ((contrEquiv1 dot_S2000x256_S1024x256_S2000x1024_1_1_0_0_n_n 256 rfl rfl).symm k) = ix2 a k := funext fun ax => Fin.ext (by
    match ax with
    | ⟨0, _⟩ => exact att_lhs_l_0 _ _
    | ⟨1, _⟩ => exact (att_lhs_l_1 _ _).trans hk)
  have er : dot_S2000x256_S1024x256_S2000x1024_1_1_0_0_n_n.rhsIdx (ix2 a b) ((contrEquiv1 dot_S2000x256_S1024x256_S2000x1024_1_1_0_0_n_n 256 rfl rfl).symm k) = ix2 b k := funext fun ax => Fin.ext (by
    match ax with
    | ⟨0, _⟩ => exact att_rhs_l_0 _ _
    | ⟨1, _⟩ => exact (att_rhs_l_1 _ _).trans hk)
  rw [el, er]

theorem att_lhs_o_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem att_lhs_o_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem att_rhs_o_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem att_rhs_o_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl
/-- The weighted sum of the mixed rows: row a of the weights against column b of the right factor. -/
theorem att_mm_o (x : FVec Ideal S2000x1024 .bf16) (y : FVec Ideal S1024x256 .bf16) (a : Fin 2000) (b : Fin 256) :
    matmul dot_S2000x1024_S1024x256_S2000x256_1_0_0_1_n_n none x y (constant (F := Ideal) S2000x256 .f32 0x00000000#32) (ix2 a b)
      = ∑ k : Fin 1024, x (ix2 a k) * y (ix2 k b) := by
  refine (Ideal.matmul_constant_zero_apply dot_S2000x1024_S1024x256_S2000x256_1_0_0_1_n_n none x y (ix2 a b)).trans ?_
  rw [← Equiv.sum_comp (contrEquiv1 dot_S2000x1024_S1024x256_S2000x256_1_0_0_1_n_n 1024 rfl rfl).symm]
  refine Finset.sum_congr rfl fun k _ => ?_
  have hk := contrEquiv1_symm_val dot_S2000x1024_S1024x256_S2000x256_1_0_0_1_n_n 1024 rfl rfl k
  have el : dot_S2000x1024_S1024x256_S2000x256_1_0_0_1_n_n.lhsIdx (ix2 a b) ((contrEquiv1 dot_S2000x1024_S1024x256_S2000x256_1_0_0_1_n_n 1024 rfl rfl).symm k) = ix2 a k := funext fun ax => Fin.ext (by
    match ax with
    | ⟨0, _⟩ => exact att_lhs_o_0 _ _
    | ⟨1, _⟩ => exact (att_lhs_o_1 _ _).trans hk)
  have er : dot_S2000x1024_S1024x256_S2000x256_1_0_0_1_n_n.rhsIdx (ix2 a b) ((contrEquiv1 dot_S2000x1024_S1024x256_S2000x256_1_0_0_1_n_n 1024 rfl rfl).symm k) = ix2 k b := funext fun ax => Fin.ext (by
    match ax with
    | ⟨0, _⟩ => exact (att_rhs_o_0 _ _).trans hk
    | ⟨1, _⟩ => exact att_rhs_o_1 _ _)
  rw [el, er]

theorem att_lhs_n_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem att_lhs_n_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem att_rhs_n_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem att_rhs_n_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl
/-- The normaliser's contraction: row a of the weights against column b of the right factor. -/
theorem att_mm_n (x : FVec Ideal S2000x1024 .bf16) (y : FVec Ideal S1024x128 .bf16) (a : Fin 2000) (b : Fin 128) :
    matmul dot_S2000x1024_S1024x128_S2000x128_1_0_0_1_n_n none x y (constant (F := Ideal) S2000x128 .f32 0x00000000#32) (ix2 a b)
      = ∑ k : Fin 1024, x (ix2 a k) * y (ix2 k b) := by
  refine (Ideal.matmul_constant_zero_apply dot_S2000x1024_S1024x128_S2000x128_1_0_0_1_n_n none x y (ix2 a b)).trans ?_
  rw [← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 a b) ((contrEquiv1 dot_S2000x1024_S1024x128_S2000x128_1_0_0_1_n_n 1024 rfl rfl).symm k) = ix2 a k := funext fun ax => Fin.ext (by
    match ax with
    | ⟨0, _⟩ => exact att_lhs_n_0 _ _
    | ⟨1, _⟩ => exact (att_lhs_n_1 _ _).trans hk)
  have er : dot_S2000x1024_S1024x128_S2000x128_1_0_0_1_n_n.rhsIdx (ix2 a b) ((contrEquiv1 dot_S2000x1024_S1024x128_S2000x128_1_0_0_1_n_n 1024 rfl rfl).symm k) = ix2 k b := funext fun ax => Fin.ext (by
    match ax with
    | ⟨0, _⟩ => exact (att_rhs_n_0 _ _).trans hk
    | ⟨1, _⟩ => exact att_rhs_n_1 _ _)
  rw [el, er]

/-- A column [a, 1] broadcast to [a, b] reads, at (p, c), the column's entry p. -/
theorem att_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The attention weights before normalisation: entry (r, j) is exp of the logit of query row r against key row j,
    the query row being the projected row plus the bias row. -/
theorem att_weights_apply (x4 : FVec Ideal S2000x256 .f32) (x5 : FVec Ideal S256x256 .f32) (x6 : FVec Ideal S1x256 .f32)
    (ks : FVec Ideal S1024x256 .bf16) (h1 h2 h3 h4 : FTy.bits .bf16 < FTy.bits .f32)
    (hc : S1x256.ShapeCasts S1x256) (hb : S1x256.Broadcasts S2000x256) (r : Fin 2000) (j : Fin 1024) :
    (truncf .bf16 (exp (matmul dot_S2000x256_S1024x256_S2000x1024_1_1_0_0_n_n none
        (truncf .bf16 (addf (matmul dot_S2000x256_S256x256_S2000x256_1_1_0_0_n_n none (truncf .bf16 x4 h1) (truncf .bf16 x5 h2)
            (constant (F := Ideal) S2000x256 .f32 0x00000000#32))
          (broadcastTo S2000x256 (shapeCast S1x256 x6 hc) hb)) h3)
        ks (constant (F := Ideal) S2000x1024 .f32 0x00000000#32))) h4 : FVec Ideal S2000x1024 .bf16) (ix2 r j)
      = Ideal.exp (∑ e : Fin 256, ((∑ f : Fin 256, x4 (ix2 r f) * x5 (ix2 e f)) + x6 (ix2 (0 : Fin 1) e)) * ks (ix2 j e)) := by
  show Ideal.exp (matmul dot_S2000x256_S1024x256_S2000x1024_1_1_0_0_n_n none _ ks _ (ix2 r j)) = _
  refine congrArg Ideal.exp ((att_mm_l _ _ r j).trans (Finset.sum_congr rfl fun e _ => congrArg (· * ks (ix2 j e)) ?_))
  show addf (F := Ideal) (s := S2000x256) (φ := .f32) _ _ (ix2 r e) = _
  refine (addf_apply _ _ _).trans (congrArg₂ (· + ·) (att_mm_q _ _ r e) ?_)
  exact (broadcastTo_1b_ab_apply _ _ r e).trans (congrFun (shapeCast_self x6 hc) _)

theorem attOf_eq (x4 : Vec Ideal S2000x256 .f32) (x5 : Vec Ideal S256x256 .f32) (x6 : Vec Ideal S1x256 .f32) (ks om : Vec Ideal S1024x256 .bf16) (x7 : Vec Ideal S1024x128 .bf16)
    (r : Fin 2000) (d : Fin 256) :
    attOf x4 x5 x6 ks om x7 (ix2 r d)
      = (∑ j : Fin 1024, Ideal.exp (∑ e : Fin 256, ((∑ f : Fin 256, x4 (ix2 r f) * x5 (ix2 e f)) + x6 (ix2 (0 : Fin 1) e)) * ks (ix2 j e)) * om (ix2 j d))
        * Ideal.div Spec.oneF (∑ j : Fin 1024, Ideal.exp (∑ e : Fin 256, ((∑ f : Fin 256, x4 (ix2 r f) * x5 (ix2 e f)) + x6 (ix2 (0 : Fin 1) e)) * ks (ix2 j e)) * x7 (ix2 j (0 : Fin 128))) := by
  unfold attOf k0_pay13
  refine (mulf_apply _ _ (ix2 r d)).trans (congrArg₂ (· * ·) ?_ ?_)
  · -- the weighted sum of the mixed rows
    refine (att_mm_o _ _ r d).trans (Finset.sum_congr rfl fun j _ => congrArg (· * om (ix2 j d)) ?_)
    exact att_weights_apply x4 x5 x6 ks _ _ _ _ _ _ r j
  · -- the reciprocal of the normaliser: column 0 of the weights against the ones block
    refine (att_broadcastTo_a1_ab_apply _ _ r d).trans ((divf_apply _ _ _).trans (congrArg₂ Ideal.div rfl ?_))
    refine (slice2_axis1_apply 0 _ _ r (0 : Fin 1) (0 : Fin 128) rfl).trans ?_
    refine (att_mm_n _ _ r (0 : Fin 128)).trans (Finset.sum_congr rfl fun j _ => congrArg₂ (· * ·) ?_ ?_)
    · exact att_weights_apply x4 x5 x6 ks _ _ _ _ _ _ r j
    · exact congrFun (shapeCast_self x7 _) _

end Cert.KernelIdeal.Val

end
-- ==== Proof.KI.StateVal.lean ====
/-
  What the other carried buffers hold, in closed form, at the ideal instance. With the assembled root matrix equal to rt
  (GramVal) the mixed rows are mixK, the scaled keys k · 1/16, nothing changes them afterwards, and
  the attention step at point t leaves rows 2000 (t − 4) … of outK in the output's buffer.
-/
import proofs.«168895_g52209622450808_cont_9to1_m_767_18_alg».proof.Proof.KI.GramVal
import proofs.«168895_g52209622450808_cont_9to1_m_767_18_alg».proof.Proof.KI.PayMix
import proofs.«168895_g52209622450808_cont_9to1_m_767_18_alg».proof.Proof.KI.PayAtt
import proofs.«168895_g52209622450808_cont_9to1_m_767_18_alg».proof.Proof.SpecMix

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- After point 3 the mixed rows are the mixing of that point's own Gram quadrants with other_feat, and the scaled keys the
    scaled key projection of other_feat. -/
theorem om3_eq (c : Dev nD) :
    (stAt m c 3 h3lt).om = omOf (stAt m c 3 h3lt).g0 (stAt m c 3 h3lt).g1 (stAt m c 3 h3lt).g2 (xb1 m c (⟨3, h3lt⟩ : Fin cfg0.N)) := by
  have h : stAt m c 3 h3lt = _ := stAt_fin m c 2 h3lt rfl
  rw [h]
theorem ks3_eq (c : Dev nD) :
    (stAt m c 3 h3lt).ks = ksOf (xb1 m c (⟨3, h3lt⟩ : Fin cfg0.N)) (xb2 m c (⟨3, h3lt⟩ : Fin cfg0.N)) (xb3 m c (⟨3, h3lt⟩ : Fin cfg0.N)) := by
  have h : stAt m c 3 h3lt = _ := stAt_fin m c 2 h3lt rfl
  rw [h]

/-- Every point after point 3 copies the mixed rows and the scaled keys. -/
theorem late_aux (c : Dev nD) (k : ℕ) (hn : 3 + k < cfg0.N) :
    (stAt m c (3 + k) hn).om = (stAt m c 3 h3lt).om ∧ (stAt m c (3 + k) hn).ks = (stAt m c 3 h3lt).ks := by
  induction k with
  | zero => exact ⟨rfl, rfl⟩
  | succ k ih =>
    have h := stAt_att m c (3 + k) hn (by omega)
    exact ⟨(congrArg St.om h).trans (ih _).1, (congrArg St.ks h).trans (ih _).2⟩

/-- The mixed rows and the scaled keys after point 3. -/
theorem om_at3 (c : Dev nD) (i : Fin 1024) (d : Fin 256) : (stAt m c 3 h3lt).om (ix2 i d) = Spec.mixK (fxOf m c) (otOf m c) i d := by
  rw [om3_eq, omOf_eq]
  unfold Spec.mixK
  refine Finset.sum_congr rfl fun j _ => congrArg₂ (· * ·) (quadA_at3 m c i j) (congrArg₂ Ideal.div (blk1 m c (⟨3, h3lt⟩ : Fin cfg0.N) j d) ?_)
  exact Finset.sum_congr rfl fun i' _ => quadA_at3 m c i' j
theorem ks_at3 (c : Dev nD) (j : Fin 1024) (e : Fin 256) :
    (stAt m c 3 h3lt).ks (ix2 j e) = Spec.kv (otOf m c) (wkOf m c) (bkOf m c) j e * Spec.sixteenth := by
  rw [ks3_eq, ksOf_eq]
  unfold Spec.kv
  exact congrArg (· * Spec.sixteenth) (congrArg₂ (· + ·) (Finset.sum_congr rfl fun f _ => congrArg₂ (· * ·) (blk1 m c (⟨3, h3lt⟩ : Fin cfg0.N) j f) (blk2 m c (⟨3, h3lt⟩ : Fin cfg0.N) e f)) (blk3 m c (⟨3, h3lt⟩ : Fin cfg0.N) e))

/-- From point 3 on nothing stores into the mixed rows or the scaled keys. -/
theorem om_late (c : Dev nD) (n : ℕ) (hn : n < cfg0.N) (h : 3 ≤ n) : (stAt m c n hn).om = (stAt m c 3 h3lt).om := by
  obtain ⟨k, rfl⟩ := Nat.exists_eq_add_of_le h
  exact (late_aux m c k hn).1
theorem ks_late (c : Dev nD) (n : ℕ) (hn : n < cfg0.N) (h : 3 ≤ n) : (stAt m c n hn).ks = (stAt m c 3 h3lt).ks := by
  obtain ⟨k, rfl⟩ := Nat.exists_eq_add_of_le h
  exact (late_aux m c k hn).2

/-- THE OUTPUT BLOCK of the attention step at point `t`: rows 2000 (t − 4) … of the kernel's output function. -/
theorem out_at (c : Dev nD) (t : Fin cfg0.N) (ht : 4 ≤ t.val) (r : Fin 2000) (d : Fin 256) (q : Fin 10000) (hq : q.val = 2000 * (t.val - 4) + r.val) :
    (stAt m c t.val t.isLt).out (ix2 r d)
      = Spec.outK (fxOf m c) (otOf m c) (mnOf m c) (wqOf m c) (wkOf m c) (bqOf m c) (bkOf m c) q d := by
  obtain ⟨n, hn⟩ := t
  cases n with
  | zero => exact absurd (show 4 ≤ 0 from ht) (by decide)
  | succ n =>
    have h3 : 3 ≤ n := Nat.le_of_succ_le_succ ht
    have hl : ∀ j : Fin 1024,
        (∑ e : Fin 256, ((∑ f : Fin 256, xb4 m c ⟨n + 1, hn⟩ (ix2 r f) * xb5 m c ⟨n + 1, hn⟩ (ix2 e f)) + xb6 m c ⟨n + 1, hn⟩ (ix2 (0 : Fin 1) e))
            * (stAt m c n (Nat.lt_of_succ_lt hn)).ks (ix2 j e))
          = Spec.logitK (otOf m c) (mnOf m c) (wqOf m c) (wkOf m c) (bqOf m c) (bkOf m c) q j := by
      intro j
      unfold Spec.logitK Spec.qv
      refine Finset.sum_congr rfl fun e _ => congrArg₂ (· * ·) (congrArg₂ (· + ·) (Finset.sum_congr rfl fun f _ => congrArg₂ (· * ·) (blk4 m c ⟨n + 1, hn⟩ ht r f q hq) (blk5 m c ⟨n + 1, hn⟩ e f)) (blk6 m c ⟨n + 1, hn⟩ e)) ?_
      rw [ks_late m c n _ h3]; exact ks_at3 m c j e
    show (stAt m c (n + 1) hn).out (ix2 r d) = _
    rw [stAt_att m c n hn ht]
    refine (attOf_eq _ _ _ _ _ _ r d).trans ?_
    unfold Spec.outK
    refine congrArg₂ (· * ·) (Finset.sum_congr rfl fun j _ => congrArg₂ (· * ·) (congrArg Ideal.exp (hl j)) ?_)
      (congrArg₂ Ideal.div rfl (Finset.sum_congr rfl fun j _ => congrArg₂ (· * ·) (congrArg Ideal.exp (hl j)) (blk7 m c ⟨n + 1, hn⟩ j (0 : Fin 128))))
    rw [om_late m c n _ h3]; exact om_at3 m c j d

end Cert.KernelIdeal.Val

end
-- ==== Proof.KI.Value.lean ====
/-
  The kernel's result array. Point t ≥ 4 writes back block t − 4 of the output, rows 2000 (t − 4) … 2000 (t − 4) + 1999,
  and what it writes is those rows of the output function outK of the argument arrays; the five blocks tile
  the 10000 rows, so after the run the result array is outK, index by index, and the arguments are unchanged.
-/
import proofs.«168895_g52209622450808_cont_9to1_m_767_18_alg».proof.Proof.KI.Frame
import proofs.«168895_g52209622450808_cont_9to1_m_767_18_alg».proof.Proof.KI.StateVal

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

variable (ρ : Dev nD → PrngReg)

/-- The kernel's output function as an array of the result's shape. -/
def Gout (c : Dev nD) : Vec Ideal S10000x256 .f32 := fun y =>
  Spec.outK (fxOf m c) (otOf m c) (mnOf m c) (wqOf m c) (wkOf m c) (bqOf m c) (bkOf m c) ⟨(y 0).val, idx2_lt0 y⟩ ⟨(y 1).val, idx2_lt1 y⟩

/-- The output window is written back exactly at the attention steps, block `t − 4`. -/
theorem flush8 : ∀ t : Fin cfg0.N, (cfg0.win 8).flush t = true ↔ 4 ≤ t.val :=
  (by decide +kernel : ∀ t : Fin grid0.N, win0_8.flush t = true ↔ 4 ≤ t.val)
theorem idx8 : ∀ t : Fin cfg0.N, win0_8.index t (0 : Fin 2) = t.val - 4 ∧ win0_8.index t (1 : Fin 2) = 0 :=
  (by decide +kernel : ∀ t : Fin grid0.N, win0_8.index t (0 : Fin 2) = t.val - 4 ∧ win0_8.index t (1 : Fin 2) = 0)
/-- Every one of the five row blocks is some attention step's. -/
theorem onto8 : ∀ q0 : Fin 5, ∃ t : Fin cfg0.N, 4 ≤ t.val ∧ t.val - 4 = q0.val :=
  (by decide +kernel : ∀ q0 : Fin 5, ∃ t : Fin grid0.N, 4 ≤ t.val ∧ t.val - 4 = q0.val)

/-- WHAT AN ATTENTION STEP WRITES BACK is its block of the output function. -/
theorem flushed8_eq (c : Dev nD) (t : Fin cfg0.N) (hf : (cfg0.win 8).flush t = true) :
    (dats m 0 c).flushed 8 t = ((cfg0.win 8).blk t).view.read (Elt Ideal) (Gout m c) := by
  have ht : 4 ≤ t.val := (flush8 t).mp hf
  show (cfg0.win 8).cut (grid0.coords t) ((dats m 0 c).after 8 t) = _
  rw [after0_8]
  funext y
  obtain ⟨r, d, rfl⟩ : ∃ (r : Fin 2000) (d : Fin 256), y = ix2 r d := ⟨y 0, y 1, eq_ix2 y⟩
  obtain ⟨e0, e1⟩ := idx8 t
  have hN : t.val < 9 := lt_of_lt_of_eq t.isLt N9
  have hr : r.val < 2000 := r.isLt
  show (stAt m c t.val t.isLt).out (ix2 r d) = Gout m c (((cfg0.win 8).blk t).view.emb (ix2 r d))
  rw [out_at m c t ht r d ⟨2000 * (t.val - 4) + r.val, by omega⟩ rfl]
  unfold Gout
  have h0 : ((((cfg0.win 8).blk t).view.emb (ix2 r d)) 0).val = 2000 * (t.val - 4) + r.val := by
    show win0_8.index t (0 : Fin 2) * 2000 + 1 * r.val = _
    omega
  have h1 : ((((cfg0.win 8).blk t).view.emb (ix2 r d)) 1).val = d.val := by
    show win0_8.index t (1 : Fin 2) * 256 + 1 * d.val = _
    omega
  congr 1 <;> exact Fin.ext (by first | exact h0.symm | exact h1.symm)

/-- An index of the result is in point `t`'s block iff each coordinate is in the block's range on its axis. -/
theorem mem_blk8 (t : Fin cfg0.N) (i : S10000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v3).slice (win0_8.rect t)).set ↔ _
  rw [View.set_slice_whole, Rect.mem_set_unit]
  exact Iff.rfl

/-- The five blocks tile the rows. -/
theorem cover8 (i : S10000x256.Idx) : ∃ t : Fin cfg0.N, (cfg0.win 8).flush t = true ∧ i ∈ ((cfg0.win 8).blk t).view.set := by
  have hi0 : (i 0).val < 10000 := idx2_lt0 i
  have hi1 : (i 1).val < 256 := idx2_lt1 i
  obtain ⟨t, ht, hq⟩ := onto8 ⟨(i 0).val / 2000, by omega⟩
  obtain ⟨e0, e1⟩ := idx8 t
  refine ⟨t, (flush8 t).mpr ht, ?_⟩
  rw [mem_blk8]
  intro a
  match a with
  | ⟨0, _⟩ => show win0_8.index t (0 : Fin 2) * 2000 ≤ (i 0).val ∧ (i 0).val < win0_8.index t (0 : Fin 2) * 2000 + 2000; simp only at hq; omega
  | ⟨1, _⟩ => show win0_8.index t (1 : Fin 2) * 256 ≤ (i 1).val ∧ (i 1).val < win0_8.index t (1 : Fin 2) * 256 + 256; omega

/-- THE RESULT ARRAY after the run. -/
theorem final8 (c : Dev nD) : (dats m 0 c).arrAt 8 cfg0.N = Gout m c :=
  (dats m 0 c).arrAt_eq_of_cover 8 (Gout m c) (fun t hf => flushed8_eq m c t hf) cover8

/-- THE KERNEL'S RUN, READ: every weakly fair execution terminates with the result array at the output function of the
    arguments and the arguments unchanged. -/
theorem run : θ_run defs (onTc (τ := τ) (main (F := Ideal))) ⟨m, fun _ => 0, ρ⟩ (fun r => ∀ c : Dev nD,
      r.2.mem ((c.tc : Thread nD τ).loc main_v3) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final8 m c),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main m ρ)

end Cert.KernelIdeal.Val

end
-- ==== Proof.SpecAttn.lean ====
/-
  The attention side. For finite inputs the projections q and k are real, so the logits are real and scaling the
  keys by the exact 1/16 before the contraction is scaling the contraction by 1/16 (distributivity, on the reals);
  and a softmax does not see a shift of its logits: exp (l − M) = exp l · exp (−M), the factor exp (−M) > 0
  cancels between numerator and denominator, and a common positive real factor moves through a finite real sum.
-/
import proofs.«168895_g52209622450808_cont_9to1_m_767_18_alg».proof.Proof.Spec

noncomputable section

namespace Cert.Spec

open Idealize.ShloMosaic

/-- The four literal words denote 1/16, 16, 1 and 1. -/
theorem sixteenth_eq : sixteenth = ((1 / 16 : ℝ) : EReal) := by
  simp [sixteenth, Ideal.ofBits, Ideal.ieee, -EReal.coe_mul]; norm_num

theorem sixteen_eq : sixteen = ((16 : ℝ) : EReal) := by
  simp [sixteen, Ideal.ofBits, Ideal.ieee, -EReal.coe_mul]; norm_num

theorem oneF_eq : oneF = ((1 : ℝ) : EReal) := by
  simp [oneF, Ideal.ofBits, Ideal.ieee, -EReal.coe_mul]; norm_num

theorem oneB_eq : oneB = ((1 : ℝ) : EReal) := by
  simp [oneB, Ideal.ofBits, Ideal.ieee, -EReal.coe_mul]; norm_num

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An affine form in real data is real: (∑ e, a e · w e) + b. -/
theorem affine_real {N : ℕ} (a w : Fin N → EReal) (b : EReal) (ha : ∀ e, IsReal (a e)) (hw : ∀ e, IsReal (w e))
    (hb : IsReal b) : IsReal ((∑ e : Fin N, a e * w e) + b) := by
  choose a' ha' using ha
  choose w' hw' using hw
  obtain ⟨b', hb'⟩ := hb
  refine ⟨(∑ e : Fin N, a' e * w' e) + b', ?_⟩
  rw [EReal.coe_add, coe_sum, hb']
  congr 1
  refine Finset.sum_congr rfl fun e _ => ?_
  rw [ha' e, hw' e, EReal.coe_mul]

/-- Scaling the second factors of a real contraction by 1/16 is dividing the contraction by 16. -/
theorem dot_scale {N : ℕ} (q k : Fin N → ℝ) :
    ∑ d : Fin N, ((q d : ℝ) : EReal) * (((k d : ℝ) : EReal) * sixteenth)
      = Ideal.div (∑ d : Fin N, ((q d : ℝ) : EReal) * ((k d : ℝ) : EReal)) sixteen := by
  rw [sixteenth_eq, sixteen_eq, Ideal.div_coe (by norm_num : (16 : ℝ) ≠ 0)]
  simp only [← EReal.coe_mul, ← coe_sum]
  congr 1
  rw [Finset.sum_mul]
  refine Finset.sum_congr rfl fun d _ => ?_
  ring

variable (ot : Fin 1024 → Fin 256 → EReal) (mn : Fin 10000 → Fin 256 → EReal)
  (wq wk : Fin 256 → Fin 256 → EReal) (bq bk : Fin 256 → EReal)

/-- The kernel's logit is the reference's, for finite inputs. -/
theorem logitK_eq_logitR (hot : ∀ j d, IsReal (ot j d)) (hmn : ∀ n e, IsReal (mn n e))
    (hwq : ∀ d e, IsReal (wq d e)) (hwk : ∀ d e, IsReal (wk d e)) (hbq : ∀ d, IsReal (bq d)) (hbk : ∀ d, IsReal (bk d))
    (n : Fin 10000) (j : Fin 1024) : logitK ot mn wq wk bq bk n j = logitR ot mn wq wk bq bk n j := by
  have hq : ∀ d, IsReal (qv mn wq bq n d) := fun d => affine_real _ _ _ (hmn n) (hwq d) (hbq d)
  have hk : ∀ d, IsReal (kv ot wk bk j d) := fun d => affine_real _ _ _ (hot j) (hwk d) (hbk d)
  choose q hq' using hq
  choose k hk' using hk
  unfold logitK logitR
  simp only [hq', hk']
  exact dot_scale q k

/-- Every logit is real, for finite inputs. -/
theorem logitR_isReal (hot : ∀ j d, IsReal (ot j d)) (hmn : ∀ n e, IsReal (mn n e))
    (hwq : ∀ d e, IsReal (wq d e)) (hwk : ∀ d e, IsReal (wk d e)) (hbq : ∀ d, IsReal (bq d)) (hbk : ∀ d, IsReal (bk d))
    (n : Fin 10000) (j : Fin 1024) : IsReal (logitR ot mn wq wk bq bk n j) := by
  have hq : ∀ d, IsReal (qv mn wq bq n d) := fun d => affine_real _ _ _ (hmn n) (hwq d) (hbq d)
  have hk : ∀ d, IsReal (kv ot wk bk j d) := fun d => affine_real _ _ _ (hot j) (hwk d) (hbk d)
  choose q hq' using hq
  choose k hk' using hk
  unfold logitR
  simp only [hq', hk']
  rw [sixteen_eq, Ideal.div_coe (by norm_num : (16 : ℝ) ≠ 0)]
  simp only [← EReal.coe_mul, ← coe_sum]
  exact ⟨_, rfl⟩

/-- The shift of a softmax cancels, on the reals. -/
theorem softmax_shift_real (l x : Fin 1024 → ℝ) (M : ℝ) :
    (∑ j : Fin 1024, Real.exp (l j) * x j) * (1 * (1 / ∑ j : Fin 1024, Real.exp (l j) * 1))
      = ∑ j : Fin 1024, Real.exp (l j - M) * (1 / ∑ j' : Fin 1024, Real.exp (l j' - M)) * x j := by
  have hS : (0 : ℝ) < ∑ j : Fin 1024, Real.exp (l j) :=
    Finset.sum_pos (fun j _ => Real.exp_pos (l j)) Finset.univ_nonempty
  have hE : (0 : ℝ) < Real.exp M := Real.exp_pos M
  simp only [Real.exp_sub, ← Finset.sum_div, mul_one, one_mul]
  rw [Finset.sum_mul]
  refine Finset.sum_congr rfl fun j _ => ?_
  field_simp

/-- The shift of a softmax cancels: for real logits `l`, real values `x` and a real shift `M`. -/
theorem softmax_shift (l x : Fin 1024 → ℝ) (M : ℝ) :
    (∑ j : Fin 1024, Ideal.exp ((l j : ℝ) : EReal) * ((x j : ℝ) : EReal)) * Ideal.div oneF (∑ j : Fin 1024, Ideal.exp ((l j : ℝ) : EReal) * oneB)
      = ∑ j : Fin 1024, Ideal.div (Ideal.exp (((l j : ℝ) : EReal) - ((M : ℝ) : EReal))) (∑ j' : Fin 1024, Ideal.exp (((l j' : ℝ) : EReal) - ((M : ℝ) : EReal))) * ((x j : ℝ) : EReal) := by
  have h1 : (∑ j : Fin 1024, Real.exp (l j) * 1) ≠ 0 :=
    (Finset.sum_pos (fun j _ => mul_pos (Real.exp_pos (l j)) one_pos) Finset.univ_nonempty).ne'
  have h2 : (∑ j' : Fin 1024, Real.exp (l j' - M)) ≠ 0 :=
    (Finset.sum_pos (fun j _ => Real.exp_pos (l j - M)) Finset.univ_nonempty).ne'
  simp only [oneF_eq, oneB_eq, ← EReal.coe_sub, Ideal.exp_coe, ← EReal.coe_mul, ← coe_sum]
  rw [Ideal.div_coe h1]
  simp only [Ideal.div_coe h2, ← EReal.coe_mul, ← coe_sum]
  congr 1
  exact softmax_shift_real l x M

end Cert.Spec

end
-- ==== Proof.Ref.lean ====
/-
  The reference, index by index, at the ideal instance: its result at (n, d) is the softmax-weighted sum
  ∑ j, (exp (logit n j − M n) / ∑ j', exp (logit n j' − M n)) · mix j d, where logit n j = (∑ e, q n e · k j e) / 16
  with q and k the two affine projections, mix j d = ∑ j', (rt j j' / colsum j') · other j' d over the column-
  normalised roots of the Gram matrix of fix_feat, and M n the row maximum the softmax subtracts — a real number
  when the inputs are finite, being the maximum of real logits.
-/
import proofs.«168895_g52209622450808_cont_9to1_m_767_18_alg».proof.Proof.Gen.ReferenceIdeal.Read
import proofs.«168895_g52209622450808_cont_9to1_m_767_18_alg».proof.Proof.SpecAttn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Spec

variable (x0 : FVec Ideal S10000x256 .f32) (x1 : FVec Ideal S1024x256 .f32) (x2 : FVec Ideal S4096x1024 .f32) (x3 : FVec Ideal S256x256 .f32)
  (x4 : FVec Ideal S256 .f32) (x5 : FVec Ideal S256x256 .f32) (x6 : FVec Ideal S256 .f32)

/-- The argument arrays as plain functions of their coordinates. -/
abbrev mnOf : Fin 10000 → Fin 256 → EReal := fun n e => x0 (ix2 n e)
abbrev otOf : Fin 1024 → Fin 256 → EReal := fun j d => x1 (ix2 j d)
abbrev fxOf : Fin 4096 → Fin 1024 → EReal := fun r i => x2 (ix2 r i)
abbrev wqOf : Fin 256 → Fin 256 → EReal := fun d e => x3 (ix2 d e)
abbrev bqOf : Fin 256 → EReal := fun d => x4 (ix1 d)
abbrev wkOf : Fin 256 → Fin 256 → EReal := fun d e => x5 (ix2 d e)
abbrev bkOf : Fin 256 → EReal := fun d => x6 (ix1 d)

/-- The row maximum the reference's softmax subtracts. -/
def rowMax (n : Fin 10000) : EReal := val_main_v16 (F := Ideal) x0 x1 x3 x4 x5 x6 (ix1 n)

/-! ## The read lemmas' composed index functions, at an index given by its coordinates -/

local macro "idx_by_cases2" : tactic => `(tactic| (funext a; match a with | ⟨0, _⟩ => rfl | ⟨1, _⟩ => rfl))
local macro "idx_by_cases1" : tactic => `(tactic| (funext a; match a with | ⟨0, _⟩ => rfl))

theorem lidx_v1_ix2 (n : Fin 10000) (d e : Fin 256) : lidx_main_v1 (ix2 n d) e = ix2 n e := by idx_by_cases2
theorem ridx_v1_ix2 (n : Fin 10000) (d e : Fin 256) : idx_main_v0 (ridx_main_v1 (ix2 n d) e) = ix2 d e := by idx_by_cases2
theorem idx_v3_ix2 (n : Fin 10000) (d : Fin 256) : idx_main_v2 (idx_main_v3 (ix2 n d)) = ix1 d := by idx_by_cases1
theorem lidx_v6_ix2 (j : Fin 1024) (d e : Fin 256) : lidx_main_v6 (ix2 j d) e = ix2 j e := by idx_by_cases2
theorem ridx_v6_ix2 (j : Fin 1024) (d e : Fin 256) : idx_main_v5 (ridx_main_v6 (ix2 j d) e) = ix2 d e := by idx_by_cases2
theorem idx_v8_ix2 (j : Fin 1024) (d : Fin 256) : idx_main_v7 (idx_main_v8 (ix2 j d)) = ix1 d := by idx_by_cases1
theorem lidx_v11_ix2 (n : Fin 10000) (j : Fin 1024) (k : Fin 256) : lidx_main_v11 (ix2 n j) k = ix2 n k := by idx_by_cases2
theorem ridx_v11_ix2 (n : Fin 10000) (j : Fin 1024) (k : Fin 256) : idx_main_v10 (ridx_main_v11 (ix2 n j) k) = ix2 j k := by idx_by_cases2
theorem idx_v18_ix2 (n : Fin 10000) (k : Fin 1024) : idx_main_v17 (idx_main_v18 (ix2 n k)) = ix1 n := by idx_by_cases1
theorem idx_v23_ix2 (n : Fin 10000) (k : Fin 1024) : idx_main_v22 (idx_main_v23 (ix2 n k)) = ix1 n := by idx_by_cases1
theorem idx_v21_ix1 (n : Fin 10000) (k : Fin 1024) : idx_main_v21 (ix1 n) k = ix2 n k := by idx_by_cases2
theorem lidx_v26_ix2 (i j : Fin 1024) (r : Fin 4096) : idx_main_v25 (lidx_main_v26 (ix2 i j) r) = ix2 r i := by idx_by_cases2
theorem ridx_v26_ix2 (i j : Fin 1024) (r : Fin 4096) : ridx_main_v26 (ix2 i j) r = ix2 r j := by idx_by_cases2
theorem idx_v28_ix1 (j k : Fin 1024) : idx_main_v28 (ix1 j) k = ix2 k j := by idx_by_cases2
theorem idx_v30_ix2 (i j : Fin 1024) : idx_main_v29 (idx_main_v30 (ix2 i j)) = ix1 j := by idx_by_cases1
theorem lidx_v32_ix2 (j : Fin 1024) (d : Fin 256) (k : Fin 1024) : lidx_main_v32 (ix2 j d) k = ix2 j k := by idx_by_cases2
theorem ridx_v32_ix2 (j : Fin 1024) (d : Fin 256) (k : Fin 1024) : ridx_main_v32 (ix2 j d) k = ix2 k d := by idx_by_cases2
theorem lidx_v33_ix2 (n : Fin 10000) (d : Fin 256) (k : Fin 1024) : lidx_main_v33 (ix2 n d) k = ix2 n k := by idx_by_cases2
theorem ridx_v33_ix2 (n : Fin 10000) (d : Fin 256) (k : Fin 1024) : ridx_main_v33 (ix2 n d) k = ix2 k d := by idx_by_cases2

/-! ## The attention side: the two projections and the logits -/

/-- The query projection at (n, d). -/
theorem q_eq (n : Fin 10000) (d : Fin 256) :
    val_main_v4 (F := Ideal) x0 x3 x4 (ix2 n d) = qv (mnOf x0) (wqOf x3) (bqOf x4) n d := by
  rw [val_main_v4_apply, val_main_v1_apply, val_main_v3_apply, val_main_v2_apply, idx_v3_ix2]
  simp only [val_main_v0_apply, lidx_v1_ix2, ridx_v1_ix2, Ideal.addf_def]
  rfl

/-- The key projection at (j, d). -/
theorem k_eq (j : Fin 1024) (d : Fin 256) :
    val_main_v9 (F := Ideal) x1 x5 x6 (ix2 j d) = kv (otOf x1) (wkOf x5) (bkOf x6) j d := by
  rw [val_main_v9_apply, val_main_v6_apply, val_main_v8_apply, val_main_v7_apply, idx_v8_ix2]
  simp only [val_main_v5_apply, lidx_v6_ix2, ridx_v6_ix2, Ideal.addf_def]
  rfl

/-- The reference's logit at (n, j). -/
theorem logit_eq (n : Fin 10000) (j : Fin 1024) :
    val_main_v13 (F := Ideal) x0 x1 x3 x4 x5 x6 (ix2 n j) = logitR (otOf x1) (mnOf x0) (wqOf x3) (wkOf x5) (bqOf x4) (bkOf x6) n j := by
  rw [val_main_v13_apply, val_main_v11_apply, val_main_v12_apply, val_main_cst_apply]
  simp only [val_main_v10_apply, lidx_v11_ix2, ridx_v11_ix2, q_eq, k_eq, Ideal.hostDivf_def, Ideal.ofBits_def]
  rfl

/-! ## The row maximum: a maximum of real numbers from −∞ -/

theorem isReal_max {x y : EReal} (hx : IsReal x) (hy : IsReal y) : IsReal (max x y) := by
  rcases max_choice x y with h | h <;> rw [h] <;> assumption

/-- A fold of the maximum from −∞ over real numbers is −∞ over the empty set and a real number otherwise. -/
theorem fold_max_isReal {ι : Type} (f : ι → EReal) (hf : ∀ k, IsReal (f k)) (s : Finset ι) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih with ⟨-, h⟩ | h
    · rw [h, max_bot_right]; exact hf a
    · exact isReal_max (hf a) h

/-- Every logit of the reference is real, for finite inputs. -/
theorem logit_isReal (hot : ∀ j d, IsReal (otOf x1 j d)) (hmn : ∀ n e, IsReal (mnOf x0 n e))
    (hwq : ∀ d e, IsReal (wqOf x3 d e)) (hwk : ∀ d e, IsReal (wkOf x5 d e)) (hbq : ∀ d, IsReal (bqOf x4 d)) (hbk : ∀ d, IsReal (bkOf x6 d))
    (i : S10000x1024.Idx) : IsReal (val_main_v13 (F := Ideal) x0 x1 x3 x4 x5 x6 i) := by
  obtain ⟨a, b, rfl⟩ : ∃ (a : Fin 10000) (b : Fin 1024), i = ix2 a b := ⟨i 0, i 1, eq_ix2 i⟩
  rw [logit_eq]
  exact logitR_isReal _ _ _ _ _ _ hot hmn hwq hwk hbq hbk _ _

/-- The word 0xFF800000 is −∞. -/
theorem negInf_eq : Ideal.ofBits .f32 0xFF800000#32 = (⊥ : EReal) := by simp [Ideal.ofBits, Ideal.ieee]

/-- For finite inputs the row maximum is a real number. -/
theorem rowMax_isReal (hot : ∀ j d, IsReal (otOf x1 j d)) (hmn : ∀ n e, IsReal (mnOf x0 n e))
    (hwq : ∀ d e, IsReal (wqOf x3 d e)) (hwk : ∀ d e, IsReal (wkOf x5 d e)) (hbq : ∀ d, IsReal (bqOf x4 d)) (hbk : ∀ d, IsReal (bkOf x6 d))
    (n : Fin 10000) : IsReal (rowMax x0 x1 x3 x4 x5 x6 n) := by
  have key : ∀ g : Fin (S10000x1024.size 1) → EReal, (∀ k, IsReal (g k)) →
      IsReal (max (⊥ : EReal) ((Finset.univ : Finset (Fin (S10000x1024.size 1))).fold max ⊥ g)) := by
    intro g hg
    rw [max_bot_left]
    rcases fold_max_isReal g hg Finset.univ with ⟨he, -⟩ | h
    · exfalso
      have hm : (⟨0, by decide⟩ : Fin (S10000x1024.size 1)) ∈ (Finset.univ : Finset (Fin (S10000x1024.size 1))) := Finset.mem_univ _
      rw [he] at hm; exact absurd hm (Finset.notMem_empty _)
    · exact h
  unfold rowMax
  rw [val_main_v16_apply, val_main_v15_apply, val_main_cst_1_apply]
  unfold val_main_v14
  rw [Host.reduce_eq_fold_single FloatOps.maximumf _ _ reducesTo_S10000x1024_S10000_d1 (by decide) h_S_, val_main_cst_0_apply]
  simp only [Ideal.ofBits_def, negInf_eq]
  exact key _ (fun k => logit_isReal x0 x1 x3 x4 x5 x6 hot hmn hwq hwk hbq hbk _)

/-! ## The mixing side: the Gram matrix, its roots, the column sums, the mixed rows -/

theorem gram_eq (i j : Fin 1024) : val_main_v26 (F := Ideal) x2 (ix2 i j) = gram (fxOf x2) i j := by
  rw [val_main_v26_apply]
  simp only [val_main_v25_apply, lidx_v26_ix2, ridx_v26_ix2]
  rfl

theorem rt_eq (i j : Fin 1024) : val_main_v27 (F := Ideal) x2 (ix2 i j) = rt (fxOf x2) i j := by
  rw [val_main_v27_apply, gram_eq, Ideal.hostUnary_sqrt_def]
  rfl

theorem colsum_eq (j : Fin 1024) : val_main_v28 (F := Ideal) x2 (ix1 j) = colsum (fxOf x2) j := by
  rw [val_main_v28_apply, val_main_cst_3_apply, Ideal.ofBits_def, Ideal.ofBits_zero_f32, zero_add]
  simp only [idx_v28_ix1, rt_eq]
  rfl

theorem mix_eq (j : Fin 1024) (d : Fin 256) : val_main_v32 (F := Ideal) x1 x2 (ix2 j d) = mixR (fxOf x2) (otOf x1) j d := by
  rw [val_main_v32_apply]
  simp only [val_main_v31_apply, val_main_v30_apply, val_main_v29_apply, lidx_v32_ix2, ridx_v32_ix2, idx_v30_ix2, rt_eq, colsum_eq, Ideal.hostDivf_def]
  rfl

/-! ## The softmax: the shift, the exponentials, their sum -/

theorem shift_eq (n : Fin 10000) (k : Fin 1024) :
    val_main_v18 (F := Ideal) x0 x1 x3 x4 x5 x6 (ix2 n k) = rowMax x0 x1 x3 x4 x5 x6 n := by
  rw [val_main_v18_apply, val_main_v17_apply, idx_v18_ix2]
  rfl

theorem exp_eq (n : Fin 10000) (k : Fin 1024) :
    val_main_v20 (F := Ideal) x0 x1 x3 x4 x5 x6 (ix2 n k)
      = Ideal.exp (logitR (otOf x1) (mnOf x0) (wqOf x3) (wkOf x5) (bqOf x4) (bkOf x6) n k - rowMax x0 x1 x3 x4 x5 x6 n) := by
  rw [val_main_v20_apply, val_main_v19_apply, logit_eq, shift_eq, Ideal.hostUnary_exp_def, Ideal.subf_def]

theorem den_eq (n : Fin 10000) (k : Fin 1024) :
    val_main_v23 (F := Ideal) x0 x1 x3 x4 x5 x6 (ix2 n k)
      = ∑ j' : Fin 1024, Ideal.exp (logitR (otOf x1) (mnOf x0) (wqOf x3) (wkOf x5) (bqOf x4) (bkOf x6) n j' - rowMax x0 x1 x3 x4 x5 x6 n) := by
  rw [val_main_v23_apply, val_main_v22_apply, idx_v23_ix2, val_main_v21_apply, val_main_cst_2_apply, Ideal.ofBits_def, Ideal.ofBits_zero_f32, zero_add]
  simp only [idx_v21_ix1, exp_eq]

/-- THE REFERENCE'S RESULT at (n, d). -/
theorem ref_value (n : Fin 10000) (d : Fin 256) :
    val_main_v33 (F := Ideal) x0 x1 x2 x3 x4 x5 x6 (ix2 n d)
      = outR (fxOf x2) (otOf x1) (mnOf x0) (wqOf x3) (wkOf x5) (bqOf x4) (bkOf x6) (rowMax x0 x1 x3 x4 x5 x6) n d := by
  rw [val_main_v33_apply]
  simp only [lidx_v33_ix2, ridx_v33_ix2, val_main_v24_apply, exp_eq, den_eq, mix_eq, Ideal.hostDivf_def]
  rfl

end Cert.ReferenceIdeal.RefValue

end
-- ==== Proof.Pre.lean ====
/-
  What the precondition says, decoded at the ideal instance: every entry of every input is a real number (its
  absolute value lies below +∞), and every column sum of the square roots of the Gram matrix of fix_feat — the
  denominators the reference divides by — is different from zero.
-/
import proofs.«168895_g52209622450808_cont_9to1_m_767_18_alg».proof.Defs
import proofs.«168895_g52209622450808_cont_9to1_m_767_18_alg».proof.Proof.Gen.Pre_finite_inputs
import proofs.«168895_g52209622450808_cont_9to1_m_767_18_alg».proof.Proof.Spec
import Idealize.ShloMosaic.Lib.ValueIdx
import Idealize.ShloMosaic.Lib.ValueLayout
import Idealize.ShloMosaic.Lib.ReduceAll
import Idealize.ShloMosaic.Lib.StableHlo.Predicate
import Idealize.ShloMosaic.Lib.Pipeline.Value
import Idealize.ShloMosaic.PureOps.Ideal.Laws

set_option maxRecDepth 16384

noncomputable section

namespace Cert.PreDecode

open Idealize.ShloMosaic Idealize.ShloMosaic.ValueIdx Cert.Spec Cert.Pre_finite_inputs

variable [Cert.Pre_finite_inputs.Facts]

/-- The rank-zero index set has one element. -/
instance : Subsingleton S_.Idx := ⟨fun a b => funext fun d => d.elim0⟩

/-- The word 0x7F800000 is +∞. -/
theorem inf_bits : Ideal.ofBits .f32 0x7F800000#32 = (⊤ : EReal) := by simp [Ideal.ofBits, Ideal.ieee]

/-- An extended real whose absolute value max x (−x) lies below +∞ is a real number. -/
theorem isReal_of_abs_lt (x : EReal) (h : Ideal.cmp .olt (max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- One "all entries are finite" conjunct, read at an entry. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : IsReal (x i) := by
  have hi := Host.reduce_andi_all _ _ hr hu ix0 e i
  exact isReal_of_abs_lt (x i) hi

/-- A conjunction of two rank-zero bits that is 1 has both bits 1. -/
theorem andi_ix0 (a b : IVec S_ 1) (e : andi a b ix0 = 1#1) : a ix0 = 1#1 ∧ b ix0 = 1#1 := IntOp.andi_eq_one.1 e

/-- x ≠ 0, as the comparison bit says it. -/
theorem ne_of_une (x : EReal) (h : Ideal.cmp .une x (Ideal.ofBits .f32 0x00000000#32) = 1#1) : x ≠ 0 := by
  rw [Ideal.ofBits_zero_f32] at h
  intro hx
  rw [hx] at h
  simp [Ideal.cmp] at h

/-- The precondition's own contraction record: rows of the transposed matrix against columns of the matrix. -/
abbrev D : DotDims S1024x4096 S4096x1024 S1024x1024 := dot_S1024x4096_S4096x1024_S1024x1024_1_0_0_1_n_n

theorem lhs_0 (i : S1024x1024.Idx) (q : D.contr.Idx) : (D.lhsIdx i q 0).val = (i 0).val := by
  unfold DotDims.lhsIdx
  rw [dif_neg (show (0 : Fin S1024x4096.rank) ∉ D.lhsBatch from List.not_mem_nil), dif_pos (show (0 : Fin S1024x4096.rank) ∈ D.lhsNonContracting from List.mem_singleton.mpr rfl)]
  rfl
theorem lhs_1 (i : S1024x1024.Idx) (q : D.contr.Idx) : (D.lhsIdx i q 1).val = (q ⟨0, (Nat.one_pos : 0 < D.contr.rank)⟩).val :=
  D.lhsIdx_val_of_single rfl i q
theorem rhs_0 (i : S1024x1024.Idx) (q : D.contr.Idx) : (D.rhsIdx i q 0).val = (q ⟨0, (Nat.one_pos : 0 < D.contr.rank)⟩).val :=
  D.rhsIdx_val_of_single rfl i q
theorem rhs_1 (i : S1024x1024.Idx) (q : D.contr.Idx) : (D.rhsIdx i q 1).val = (i 1).val := by
  unfold DotDims.rhsIdx
  rw [dif_neg (show (1 : Fin S4096x1024.rank) ∉ D.rhsBatch from List.not_mem_nil), dif_pos (show (1 : Fin S4096x1024.rank) ∈ D.rhsNonContracting from List.mem_singleton.mpr rfl)]
  rfl

/-- The contraction at (i, j): the sum over k of l (i, k) · r (k, j). -/
theorem dot_read (l : FVec Ideal S1024x4096 .f32) (r : FVec Ideal S4096x1024 .f32) (i j : Fin 1024) :
    Host.dotGeneral D none l r (ix2 i j) = ∑ k : Fin 4096, l (ix2 i k) * r (ix2 k j) := by
  simp only [Host.dotGeneral]
  rw [Ideal.dotGeneral_apply, ← Equiv.sum_comp (ValueIdx.contrEquiv1 D 4096 rfl rfl).symm]
  refine Finset.sum_congr rfl fun k _ => ?_
  have hk := ValueIdx.contrEquiv1_symm_val D 4096 rfl rfl k
  have el : D.lhsIdx (ix2 i j) ((ValueIdx.contrEquiv1 D 4096 rfl rfl).symm k) = ix2 i k := funext fun a => Fin.ext (by
    match a with
    | ⟨0, _⟩ => exact lhs_0 _ _
    | ⟨1, _⟩ => exact (lhs_1 _ _).trans hk)
  have er : D.rhsIdx (ix2 i j) ((ValueIdx.contrEquiv1 D 4096 rfl rfl).symm k) = ix2 k j := funext fun a => Fin.ext (by
    match a with
    | ⟨0, _⟩ => exact (rhs_0 _ _).trans hk
    | ⟨1, _⟩ => exact rhs_1 _ _)
  rw [el, er]

/-- The transposed matrix at (i, k) is the matrix at (k, i). -/
theorem transpose_read (x : FVec Ideal S4096x1024 .f32) (i : Fin 1024) (k : Fin 4096) :
    transpose S1024x4096 [1, 0] x Facts.transposes_S4096x1024_S1024x4096_1_0 (ix2 i k) = x (ix2 k i) :=
  transpose_apply [1, 0] x Facts.transposes_S4096x1024_S1024x4096_1_0 (ix2 i k) (ix2 k i) (fun b => match b with
    | ⟨0, _⟩ => rfl
    | ⟨1, _⟩ => rfl)

/-- The sum over the first axis, from the initial value zero, at column j. -/
theorem reduceAdd_read (y : FVec Ideal S1024x1024 .f32) (j : Fin 1024) :
    Host.reduceAdd y (constant S_ .f32 0x00000000#32) Facts.reducesTo_S1024x1024_S1024_d0 Facts.h_S_ (ix1 j)
      = ∑ k : Fin 1024, y (ix2 k j) := by
  simp only [Host.reduceAdd, Ideal.hostReduceAdd_def]
  rw [Ideal.hostReduceAdd_single Facts.reducesTo_S1024x1024_S1024_d0 (by decide)]
  simp only [constant, Ideal.ofBits_def, Ideal.ofBits_zero_f32, zero_add]
  refine Finset.sum_congr rfl fun k _ => ?_
  exact congrArg y (funext fun a => Fin.ext (by match a with | ⟨0, _⟩ => rfl | ⟨1, _⟩ => rfl))

/-- The elementwise square root at an entry. -/
theorem sqrt_read (y : FVec Ideal S1024x1024 .f32) (i : S1024x1024.Idx) : Host.sqrt y i = Ideal.sqrt (y i) := rfl

/-- The printed column-sum term at column j is the column sum of the square roots of the Gram matrix. -/
theorem colsum_read (a2 : FVec Ideal S4096x1024 .f32) (j : Fin 1024) :
    Host.reduceAdd (Host.sqrt (Host.dotGeneral D none
        (transpose S1024x4096 [1, 0] a2 Facts.transposes_S4096x1024_S1024x4096_1_0) a2))
      (constant S_ .f32 0x00000000#32) Facts.reducesTo_S1024x1024_S1024_d0 Facts.h_S_ (ix1 j)
    = colsum (fun r i => a2 (ix2 r i)) j := by
  rw [reduceAdd_read]
  unfold colsum rt gram
  refine Finset.sum_congr rfl fun i _ => ?_
  rw [sqrt_read, dot_read]
  refine congrArg Ideal.sqrt (Finset.sum_congr rfl fun k _ => ?_)
  rw [transpose_read]

/-- THE PRECONDITION, READ: finite inputs and nonzero column sums. -/
theorem decode (a0 : FVec Ideal S10000x256 .f32) (a1 : FVec Ideal S1024x256 .f32) (a2 : FVec Ideal S4096x1024 .f32) (a3 : FVec Ideal S256x256 .f32)
    (a4 : FVec Ideal S256 .f32) (a5 : FVec Ideal S256x256 .f32) (a6 : FVec Ideal S256 .f32)
    (h : Cert.Pre_finite_inputs.fn (F := Ideal) a0 a1 a2 a3 a4 a5 a6 = fun _ => 1#1) :
    (∀ n e, IsReal (a0 (ix2 n e))) ∧ (∀ j d, IsReal (a1 (ix2 j d))) ∧ (∀ r i, IsReal (a2 (ix2 r i))) ∧ (∀ d e, IsReal (a3 (ix2 d e)))
      ∧ (∀ d, IsReal (a4 (ix1 d))) ∧ (∀ d e, IsReal (a5 (ix2 d e))) ∧ (∀ d, IsReal (a6 (ix1 d)))
      ∧ (∀ j, colsum (fun r i => a2 (ix2 r i)) j ≠ 0) := by
  have h0 : Cert.Pre_finite_inputs.fn (F := Ideal) a0 a1 a2 a3 a4 a5 a6 ix0 = 1#1 := congrFun h ix0
  unfold Cert.Pre_finite_inputs.fn Cert.Pre_finite_inputs.fn_part1 Cert.Pre_finite_inputs.fn_part2 at h0
  dsimp only at h0
  obtain ⟨h33, e8⟩ := andi_ix0 _ _ h0
  obtain ⟨h28, e7⟩ := andi_ix0 _ _ h33
  obtain ⟨h23, e6⟩ := andi_ix0 _ _ h28
  obtain ⟨h18, e5⟩ := andi_ix0 _ _ h23
  obtain ⟨h13, e4⟩ := andi_ix0 _ _ h18
  obtain ⟨h8, e3⟩ := andi_ix0 _ _ h13
  obtain ⟨e1, e2⟩ := andi_ix0 _ _ h8
  refine ⟨fun n e => all_real a0 _ _ _ e1 _, fun j d => all_real a1 _ _ _ e2 _, fun r i => all_real a2 _ _ _ e3 _,
    fun d e => all_real a3 _ _ _ e4 _, fun d => all_real a4 _ _ _ e5 _, fun d e => all_real a5 _ _ _ e6 _,
    fun d => all_real a6 _ _ _ e7 _, fun j => ?_⟩
  have hj := Host.reduce_andi_all _ _ Facts.reducesTo_S1024_S_d0 Facts.h_S_ ix0 e8 (ix1 j)
  have hne := ne_of_une _ hj
  rwa [colsum_read] at hne

end Cert.PreDecode

end
-- ==== Proof.SpecMain.lean ====
/-
  The two outputs agree: the mixings agree and are real (SpecMix), the logits agree and are real, and the
  softmax's shift cancels (SpecAttn).
-/
import proofs.«168895_g52209622450808_cont_9to1_m_767_18_alg».proof.Proof.SpecMix
import proofs.«168895_g52209622450808_cont_9to1_m_767_18_alg».proof.Proof.SpecAttn

noncomputable section

namespace Cert.Spec

open Idealize.ShloMosaic

variable (fx : Fin 4096 → Fin 1024 → EReal) (ot : Fin 1024 → Fin 256 → EReal) (mn : Fin 10000 → Fin 256 → EReal)
  (wq wk : Fin 256 → Fin 256 → EReal) (bq bk : Fin 256 → EReal)

/-- THE EQUIVALENCE: for finite inputs, nonzero column sums and any real shift, the two outputs agree. -/
theorem outK_eq_outR (hfx : ∀ r i, IsReal (fx r i)) (hot : ∀ j d, IsReal (ot j d)) (hmn : ∀ n e, IsReal (mn n e))
    (hwq : ∀ d e, IsReal (wq d e)) (hwk : ∀ d e, IsReal (wk d e)) (hbq : ∀ d, IsReal (bq d)) (hbk : ∀ d, IsReal (bk d))
    (hcol : ∀ j, colsum fx j ≠ 0) (M : Fin 10000 → EReal) (hM : ∀ n, IsReal (M n)) (n : Fin 10000) (d : Fin 256) :
    outK fx ot mn wq wk bq bk n d = outR fx ot mn wq wk bq bk M n d := by
  -- real witnesses: the shift, the logits of row n, the mixed entries of column d
  obtain ⟨m, hm⟩ := hM n
  have hl : ∀ j, IsReal (logitR ot mn wq wk bq bk n j) :=
    fun j => logitR_isReal ot mn wq wk bq bk hot hmn hwq hwk hbq hbk n j
  have hx : ∀ j, IsReal (mixK fx ot j d) := fun j => mixK_isReal fx ot hfx hot hcol j d
  choose l hl' using hl
  choose x hx' using hx
  unfold outK outR
  -- the kernel's logits are the reference's, the reference's mixing is the kernel's; all are real
  simp only [logitK_eq_logitR ot mn wq wk bq bk hot hmn hwq hwk hbq hbk, ← mixK_eq_mixR fx ot hcol, hl', hx', hm]
  exact softmax_shift l x m

end Cert.Spec

end
-- ==== Proof.lean ====
/-
  The certificate. The fused kernel keeps the Gram matrix of fix_feat in three quadrant buffers over four grid
  steps, finishes the preamble at the fourth (square roots, column sums, the rows of other_feat divided by
  them, the mixed rows, the keys scaled by 1/16), and runs one attention step per block of 2000 rows of
  main_feat: exponentials of the logits against the scaled keys, times the mixed rows, divided by the row sums.
  The reference normalises the columns of the root matrix, scales the logits, and subtracts the row maxima in its
  softmax. On the extended reals the two agree for finite inputs wherever the reference's column-sum
  denominators are nonzero (the added conjunct of the precondition; at a zero column the reference is 0/0):
  the two frames of the kernel come from the body's four runs, the reference's from its run, and the values
  meet in one pair of functions outK = outR (Spec, SpecMix, SpecAttn, SpecMain).
-/
import proofs.«168895_g52209622450808_cont_9to1_m_767_18_alg».proof.Defs
import proofs.«168895_g52209622450808_cont_9to1_m_767_18_alg».proof.Proof.Gen.Kernel
import proofs.«168895_g52209622450808_cont_9to1_m_767_18_alg».proof.Proof.Gen.Kernel.Skeleton
import proofs.«168895_g52209622450808_cont_9to1_m_767_18_alg».proof.Proof.Gen.Kernel.Launch
import proofs.«168895_g52209622450808_cont_9to1_m_767_18_alg».proof.Proof.Gen.Kernel.Points
import proofs.«168895_g52209622450808_cont_9to1_m_767_18_alg».proof.Proof.Gen.Kernel.Frame
import proofs.«168895_g52209622450808_cont_9to1_m_767_18_alg».proof.Proof.Gen.KernelIdeal
import proofs.«168895_g52209622450808_cont_9to1_m_767_18_alg».proof.Proof.Gen.KernelIdeal.Skeleton
import proofs.«168895_g52209622450808_cont_9to1_m_767_18_alg».proof.Proof.Gen.KernelIdeal.Launch
import proofs.«168895_g52209622450808_cont_9to1_m_767_18_alg».proof.Proof.Gen.KernelIdeal.Points
import proofs.«168895_g52209622450808_cont_9to1_m_767_18_alg».proof.Proof.Gen.KernelIdeal.Frame
import proofs.«168895_g52209622450808_cont_9to1_m_767_18_alg».proof.Proof.Gen.ReferenceIdeal
import proofs.«168895_g52209622450808_cont_9to1_m_767_18_alg».proof.Proof.Gen.ReferenceIdeal.Run
import proofs.«168895_g52209622450808_cont_9to1_m_767_18_alg».proof.Proof.Gen.ReferenceIdeal.Read
import proofs.«168895_g52209622450808_cont_9to1_m_767_18_alg».proof.Proof.Gen.Pre_finite_inputs
import proofs.«168895_g52209622450808_cont_9to1_m_767_18_alg».proof.Proof.K.Frame
import proofs.«168895_g52209622450808_cont_9to1_m_767_18_alg».proof.Proof.KI.Value
import proofs.«168895_g52209622450808_cont_9to1_m_767_18_alg».proof.Proof.Ref
import proofs.«168895_g52209622450808_cont_9to1_m_767_18_alg».proof.Proof.Pre
import proofs.«168895_g52209622450808_cont_9to1_m_767_18_alg».proof.Proof.SpecMain
import Idealize.ShloMosaic.Adequacy
import Idealize.ShloMosaic.Init

noncomputable section

namespace Cert.Proof

open Idealize.ShloMosaic Idealize.ShloMosaic.ValueIdx Idealize.SL.Sem

theorem frame_p : Cert.frame_Kernel := fun m ρ _ => Cert.Kernel.Gen.frame (F := Bits) m ρ
theorem frame_pi : Cert.frame_KernelIdeal := fun m ρ _ => Cert.KernelIdeal.Gen.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array is outK of its arguments and the reference's is outR of its own; the
    arguments agree, the precondition gives finite entries and nonzero column sums, the row maxima are real: outK = outR. -/
theorem algebraic : Cert.algebraic_KernelIdeal_ReferenceIdeal := by
  intro m ρ m' ρ' hpre hagree
  refine ⟨fun c => Cert.KernelIdeal.Val.Gout m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  obtain ⟨e0, e1, e2, e3, e4, e5, e6⟩ := hagree c
  rw [e0, e1, e2, e3, e4, e5, e6]
  obtain ⟨h0, h1, h2, h3, h4, h5, h6, hcol⟩ := Cert.PreDecode.decode _ _ _ _ _ _ _ (hpre c)
  funext y
  obtain ⟨n, d, rfl⟩ : ∃ (n : Fin 10000) (d : Fin 256), y = ix2 n d := ⟨y 0, y 1, eq_ix2 y⟩
  rw [Cert.ReferenceIdeal.RefValue.ref_value]
  unfold Cert.KernelIdeal.Val.Gout
  exact (Cert.Spec.outK_eq_outR _ _ _ _ _ _ _ h2 h1 h0 h3 h5 h4 h6 hcol _
    (Cert.ReferenceIdeal.RefValue.rowMax_isReal _ _ _ _ _ _ h1 h0 h3 h5 h4 h6) n d).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
